-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S256 : Shape := ⟨1, ![256]⟩
abbrev S128 : Shape := ⟨1, ![128]⟩
abbrev S64 : Shape := ⟨1, ![64]⟩
abbrev S256x1024 : Shape := ⟨2, ![256, 1024]⟩
abbrev S128x256 : Shape := ⟨2, ![128, 256]⟩
abbrev S64x128 : Shape := ⟨2, ![64, 128]⟩
abbrev S1000x64 : Shape := ⟨2, ![1000, 64]⟩
abbrev S1000 : Shape := ⟨1, ![1000]⟩
abbrev S1024x256 : Shape := ⟨2, ![1024, 256]⟩
abbrev S8192x256 : Shape := ⟨2, ![8192, 256]⟩
abbrev S1x256 : Shape := ⟨2, ![1, 256]⟩
abbrev S_ : Shape := ⟨0, ![]⟩
abbrev S256x128 : Shape := ⟨2, ![256, 128]⟩
abbrev S8192x128 : Shape := ⟨2, ![8192, 128]⟩
abbrev S1x128 : Shape := ⟨2, ![1, 128]⟩
abbrev S8192 : Shape := ⟨1, ![8192]⟩
abbrev S8192x1 : Shape := ⟨2, ![8192, 1]⟩
abbrev S128x64 : Shape := ⟨2, ![128, 64]⟩
abbrev S8192x64 : Shape := ⟨2, ![8192, 64]⟩

class Facts : Prop where
  transposes_S256x1024_S1024x256_1_0 : S256x1024.Transposes [1, 0] S1024x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S256x1024 : S_.BroadcastsInDim S256x1024 (![] : Fin 0 → Fin S256x1024.rank)
  reducesTo_S256x1024_S_d0_1 : S256x1024.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_
  bcast_S_S1000x64 : S_.BroadcastsInDim S1000x64 (![] : Fin 0 → Fin S1000x64.rank)
  reducesTo_S1000x64_S_d0_1 : S1000x64.ReducesTo [0, 1] S_
  bcast_S_S1000 : S_.BroadcastsInDim S1000 (![] : Fin 0 → Fin S1000.rank)
  reducesTo_S1000_S_d0 : S1000.ReducesTo [0] S_
  reducesTo_S8192x1024_S8192_d1 : S8192x1024.ReducesTo [1] S8192
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S_S8192x1 : S_.BroadcastsInDim S8192x1 (![] : Fin 0 → Fin S8192x1.rank)
  reducesTo_S8192x1_S_d0_1 : S8192x1.ReducesTo [0, 1] S_
  reducesTo_S8192x256_S8192_d1 : S8192x256.ReducesTo [1] S8192
  bcast_S8192x1_S8192x256_0_1 : S8192x1.BroadcastsInDim S8192x256 (![0, 1] : Fin 2 → Fin S8192x256.rank)
  reducesTo_S8192x128_S8192_d1 : S8192x128.ReducesTo [1] S8192
  bcast_S8192x1_S8192x128_0_1 : S8192x1.BroadcastsInDim S8192x128 (![0, 1] : Fin 2 → Fin S8192x128.rank)
  transposes_S64x128_S128x64_1_0 : S64x128.Transposes [1, 0] S128x64
  reducesTo_S8192x64_S8192_d1 : S8192x64.ReducesTo [1] S8192
  dot_S8192x1024_S1024x256_S8192x256_1_0_0_1_n_n_wf : DotDims.WF S8192x1024 S1024x256 S8192x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []

variable [Facts]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def fn_part8 {F : FTy → Type} [FloatOps F] (main_v133 : IVec S_ 1) (main_v141 : FVec F S8192x64 .f32) (main_v144 : IVec S_ 1) : IVec S_ 1 :=
  let main_v145 : FVec F S8192x64 .f32 := mulf main_v141 main_v141
  let main_cst_45 : FVec F S_ .f32 := constant S_ .f32 0x00000000#32
  let main_v146 : FVec F S8192 .f32 := (fun x v => Host.reduceAdd x v reducesTo_S8192x64_S8192_d1 h_S_) main_v145 main_cst_45
  let main_v147 : FVec F S8192x1 .f32 := broadcastInDim S8192x1 ![0] bcast_S8192_S8192x1_0 main_v146
  let main_v148 : FVec F S8192x1 .f32 := Host.sqrt main_v147
  let main_cst_46 : FVec F S_ .f32 := constant S_ .f32 0x00000000#32
  let main_v149 : FVec F S8192x1 .f32 := broadcastInDim S8192x1 ![] bcast_S_S8192x1 main_cst_46
  let main_v150 : IVec S8192x1 1 := cmpf .ogt main_v148 main_v149
  let main_c_47 : IVec S_ 1 := constantI S_ 1 1#1
  let main_v151 : IVec S_ 1 := (fun x v => Host.reduce IntOp.andi x v reducesTo_S8192x1_S_d0_1 h_S_) main_v150 main_c_47
  let main_v152 : IVec S_ 1 := andi main_v144 main_v151
  let main_v153 : IVec S_ 1 := andi main_v133 main_v152
  main_v153

def fn_part7 {F : FTy → Type} [FloatOps F] (main_arg14 : FVec F S64x128 .f32) (main_v19 : FVec F S8192x128 .f32) (main_v113 : IVec S_ 1) (main_v124 : IVec S_ 1) (main_v125 : FVec F S8192x128 .f32) (main_cst_39 : FVec F S_ .f32) : IVec S_ 1 :=
  let main_v126 : FVec F S8192 .f32 := (fun x v => Host.reduceAdd x v reducesTo_S8192x128_S8192_d1 h_S_) main_v125 main_cst_39
  let main_v127 : FVec F S8192x1 .f32 := broadcastInDim S8192x1 ![0] bcast_S8192_S8192x1_0 main_v126
  let main_v128 : FVec F S8192x1 .f32 := Host.sqrt main_v127
  let main_cst_40 : FVec F S_ .f32 := constant S_ .f32 0x00000000#32
  let main_v129 : FVec F S8192x1 .f32 := broadcastInDim S8192x1 ![] bcast_S_S8192x1 main_cst_40
  let main_v130 : IVec S8192x1 1 := cmpf .ogt main_v128 main_v129
  let main_c_41 : IVec S_ 1 := constantI S_ 1 1#1
  let main_v131 : IVec S_ 1 := (fun x v => Host.reduce IntOp.andi x v reducesTo_S8192x1_S_d0_1 h_S_) main_v130 main_c_41
  let main_v132 : IVec S_ 1 := andi main_v124 main_v131
  let main_v133 : IVec S_ 1 := andi main_v113 main_v132
  let main_v134 : FVec F S8192x128 .f32 := mulf main_v19 main_v19
  let main_cst_42 : FVec F S_ .f32 := constant S_ .f32 0x00000000#32
  let main_v135 : FVec F S8192 .f32 := (fun x v => Host.reduceAdd x v reducesTo_S8192x128_S8192_d1 h_S_) main_v134 main_cst_42
  let main_v136 : FVec F S8192x1 .f32 := broadcastInDim S8192x1 ![0] bcast_S8192_S8192x1_0 main_v135
  let main_v137 : FVec F S8192x1 .f32 := Host.sqrt main_v136
  let main_v138 : FVec F S8192x128 .f32 := broadcastInDim S8192x128 ![0, 1] bcast_S8192x1_S8192x128_0_1 main_v137
  let main_v139 : FVec F S8192x128 .f32 := Host.divf main_v19 main_v138
  let main_v140 : FVec F S128x64 .f32 := (transpose S128x64 [1, 0] · transposes_S64x128_S128x64_1_0) main_arg14
  let main_v141 : FVec F S8192x64 .f32 := (fun l r => Host.dotGeneral dot_S8192x128_S128x64_S8192x64_1_0_0_1_n_n none l r) main_v139 main_v140
  let main_cst_43 : FVec F S_ .f32 := constant S_ .f32 0x00000000#32
  let main_v142 : FVec F S8192x1 .f32 := broadcastInDim S8192x1 ![] bcast_S_S8192x1 main_cst_43
  let main_v143 : IVec S8192x1 1 := cmpf .ogt main_v137 main_v142
  let main_c_44 : IVec S_ 1 := constantI S_ 1 1#1
  let main_v144 : IVec S_ 1 := (fun x v => Host.reduce IntOp.andi x v reducesTo_S8192x1_S_d0_1 h_S_) main_v143 main_c_44
  fn_part8 (F := F) main_v133 main_v141 main_v144

def fn_part6 {F : FTy → Type} [FloatOps F] (main_arg13 : FVec F S128x256 .f32) (main_arg14 : FVec F S64x128 .f32) (main_v9 : FVec F S8192x256 .f32) (main_v19 : FVec F S8192x128 .f32) (main_v93 : IVec S_ 1) (main_v104 : IVec S_ 1) (main_v107 : FVec F S8192x1 .f32) : IVec S_ 1 :=
  let main_v108 : FVec F S8192x1 .f32 := Host.sqrt main_v107
  let main_cst_34 : FVec F S_ .f32 := constant S_ .f32 0x00000000#32
  let main_v109 : FVec F S8192x1 .f32 := broadcastInDim S8192x1 ![] bcast_S_S8192x1 main_cst_34
  let main_v110 : IVec S8192x1 1 := cmpf .ogt main_v108 main_v109
  let main_c_35 : IVec S_ 1 := constantI S_ 1 1#1
  let main_v111 : IVec S_ 1 := (fun x v => Host.reduce IntOp.andi x v reducesTo_S8192x1_S_d0_1 h_S_) main_v110 main_c_35
  let main_v112 : IVec S_ 1 := andi main_v104 main_v111
  let main_v113 : IVec S_ 1 := andi main_v93 main_v112
  let main_v114 : FVec F S8192x256 .f32 := mulf main_v9 main_v9
  let main_cst_36 : FVec F S_ .f32 := constant S_ .f32 0x00000000#32
  let main_v115 : FVec F S8192 .f32 := (fun x v => Host.reduceAdd x v reducesTo_S8192x256_S8192_d1 h_S_) main_v114 main_cst_36
  let main_v116 : FVec F S8192x1 .f32 := broadcastInDim S8192x1 ![0] bcast_S8192_S8192x1_0 main_v115
  let main_v117 : FVec F S8192x1 .f32 := Host.sqrt main_v116
  let main_v118 : FVec F S8192x256 .f32 := broadcastInDim S8192x256 ![0, 1] bcast_S8192x1_S8192x256_0_1 main_v117
  let main_v119 : FVec F S8192x256 .f32 := Host.divf main_v9 main_v118
  let main_v120 : FVec F S256x128 .f32 := (transpose S256x128 [1, 0] · transposes_S128x256_S256x128_1_0) main_arg13
  let main_v121 : FVec F S8192x128 .f32 := (fun l r => Host.dotGeneral dot_S8192x256_S256x128_S8192x128_1_0_0_1_n_n none l r) main_v119 main_v120
  let main_cst_37 : FVec F S_ .f32 := constant S_ .f32 0x00000000#32
  let main_v122 : FVec F S8192x1 .f32 := broadcastInDim S8192x1 ![] bcast_S_S8192x1 main_cst_37
  let main_v123 : IVec S8192x1 1 := cmpf .ogt main_v117 main_v122
  let main_c_38 : IVec S_ 1 := constantI S_ 1 1#1
  let main_v124 : IVec S_ 1 := (fun x v => Host.reduce IntOp.andi x v reducesTo_S8192x1_S_d0_1 h_S_) main_v123 main_c_38
  let main_v125 : FVec F S8192x128 .f32 := mulf main_v121 main_v121
  let main_cst_39 : FVec F S_ .f32 := constant S_ .f32 0x00000000#32
  fn_part7 (F := F) main_arg14 main_v19 main_v113 main_v124 main_v125 main_cst_39

def fn_part5 {F : FTy → Type} [FloatOps F] (main_arg0 : FVec F S8192x1024 .f32) (main_arg12 : FVec F S256x1024 .f32) (main_arg13 : FVec F S128x256 .f32) (main_arg14 : FVec F S64x128 .f32) (main_v9 : FVec F S8192x256 .f32) (main_v19 : FVec F S8192x128 .f32) (main_v88 : IVec S_ 1) (main_v89 : FVec F S64x128 .f32) : IVec S_ 1 :=
  let main_cst_28 : FVec F S_ .f32 := constant S_ .f32 0x7F800000#32
  let main_v90 : FVec F S64x128 .f32 := broadcastInDim S64x128 ![] bcast_S_S64x128 main_cst_28
  let main_v91 : IVec S64x128 1 := cmpf .olt main_v89 main_v90
  let main_c_29 : IVec S_ 1 := constantI S_ 1 1#1
  let main_v92 : IVec S_ 1 := (fun x v => Host.reduce IntOp.andi x v reducesTo_S64x128_S_d0_1 h_S_) main_v91 main_c_29
  let main_v93 : IVec S_ 1 := andi main_v88 main_v92
  let main_v94 : FVec F S8192x1024 .f32 := mulf main_arg0 main_arg0
  let main_cst_30 : FVec F S_ .f32 := constant S_ .f32 0x00000000#32
  let main_v95 : FVec F S8192 .f32 := (fun x v => Host.reduceAdd x v reducesTo_S8192x1024_S8192_d1 h_S_) main_v94 main_cst_30
  let main_v96 : FVec F S8192x1 .f32 := broadcastInDim S8192x1 ![0] bcast_S8192_S8192x1_0 main_v95
  let main_v97 : FVec F S8192x1 .f32 := Host.sqrt main_v96
  let main_v98 : FVec F S8192x1024 .f32 := broadcastInDim S8192x1024 ![0, 1] bcast_S8192x1_S8192x1024_0_1 main_v97
  let main_v99 : FVec F S8192x1024 .f32 := Host.divf main_arg0 main_v98
  let main_v100 : FVec F S1024x256 .f32 := (transpose S1024x256 [1, 0] · transposes_S256x1024_S1024x256_1_0) main_arg12
  let main_v101 : FVec F S8192x256 .f32 := (fun l r => Host.dotGeneral dot_S8192x1024_S1024x256_S8192x256_1_0_0_1_n_n none l r) main_v99 main_v100
  let main_cst_31 : FVec F S_ .f32 := constant S_ .f32 0x00000000#32
  let main_v102 : FVec F S8192x1 .f32 := broadcastInDim S8192x1 ![] bcast_S_S8192x1 main_cst_31
  let main_v103 : IVec S8192x1 1 := cmpf .ogt main_v97 main_v102
  let main_c_32 : IVec S_ 1 := constantI S_ 1 1#1
  let main_v104 : IVec S_ 1 := (fun x v => Host.reduce IntOp.andi x v reducesTo_S8192x1_S_d0_1 h_S_) main_v103 main_c_32
  let main_v105 : FVec F S8192x256 .f32 := mulf main_v101 main_v101
  let main_cst_33 : FVec F S_ .f32 := constant S_ .f32 0x00000000#32
  let main_v106 : FVec F S8192 .f32 := (fun x v => Host.reduceAdd x v reducesTo_S8192x256_S8192_d1 h_S_) main_v105 main_cst_33
  let main_v107 : FVec F S8192x1 .f32 := broadcastInDim S8192x1 ![0] bcast_S8192_S8192x1_0 main_v106
  fn_part6 (F := F) main_arg13 main_arg14 main_v9 main_v19 main_v93 main_v104 main_v107

def fn_part4 {F : FTy → Type} [FloatOps F] (main_arg0 : FVec F S8192x1024 .f32) (main_arg11 : FVec F S1000 .f32) (main_arg12 : FVec F S256x1024 .f32) (main_arg13 : FVec F S128x256 .f32) (main_arg14 : FVec F S64x128 .f32) (main_v9 : FVec F S8192x256 .f32) (main_v19 : FVec F S8192x128 .f32) (main_v68 : IVec S_ 1) (main_v71 : IVec S1000x64 1) (main_c_21 : IVec S_ 1) : IVec S_ 1 :=
  let main_v72 : IVec S_ 1 := (fun x v => Host.reduce IntOp.andi x v reducesTo_S1000x64_S_d0_1 h_S_) main_v71 main_c_21
  let main_v73 : IVec S_ 1 := andi main_v68 main_v72
  let main_v74 : FVec F S1000 .f32 := Host.absf main_arg11
  let main_cst_22 : FVec F S_ .f32 := constant S_ .f32 0x7F800000#32
  let main_v75 : FVec F S1000 .f32 := broadcastInDim S1000 ![] bcast_S_S1000 main_cst_22
  let main_v76 : IVec S1000 1 := cmpf .olt main_v74 main_v75
  let main_c_23 : IVec S_ 1 := constantI S_ 1 1#1
  let main_v77 : IVec S_ 1 := (fun x v => Host.reduce IntOp.andi x v reducesTo_S1000_S_d0 h_S_) main_v76 main_c_23
  let main_v78 : IVec S_ 1 := andi main_v73 main_v77
  let main_v79 : FVec F S256x1024 .f32 := Host.absf main_arg12
  let main_cst_24 : FVec F S_ .f32 := constant S_ .f32 0x7F800000#32
  let main_v80 : FVec F S256x1024 .f32 := broadcastInDim S256x1024 ![] bcast_S_S256x1024 main_cst_24
  let main_v81 : IVec S256x1024 1 := cmpf .olt main_v79 main_v80
  let main_c_25 : IVec S_ 1 := constantI S_ 1 1#1
  let main_v82 : IVec S_ 1 := (fun x v => Host.reduce IntOp.andi x v reducesTo_S256x1024_S_d0_1 h_S_) main_v81 main_c_25
  let main_v83 : IVec S_ 1 := andi main_v78 main_v82
  let main_v84 : FVec F S128x256 .f32 := Host.absf main_arg13
  let main_cst_26 : FVec F S_ .f32 := constant S_ .f32 0x7F800000#32
  let main_v85 : FVec F S128x256 .f32 := broadcastInDim S128x256 ![] bcast_S_S128x256 main_cst_26
  let main_v86 : IVec S128x256 1 := cmpf .olt main_v84 main_v85
  let main_c_27 : IVec S_ 1 := constantI S_ 1 1#1
  let main_v87 : IVec S_ 1 := (fun x v => Host.reduce IntOp.andi x v reducesTo_S128x256_S_d0_1 h_S_) main_v86 main_c_27
  let main_v88 : IVec S_ 1 := andi main_v83 main_v87
  let main_v89 : FVec F S64x128 .f32 := Host.absf main_arg14
  fn_part5 (F := F) main_arg0 main_arg12 main_arg13 main_arg14 main_v9 main_v19 main_v88 main_v89

def fn_part3 {F : FTy → Type} [FloatOps F] (main_arg0 : FVec F S8192x1024 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v9 : FVec F S8192x256 .f32) (main_v19 : FVec F S8192x128 .f32) (main_v53 : IVec S_ 1) (main_v54 : FVec F S128 .f32) (main_cst_14 : FVec F S_ .f32) : IVec S_ 1 :=
  let main_v55 : FVec F S128 .f32 := broadcastInDim S128 ![] bcast_S_S128 main_cst_14
  let main_v56 : IVec S128 1 := cmpf .olt main_v54 main_v55
  let main_c_15 : IVec S_ 1 := constantI S_ 1 1#1
  let main_v57 : IVec S_ 1 := (fun x v => Host.reduce IntOp.andi x v reducesTo_S128_S_d0 h_S_) main_v56 main_c_15
  let main_v58 : IVec S_ 1 := andi main_v53 main_v57
  let main_v59 : FVec F S64x128 .f32 := Host.absf main_arg8
  let main_cst_16 : FVec F S_ .f32 := constant S_ .f32 0x7F800000#32
  let main_v60 : FVec F S64x128 .f32 := broadcastInDim S64x128 ![] bcast_S_S64x128 main_cst_16
  let main_v61 : IVec S64x128 1 := cmpf .olt main_v59 main_v60
  let main_c_17 : IVec S_ 1 := constantI S_ 1 1#1
  let main_v62 : IVec S_ 1 := (fun x v => Host.reduce IntOp.andi x v reducesTo_S64x128_S_d0_1 h_S_) main_v61 main_c_17
  let main_v63 : IVec S_ 1 := andi main_v58 main_v62
  let main_v64 : FVec F S64 .f32 := Host.absf main_arg9
  let main_cst_18 : FVec F S_ .f32 := constant S_ .f32 0x7F800000#32
  let main_v65 : FVec F S64 .f32 := broadcastInDim S64 ![] bcast_S_S64 main_cst_18
  let main_v66 : IVec S64 1 := cmpf .olt main_v64 main_v65
  let main_c_19 : IVec S_ 1 := constantI S_ 1 1#1
  let main_v67 : IVec S_ 1 := (fun x v => Host.reduce IntOp.andi x v reducesTo_S64_S_d0 h_S_) main_v66 main_c_19
  let main_v68 : IVec S_ 1 := andi main_v63 main_v67
  let main_v69 : FVec F S1000x64 .f32 := Host.absf main_arg10
  let main_cst_20 : FVec F S_ .f32 := constant S_ .f32 0x7F800000#32
  let main_v70 : FVec F S1000x64 .f32 := broadcastInDim S1000x64 ![] bcast_S_S1000x64 main_cst_20
  let main_v71 : IVec S1000x64 1 := cmpf .olt main_v69 main_v70
  let main_c_21 : IVec S_ 1 := constantI S_ 1 1#1
  fn_part4 (F := F) main_arg0 main_arg11 main_arg12 main_arg13 main_arg14 main_v9 main_v19 main_v68 main_v71 main_c_21

def fn_part2 {F : FTy → Type} [FloatOps F] (main_arg0 : FVec F S8192x1024 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v9 : FVec F S8192x256 .f32) (main_v19 : FVec F S8192x128 .f32) (main_v33 : IVec S_ 1) (main_v37 : IVec S_ 1) : IVec S_ 1 :=
  let main_v38 : IVec S_ 1 := andi main_v33 main_v37
  let main_v39 : FVec F S256x1024 .f32 := Host.absf main_arg4
  let main_cst_8 : FVec F S_ .f32 := constant S_ .f32 0x7F800000#32
  let main_v40 : FVec F S256x1024 .f32 := broadcastInDim S256x1024 ![] bcast_S_S256x1024 main_cst_8
  let main_v41 : IVec S256x1024 1 := cmpf .olt main_v39 main_v40
  let main_c_9 : IVec S_ 1 := constantI S_ 1 1#1
  let main_v42 : IVec S_ 1 := (fun x v => Host.reduce IntOp.andi x v reducesTo_S256x1024_S_d0_1 h_S_) main_v41 main_c_9
  let main_v43 : IVec S_ 1 := andi main_v38 main_v42
  let main_v44 : FVec F S256 .f32 := Host.absf main_arg5
  let main_cst_10 : FVec F S_ .f32 := constant S_ .f32 0x7F800000#32
  let main_v45 : FVec F S256 .f32 := broadcastInDim S256 ![] bcast_S_S256 main_cst_10
  let main_v46 : IVec S256 1 := cmpf .olt main_v44 main_v45
  let main_c_11 : IVec S_ 1 := constantI S_ 1 1#1
  let main_v47 : IVec S_ 1 := (fun x v => Host.reduce IntOp.andi x v reducesTo_S256_S_d0 h_S_) main_v46 main_c_11
  let main_v48 : IVec S_ 1 := andi main_v43 main_v47
  let main_v49 : FVec F S128x256 .f32 := Host.absf main_arg6
  let main_cst_12 : FVec F S_ .f32 := constant S_ .f32 0x7F800000#32
  let main_v50 : FVec F S128x256 .f32 := broadcastInDim S128x256 ![] bcast_S_S128x256 main_cst_12
  let main_v51 : IVec S128x256 1 := cmpf .olt main_v49 main_v50
  let main_c_13 : IVec S_ 1 := constantI S_ 1 1#1
  let main_v52 : IVec S_ 1 := (fun x v => Host.reduce IntOp.andi x v reducesTo_S128x256_S_d0_1 h_S_) main_v51 main_c_13
  let main_v53 : IVec S_ 1 := andi main_v48 main_v52
  let main_v54 : FVec F S128 .f32 := Host.absf main_arg7
  let main_cst_14 : FVec F S_ .f32 := constant S_ .f32 0x7F800000#32
  fn_part3 (F := F) main_arg0 main_arg8 main_arg9 main_arg10 main_arg11 main_arg12 main_arg13 main_arg14 main_v9 main_v19 main_v53 main_v54 main_cst_14

def fn_part1 {F : FTy → Type} [FloatOps F] (main_arg0 : FVec F S8192x1024 .f32) (main_arg1 : FVec F S256 .f32) (main_arg2 : FVec F S128 .f32) (main_arg3 : FVec F S64 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) (main_v9 : FVec F S8192x256 .f32) (main_v19 : FVec F S8192x128 .f32) (main_v20 : FVec F S8192x1024 .f32) (main_cst_1 : FVec F S_ .f32) : IVec S_ 1 :=
  let main_v21 : FVec F S8192x1024 .f32 := broadcastInDim S8192x1024 ![] bcast_S_S8192x1024 main_cst_1
  let main_v22 : IVec S8192x1024 1 := cmpf .olt main_v20 main_v21
  let main_c : IVec S_ 1 := constantI S_ 1 1#1
  let main_v23 : IVec S_ 1 := (fun x v => Host.reduce IntOp.andi x v reducesTo_S8192x1024_S_d0_1 h_S_) main_v22 main_c
  let main_v24 : FVec F S256 .f32 := Host.absf main_arg1
  let main_cst_2 : FVec F S_ .f32 := constant S_ .f32 0x7F800000#32
  let main_v25 : FVec F S256 .f32 := broadcastInDim S256 ![] bcast_S_S256 main_cst_2
  let main_v26 : IVec S256 1 := cmpf .olt main_v24 main_v25
  let main_c_3 : IVec S_ 1 := constantI S_ 1 1#1
  let main_v27 : IVec S_ 1 := (fun x v => Host.reduce IntOp.andi x v reducesTo_S256_S_d0 h_S_) main_v26 main_c_3
  let main_v28 : IVec S_ 1 := andi main_v23 main_v27
  let main_v29 : FVec F S128 .f32 := Host.absf main_arg2
  let main_cst_4 : FVec F S_ .f32 := constant S_ .f32 0x7F800000#32
  let main_v30 : FVec F S128 .f32 := broadcastInDim S128 ![] bcast_S_S128 main_cst_4
  let main_v31 : IVec S128 1 := cmpf .olt main_v29 main_v30
  let main_c_5 : IVec S_ 1 := constantI S_ 1 1#1
  let main_v32 : IVec S_ 1 := (fun x v => Host.reduce IntOp.andi x v reducesTo_S128_S_d0 h_S_) main_v31 main_c_5
  let main_v33 : IVec S_ 1 := andi main_v28 main_v32
  let main_v34 : FVec F S64 .f32 := Host.absf main_arg3
  let main_cst_6 : FVec F S_ .f32 := constant S_ .f32 0x7F800000#32
  let main_v35 : FVec F S64 .f32 := broadcastInDim S64 ![] bcast_S_S64 main_cst_6
  let main_v36 : IVec S64 1 := cmpf .olt main_v34 main_v35
  let main_c_7 : IVec S_ 1 := constantI S_ 1 1#1
  let main_v37 : IVec S_ 1 := (fun x v => Host.reduce IntOp.andi x v reducesTo_S64_S_d0 h_S_) main_v36 main_c_7
  fn_part2 (F := F) main_arg0 main_arg4 main_arg5 main_arg6 main_arg7 main_arg8 main_arg9 main_arg10 main_arg11 main_arg12 main_arg13 main_arg14 main_v9 main_v19 main_v33 main_v37

def fn {F : FTy → Type} [FloatOps F] (main_arg0 : FVec F S8192x1024 .f32) (main_arg1 : FVec F S256 .f32) (main_arg2 : FVec F S128 .f32) (main_arg3 : FVec F S64 .f32) (main_arg4 : FVec F S256x1024 .f32) (main_arg5 : FVec F S256 .f32) (main_arg6 : FVec F S128x256 .f32) (main_arg7 : FVec F S128 .f32) (main_arg8 : FVec F S64x128 .f32) (main_arg9 : FVec F S64 .f32) (main_arg10 : FVec F S1000x64 .f32) (main_arg11 : FVec F S1000 .f32) (main_arg12 : FVec F S256x1024 .f32) (main_arg13 : FVec F S128x256 .f32) (main_arg14 : FVec F S64x128 .f32) : IVec S_ 1 :=
  let main_v0 : FVec F S1024x256 .f32 := (transpose S1024x256 [1, 0] · transposes_S256x1024_S1024x256_1_0) main_arg4
  let main_v1 : FVec F S8192x256 .f32 := (fun l r => Host.dotGeneral dot_S8192x1024_S1024x256_S8192x256_1_0_0_1_n_n none l r) main_arg0 main_v0
  let main_v2 : FVec F S1x256 .f32 := broadcastInDim S1x256 ![1] bcast_S256_S1x256_1 main_arg5
  let main_v3 : FVec F S8192x256 .f32 := broadcastInDim S8192x256 ![0, 1] bcast_S1x256_S8192x256_0_1 main_v2
  let main_v4 : FVec F S8192x256 .f32 := addf main_v1 main_v3
  let main_cst : FVec F S_ .f32 := constant S_ .f32 0x00000000#32
  let main_v5 : FVec F S8192x256 .f32 := broadcastInDim S8192x256 ![] bcast_S_S8192x256 main_cst
  let main_v6 : FVec F S8192x256 .f32 := maximumf main_v4 main_v5
  let main_v7 : FVec F S1x256 .f32 := broadcastInDim S1x256 ![1] bcast_S256_S1x256_1 main_arg1
  let main_v8 : FVec F S8192x256 .f32 := broadcastInDim S8192x256 ![0, 1] bcast_S1x256_S8192x256_0_1 main_v7
  let main_v9 : FVec F S8192x256 .f32 := mulf main_v6 main_v8
  let main_v10 : FVec F S256x128 .f32 := (transpose S256x128 [1, 0] · transposes_S128x256_S256x128_1_0) main_arg6
  let main_v11 : FVec F S8192x128 .f32 := (fun l r => Host.dotGeneral dot_S8192x256_S256x128_S8192x128_1_0_0_1_n_n none l r) main_v9 main_v10
  let main_v12 : FVec F S1x128 .f32 := broadcastInDim S1x128 ![1] bcast_S128_S1x128_1 main_arg7
  let main_v13 : FVec F S8192x128 .f32 := broadcastInDim S8192x128 ![0, 1] bcast_S1x128_S8192x128_0_1 main_v12
  let main_v14 : FVec F S8192x128 .f32 := addf main_v11 main_v13
  let main_cst_0 : FVec F S_ .f32 := constant S_ .f32 0x00000000#32
  let main_v15 : FVec F S8192x128 .f32 := broadcastInDim S8192x128 ![] bcast_S_S8192x128 main_cst_0
  let main_v16 : FVec F S8192x128 .f32 := maximumf main_v14 main_v15
  let main_v17 : FVec F S1x128 .f32 := broadcastInDim S1x128 ![1] bcast_S128_S1x128_1 main_arg2
  let main_v18 : FVec F S8192x128 .f32 := broadcastInDim S8192x128 ![0, 1] bcast_S1x128_S8192x128_0_1 main_v17
  let main_v19 : FVec F S8192x128 .f32 := mulf main_v16 main_v18
  let main_v20 : FVec F S8192x1024 .f32 := Host.absf main_arg0
  let main_cst_1 : FVec F S_ .f32 := constant S_ .f32 0x7F800000#32
  fn_part1 (F := F) main_arg0 main_arg1 main_arg2 main_arg3 main_arg4 main_arg5 main_arg6 main_arg7 main_arg8 main_arg9 main_arg10 main_arg11 main_arg12 main_arg13 main_arg14 main_v9 main_v19 main_v20 main_cst_1
-- ==== Kernel.lean ====
abbrev S8192x1024 : Shape := ⟨2, ![8192, 1024]⟩
abbrev S256 : Shape := ⟨1, ![256]⟩
abbrev S128 : Shape := ⟨1, ![128]⟩
abbrev S64 : Shape := ⟨1, ![64]⟩
abbrev S256x1024 : Shape := ⟨2, ![256, 1024]⟩
abbrev S128x256 : Shape := ⟨2, ![128, 256]⟩
abbrev S64x128 : Shape := ⟨2, ![64, 128]⟩
abbrev S1000x64 : Shape := ⟨2, ![1000, 64]⟩
abbrev S1000 : Shape := ⟨1, ![1000]⟩
abbrev S_ : Shape := ⟨0, ![]⟩
abbrev S1x256 : Shape := ⟨2, ![1, 256]⟩
abbrev S1x128 : Shape := ⟨2, ![1, 128]⟩
abbrev S1x64 : Shape := ⟨2, ![1, 64]⟩
abbrev S1024x64 : Shape := ⟨2, ![1024, 64]⟩
abbrev S1024 : Shape := ⟨1, ![1024]⟩
abbrev S1x1024 : Shape := ⟨2, ![1, 1024]⟩
abbrev S512x1024 : Shape := ⟨2, ![512, 1024]⟩
abbrev S1x1 : Shape := ⟨2, ![1, 1]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S1 : Shape := ⟨1, ![1]⟩
abbrev S256x128 : Shape := ⟨2, ![256, 128]⟩
abbrev S512x128 : Shape := ⟨2, ![512, 128]⟩
abbrev S128x64 : Shape := ⟨2, ![128, 64]⟩
abbrev S512x64 : Shape := ⟨2, ![512, 64]⟩
abbrev S64x1024 : Shape := ⟨2, ![64, 1024]⟩
abbrev S8192x1000 : Shape := ⟨2, ![8192, 1000]⟩

abbrev nBuf : Space → Nat
  | .hbm => 45
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S256, .f32⟩
  | .hbm, ⟨2, _⟩ => ⟨S128, .f32⟩
  | .hbm, ⟨3, _⟩ => ⟨S64, .f32⟩
  | .hbm, ⟨4, _⟩ => ⟨S256x1024, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S1000x64, .f32⟩
  | .hbm, ⟨11, _⟩ => ⟨S1000, .f32⟩
  | .hbm, ⟨12, _⟩ => ⟨S256x1024, .f32⟩
  | .hbm, ⟨13, _⟩ => ⟨S128x256, .f32⟩
  | .hbm, ⟨14, _⟩ => ⟨S64x128, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S64, .f32⟩
  | .hbm, ⟨23, _⟩ => ⟨S1x64, .f32⟩
  | .hbm, ⟨24, _⟩ => ⟨S1x256, .f32⟩
  | .hbm, ⟨25, _⟩ => ⟨S1x256, .f32⟩
  | .hbm, ⟨26, _⟩ => ⟨S1x128, .f32⟩
  | .hbm, ⟨27, _⟩ => ⟨S1x128, .f32⟩
  | .hbm, ⟨28, _⟩ => ⟨S1x64, .f32⟩
  | .hbm, ⟨29, _⟩ => ⟨S1x64, .f32⟩
  | .hbm, ⟨30, _⟩ => ⟨S_, .i32⟩
  | .hbm, ⟨31, _⟩ => ⟨S_, .f32⟩
  | .hbm, ⟨32, _⟩ => ⟨S1024x64, .f32⟩
  | .hbm, ⟨33, _⟩ => ⟨S_, .i32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S1x256, .f32⟩
  | .hbm, ⟨39, _⟩ => ⟨S1x128, .f32⟩
  | .hbm, ⟨40, _⟩ => ⟨S1x64, .f32⟩
  | .hbm, ⟨41, _⟩ => ⟨S8192x1000, .f32⟩
  | .hbm, ⟨42, _⟩ => ⟨S256, .f32⟩
  | .hbm, ⟨43, _⟩ => ⟨S128, .f32⟩
  | .hbm, ⟨44, _⟩ => ⟨S64, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S1x256, .f32⟩
  | .local _ .vmem, ⟨4, _⟩ => ⟨S1x256, .f32⟩
  | .local _ .vmem, ⟨5, _⟩ => ⟨S256x1024, .f32⟩
  | .local _ .vmem, ⟨6, _⟩ => ⟨S1x256, .f32⟩
  | .local _ .vmem, ⟨7, _⟩ => ⟨S128x256, .f32⟩
  | .local _ .vmem, ⟨8, _⟩ => ⟨S1x128, .f32⟩
  | .local _ .vmem, ⟨9, _⟩ => ⟨S1x128, .f32⟩
  | .local _ .vmem, ⟨10, _⟩ => ⟨S128x256, .f32⟩
  | .local _ .vmem, ⟨11, _⟩ => ⟨S1x128, .f32⟩
  | .local _ .vmem, ⟨12, _⟩ => ⟨S64x128, .f32⟩
  | .local _ .vmem, ⟨13, _⟩ => ⟨S1x64, .f32⟩
  | .local _ .vmem, ⟨14, _⟩ => ⟨S1x64, .f32⟩
  | .local _ .vmem, ⟨15, _⟩ => ⟨S64x128, .f32⟩
  | .local _ .vmem, ⟨16, _⟩ => ⟨S1x64, .f32⟩
  | .local _ .vmem, ⟨17, _⟩ => ⟨S1024x64, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x256, .f32⟩
  | .local _ .vmem, ⟨22, _⟩ => ⟨S1x128, .f32⟩
  | .local _ .vmem, ⟨23, _⟩ => ⟨S1x64, .f32⟩
  | .local _ .vmem, ⟨24, _⟩ => ⟨S1x1, .f32⟩
  | .local _ .vmem, ⟨25, _⟩ => ⟨S1x256, .f32⟩
  | .local _ .vmem, ⟨26, _⟩ => ⟨S1x1, .f32⟩
  | .local _ .vmem, ⟨27, _⟩ => ⟨S1x128, .f32⟩
  | .local _ .vmem, ⟨28, _⟩ => ⟨S1x1, .f32⟩
  | .local _ .vmem, ⟨29, _⟩ => ⟨S1x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_call0_v0 : Ref sig .tc := ⟨.hbm, 31, rfl⟩
abbrev main_v12 : Ref sig .tc := ⟨.hbm, 32, rfl⟩
abbrev main_c_2 : Ref sig .tc := ⟨.hbm, 33, rfl⟩
abbrev main_call1_v0 : Ref sig .tc := ⟨.hbm, 34, rfl⟩
abbrev main_v13 : Ref sig .tc := ⟨.hbm, 35, rfl⟩
abbrev main_v14 : Ref sig .tc := ⟨.hbm, 36, rfl⟩
abbrev main_v15_0 : Ref sig .tc := ⟨.hbm, 37, rfl⟩
abbrev main_v15_1 : Ref sig .tc := ⟨.hbm, 38, rfl⟩
abbrev main_v15_2 : Ref sig .tc := ⟨.hbm, 39, rfl⟩
abbrev main_v15_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem20_0 : DmaSem sig := 22
abbrev cc0_sem21_0 : DmaSem sig := 23

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v162 : BitVec 1 := Scalar.cmpi .eq arg0 c15_i32
  let v163 : BitVec 32 := Scalar.extui v162
  let c0_i32_84 : BitVec 32 := 0#32
  let v164 : BitVec 1 := Scalar.cmpi .ne v163 c0_i32_84
  v164

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

class Facts₀ : Prop where
  reducesTo_S256x1024_S256_d1 : S256x1024.ReducesTo [1] S256
  h_S_ : 0 < S_.numel
  shapeCasts_S256_S1x256 : S256.ShapeCasts S1x256
  reducesTo_S128x256_S128_d1 : S128x256.ReducesTo [1] S128
  shapeCasts_S128_S1x128 : S128.ShapeCasts S1x128
  reducesTo_S64x128_S64_d1 : S64x128.ReducesTo [1] S64
  shapeCasts_S64_S1x64 : S64.ShapeCasts S1x64
  pads_S1000x64_S1024x64_0240_000 : S1000x64.Pads (![0, 0] : Fin 2 → Nat) ![24, 0] ![0, 0] S1024x64
  pads_S1000_S1024_0240 : S1000.Pads (![0] : Fin 1 → Nat) ![24] ![0] S1024
  shapeCasts_S1024_S1x1024 : S1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S512x1024_S512x1024_0_0 : ∀ a, (![0, 0] : Fin 2 → Nat) a + S512x1024.size a ≤ S512x1024.size a
  h_S512x1024 : 0 < S512x1024.numel
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  broadcasts_S1x256_S512x256 : S1x256.Broadcasts S512x256
  reduces_S512x1024_S512 : S512x1024.Reduces [1] S512
  shapeCasts_S512_S512x1 : S512.ShapeCasts S512x1
  broadcasts_S512x1_S512x1024 : S512x1.Broadcasts S512x1024
  reduces_S512x256_S512 : S512x256.Reduces [1] S512
  broadcasts_S512x1_S512x256 : S512x1.Broadcasts S512x256
  reduces_S512x1_S1 : S512x1.Reduces [0] S1
  shapeCasts_S1_S1x1 : S1.ShapeCasts S1x1
  reduces_S512x256_S256 : S512x256.Reduces [0] S256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  broadcasts_S1x128_S512x128 : S1x128.Broadcasts S512x128
  reduces_S512x128_S512 : S512x128.Reduces [1] S512
  broadcasts_S512x1_S512x128 : S512x1.Broadcasts S512x128
  reduces_S512x128_S128 : S512x128.Reduces [0] S128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  broadcasts_S1x64_S512x64 : S1x64.Broadcasts S512x64
  reduces_S512x64_S512 : S512x64.Reduces [1] S512
  broadcasts_S512x1_S512x64 : S512x1.Broadcasts S512x64
  reduces_S512x64_S64 : S512x64.Reduces [0] S64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S1x1_S1x256 : S1x1.Broadcasts S1x256
  reduces_S1x256_S1 : S1x256.Reduces [1] S1
  broadcasts_S1x1_S1x128 : S1x1.Broadcasts S1x128
  reduces_S1x128_S1 : S1x128.Reduces [1] S1
  broadcasts_S1x1_S1x64 : S1x1.Broadcasts S1x64
  reduces_S1x64_S1 : S1x64.Reduces [1] S1
  slices_S8192x1024_S8192x1000_0_0 : S8192x1024.Slices ![0, 0] S8192x1000
  shapeCasts_S1x256_S256 : S1x256.ShapeCasts S256
  shapeCasts_S1x128_S128 : S1x128.ShapeCasts S128
  shapeCasts_S1x64_S64 : S1x64.ShapeCasts S64
  dot_S512x1024_S1024x256_S512x256_1_0_0_1_n_n_wf : DotDims.WF S512x1024 S1024x256 S512x256 [1] [0] [0] [1] [] []
  dot_S512x256_S256x128_S512x128_1_0_0_1_n_n_wf : DotDims.WF S512x256 S256x128 S512x128 [1] [0] [0] [1] [] []
  dot_S512x128_S128x64_S512x64_1_0_0_1_n_n_wf : DotDims.WF S512x128 S128x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x128.size a ≤ S64x128.size a
  hwx0_14 : ∀ i : grid0.Coords, EltTy.bits .f32 = 32 ∨ (Rect.block (s := S64x128) S64x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024x64.size a ≤ S1024x64.size a
  hwx0_16 : ∀ i : grid0.Coords, EltTy.bits .f32 = 32 ∨ (Rect.block (s := S1024x64) S1024x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x1024.size a ≤ S8192x1024.size a
  hwx0_18 : ∀ i : grid0.Coords, EltTy.bits .f32 = 32 ∨ (Rect.block (s := S8192x1024) S512x1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x64.size a ≤ S1x64.size a
  hwx0_21 : ∀ i : grid0.Coords, EltTy.bits .f32 = 32 ∨ (Rect.block (s := S1x64) S1x64.size (cc0_transform_21 i) (hinb0_21 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v5) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v12) S1024x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v15_0) S512x1024.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v15_1) S1x256.size cc0_transform_19 reads0_19 true true 1 stage0_19 sem0_19
    hrank0 hreads0_19 hinb0_19 nbuf0_19 (Memref.isWhole_whole _) hwx0_19 hstage0_19

abbrev win0_20 : Pipeline.Window sig grid0 :=
  Pipeline.Window.ofSpec (Memref.whole main_v15_2) S1x128.size cc0_transform_20 reads0_20 true true 1 stage0_20 sem0_20
    hrank0 hreads0_20 hinb0_20 nbuf0_20 (Memref.isWhole_whole _) hwx0_20 hstage0_20

abbrev win0_21 : Pipeline.Window sig grid0 :=
  Pipeline.Window.ofSpec (Memref.whole main_v15_3) S1x64.size cc0_transform_21 reads0_21 true true 1 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

abbrev idle0 : Fin 22 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k0_cond2 i == 1#1) | 20 => fun i => !(k0_cond2 i == 1#1) | 21 => fun i => !(k0_cond2 i == 1#1) | ⟨_ + 22, h⟩ => absurd h (Nat.not_lt.2 (Nat.le_add_left _ _))

class Facts : Prop extends Facts₀ where

variable [Facts]
-- ==== ReferenceIdeal.lean ====
abbrev S8192x1024 : Shape := ⟨2, ![8192, 1024]⟩
abbrev S256 : Shape := ⟨1, ![256]⟩
abbrev S128 : Shape := ⟨1, ![128]⟩
abbrev S64 : Shape := ⟨1, ![64]⟩
abbrev S256x1024 : Shape := ⟨2, ![256, 1024]⟩
abbrev S128x256 : Shape := ⟨2, ![128, 256]⟩
abbrev S64x128 : Shape := ⟨2, ![64, 128]⟩
abbrev S1000x64 : Shape := ⟨2, ![1000, 64]⟩
abbrev S1000 : Shape := ⟨1, ![1000]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S8192x256 : Shape := ⟨2, ![8192, 256]⟩
abbrev S1x256 : Shape := ⟨2, ![1, 256]⟩
abbrev S256x128 : Shape := ⟨2, ![256, 128]⟩
abbrev S8192x128 : Shape := ⟨2, ![8192, 128]⟩
abbrev S1x128 : Shape := ⟨2, ![1, 128]⟩
abbrev S128x64 : Shape := ⟨2, ![128, 64]⟩
abbrev S8192x64 : Shape := ⟨2, ![8192, 64]⟩
abbrev S1x64 : Shape := ⟨2, ![1, 64]⟩
abbrev S64x1000 : Shape := ⟨2, ![64, 1000]⟩
abbrev S8192x1000 : Shape := ⟨2, ![8192, 1000]⟩
abbrev S1x1000 : Shape := ⟨2, ![1, 1000]⟩

abbrev nBuf : Space → Nat
  | .hbm => 215
  | .vmem => 0
  | .smem => 0
  | _ => 0

abbrev hbmTy0_0 (i : Nat) : BufTy := match i % 128 with
  | 0 => ⟨S8192x1024, .f32⟩
  | 1 => ⟨S256, .f32⟩
  | 2 => ⟨S128, .f32⟩
  | 3 => ⟨S64, .f32⟩
  | 4 => ⟨S256x1024, .f32⟩
  | 5 => ⟨S256, .f32⟩
  | 6 => ⟨S128x256, .f32⟩
  | 7 => ⟨S128, .f32⟩
  | 8 => ⟨S64x128, .f32⟩
  | 9 => ⟨S64, .f32⟩
  | 10 => ⟨S1000x64, .f32⟩
  | 11 => ⟨S1000, .f32⟩
  | 12 => ⟨S256x1024, .f32⟩
  | 13 => ⟨S128x256, .f32⟩
  | 14 => ⟨S64x128, .f32⟩
  | 15 => ⟨S8192x1024, .f32⟩
  | 16 => ⟨S_, .f32⟩
  | 17 => ⟨S8192, .f32⟩
  | 18 => ⟨S8192x1, .f32⟩
  | 19 => ⟨S8192x1, .f32⟩
  | 20 => ⟨S8192x1024, .f32⟩
  | 21 => ⟨S8192x1024, .f32⟩
  | 22 => ⟨S1024x256, .f32⟩
  | 23 => ⟨S8192x256, .f32⟩
  | 24 => ⟨S8192x256, .f32⟩
  | 25 => ⟨S_, .f32⟩
  | 26 => ⟨S8192, .f32⟩
  | 27 => ⟨S8192x1, .f32⟩
  | 28 => ⟨S8192x1, .f32⟩
  | 29 => ⟨S8192x256, .f32⟩
  | 30 => ⟨S8192x256, .f32⟩
  | 31 => ⟨S8192x256, .f32⟩
  | 32 => ⟨S_, .f32⟩
  | 33 => ⟨S_, .f32⟩
  | 34 => ⟨S_, .f32⟩
  | 35 => ⟨S_, .f32⟩
  | 36 => ⟨S256x1024, .f32⟩
  | 37 => ⟨S256x1024, .f32⟩
  | 38 => ⟨S256x1024, .f32⟩
  | 39 => ⟨S256x1024, .f32⟩
  | 40 => ⟨S_, .f32⟩
  | 41 => ⟨S256x1024, .f32⟩
  | 42 => ⟨S256x1024, .f32⟩
  | 43 => ⟨S256x1024, .f32⟩
  | 44 => ⟨S_, .f32⟩
  | 45 => ⟨S256, .f32⟩
  | 46 => ⟨S_, .f32⟩
  | 47 => ⟨S_, .f32⟩
  | 48 => ⟨S256, .f32⟩
  | 49 => ⟨S256, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S256, .f32⟩
  | 58 => ⟨S256, .f32⟩
  | 59 => ⟨S_, .f32⟩
  | 60 => ⟨S256, .f32⟩
  | 61 => ⟨S256, .i1⟩
  | 62 => ⟨S_, .f32⟩
  | 63 => ⟨S_, .f32⟩
  | 64 => ⟨S256, .f32⟩
  | 65 => ⟨S256, .f32⟩
  | 66 => ⟨S256, .f32⟩
  | 67 => ⟨S256, .f32⟩
  | 68 => ⟨S1024x256, .f32⟩
  | 69 => ⟨S8192x256, .f32⟩
  | 70 => ⟨S1x256, .f32⟩
  | 71 => ⟨S8192x256, .f32⟩
  | 72 => ⟨S8192x256, .f32⟩
  | 73 => ⟨S_, .f32⟩
  | 74 => ⟨S8192x256, .f32⟩
  | 75 => ⟨S8192x256, .f32⟩
  | 76 => ⟨S1x256, .f32⟩
  | 77 => ⟨S8192x256, .f32⟩
  | 78 => ⟨S8192x256, .f32⟩
  | 79 => ⟨S8192x256, .f32⟩
  | 80 => ⟨S_, .f32⟩
  | 81 => ⟨S8192, .f32⟩
  | 82 => ⟨S8192x1, .f32⟩
  | 83 => ⟨S8192x1, .f32⟩
  | 84 => ⟨S8192x256, .f32⟩
  | 85 => ⟨S8192x256, .f32⟩
  | 86 => ⟨S256x128, .f32⟩
  | 87 => ⟨S8192x128, .f32⟩
  | 88 => ⟨S8192x128, .f32⟩
  | 89 => ⟨S_, .f32⟩
  | 90 => ⟨S8192, .f32⟩
  | 91 => ⟨S8192x1, .f32⟩
  | 92 => ⟨S8192x1, .f32⟩
  | 93 => ⟨S8192x128, .f32⟩
  | 94 => ⟨S8192x128, .f32⟩
  | 95 => ⟨S8192x128, .f32⟩
  | 96 => ⟨S_, .f32⟩
  | 97 => ⟨S_, .f32⟩
  | 98 => ⟨S_, .f32⟩
  | 99 => ⟨S_, .f32⟩
  | 100 => ⟨S128x256, .f32⟩
  | 101 => ⟨S128x256, .f32⟩
  | 102 => ⟨S128x256, .f32⟩
  | 103 => ⟨S128x256, .f32⟩
  | 104 => ⟨S_, .f32⟩
  | 105 => ⟨S128x256, .f32⟩
  | 106 => ⟨S128x256, .f32⟩
  | 107 => ⟨S128x256, .f32⟩
  | 108 => ⟨S_, .f32⟩
  | 109 => ⟨S128, .f32⟩
  | 110 => ⟨S_, .f32⟩
  | 111 => ⟨S_, .f32⟩
  | 112 => ⟨S128, .f32⟩
  | 113 => ⟨S128, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S_, .f32⟩
  | 124 => ⟨S128, .f32⟩
  | 125 => ⟨S128, .i1⟩
  | 126 => ⟨S_, .f32⟩
  | 127 => ⟨S_, .f32⟩
  | _ => ⟨S8192x1024, .f32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S256x128, .f32⟩
  | 5 => ⟨S8192x128, .f32⟩
  | 6 => ⟨S1x128, .f32⟩
  | 7 => ⟨S8192x128, .f32⟩
  | 8 => ⟨S8192x128, .f32⟩
  | 9 => ⟨S_, .f32⟩
  | 10 => ⟨S8192x128, .f32⟩
  | 11 => ⟨S8192x128, .f32⟩
  | 12 => ⟨S1x128, .f32⟩
  | 13 => ⟨S8192x128, .f32⟩
  | 14 => ⟨S8192x128, .f32⟩
  | 15 => ⟨S8192x128, .f32⟩
  | 16 => ⟨S_, .f32⟩
  | 17 => ⟨S8192, .f32⟩
  | 18 => ⟨S8192x1, .f32⟩
  | 19 => ⟨S8192x1, .f32⟩
  | 20 => ⟨S8192x128, .f32⟩
  | 21 => ⟨S8192x128, .f32⟩
  | 22 => ⟨S128x64, .f32⟩
  | 23 => ⟨S8192x64, .f32⟩
  | 24 => ⟨S8192x64, .f32⟩
  | 25 => ⟨S_, .f32⟩
  | 26 => ⟨S8192, .f32⟩
  | 27 => ⟨S8192x1, .f32⟩
  | 28 => ⟨S8192x1, .f32⟩
  | 29 => ⟨S8192x64, .f32⟩
  | 30 => ⟨S8192x64, .f32⟩
  | 31 => ⟨S8192x64, .f32⟩
  | 32 => ⟨S_, .f32⟩
  | 33 => ⟨S_, .f32⟩
  | 34 => ⟨S_, .f32⟩
  | 35 => ⟨S_, .f32⟩
  | 36 => ⟨S64x128, .f32⟩
  | 37 => ⟨S64x128, .f32⟩
  | 38 => ⟨S64x128, .f32⟩
  | 39 => ⟨S64x128, .f32⟩
  | 40 => ⟨S_, .f32⟩
  | 41 => ⟨S64x128, .f32⟩
  | 42 => ⟨S64x128, .f32⟩
  | 43 => ⟨S64x128, .f32⟩
  | 44 => ⟨S_, .f32⟩
  | 45 => ⟨S64, .f32⟩
  | 46 => ⟨S_, .f32⟩
  | 47 => ⟨S_, .f32⟩
  | 48 => ⟨S64, .f32⟩
  | 49 => ⟨S64, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S64, .f32⟩
  | 58 => ⟨S64, .f32⟩
  | 59 => ⟨S_, .f32⟩
  | 60 => ⟨S64, .f32⟩
  | 61 => ⟨S64, .i1⟩
  | 62 => ⟨S_, .f32⟩
  | 63 => ⟨S_, .f32⟩
  | 64 => ⟨S64, .f32⟩
  | 65 => ⟨S64, .f32⟩
  | 66 => ⟨S64, .f32⟩
  | 67 => ⟨S64, .f32⟩
  | 68 => ⟨S128x64, .f32⟩
  | 69 => ⟨S8192x64, .f32⟩
  | 70 => ⟨S1x64, .f32⟩
  | 71 => ⟨S8192x64, .f32⟩
  | 72 => ⟨S8192x64, .f32⟩
  | 73 => ⟨S_, .f32⟩
  | 74 => ⟨S8192x64, .f32⟩
  | 75 => ⟨S8192x64, .f32⟩
  | 76 => ⟨S1x64, .f32⟩
  | 77 => ⟨S8192x64, .f32⟩
  | 78 => ⟨S8192x64, .f32⟩
  | 79 => ⟨S64x1000, .f32⟩
  | 80 => ⟨S8192x1000, .f32⟩
  | 81 => ⟨S1x1000, .f32⟩
  | 82 => ⟨S8192x1000, .f32⟩
  | 83 => ⟨S8192x1000, .f32⟩
  | 84 => ⟨S_, .f32⟩
  | 85 => ⟨S8192x1000, .f32⟩
  | 86 => ⟨S8192x1000, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_7 : Ref sig .tc := ⟨.hbm, 59, rfl⟩
abbrev main_v28 : Ref sig .tc := ⟨.hbm, 60, rfl⟩
abbrev main_v29 : Ref sig .tc := ⟨.hbm, 61, rfl⟩
abbrev main_cst_8 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call3_cst : Ref sig .tc := ⟨.hbm, 73, rfl⟩
abbrev main_call3_v0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call4_v0 : Ref sig .tc := ⟨.hbm, 79, rfl⟩
abbrev main_call4_cst : Ref sig .tc := ⟨.hbm, 80, rfl⟩
abbrev main_call4_v1 : Ref sig .tc := ⟨.hbm, 81, rfl⟩
abbrev main_call4_v2 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call5_v0 : Ref sig .tc := ⟨.hbm, 88, rfl⟩
abbrev main_call5_cst : Ref sig .tc := ⟨.hbm, 89, rfl⟩
abbrev main_call5_v1 : Ref sig .tc := ⟨.hbm, 90, rfl⟩
abbrev main_call5_v2 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_10 : Ref sig .tc := ⟨.hbm, 96, rfl⟩
abbrev main_v50 : Ref sig .tc := ⟨.hbm, 97, rfl⟩
abbrev main_cst_11 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_12 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_13 : Ref sig .tc := ⟨.hbm, 108, rfl⟩
abbrev main_v59 : Ref sig .tc := ⟨.hbm, 109, rfl⟩
abbrev main_cst_14 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_15 : Ref sig .tc := ⟨.hbm, 114, rfl⟩
abbrev main_v63 : Ref sig .tc := ⟨.hbm, 115, rfl⟩
abbrev main_cst_16 : Ref sig .tc := ⟨.hbm, 116, rfl⟩
abbrev main_v64 : Ref sig .tc := ⟨.hbm, 117, rfl⟩
abbrev main_v65 : Ref sig .tc := ⟨.hbm, 118, rfl⟩
abbrev main_cst_17 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_cst_18 : Ref sig .tc := ⟨.hbm, 123, rfl⟩
abbrev main_v69 : Ref sig .tc := ⟨.hbm, 124, rfl⟩
abbrev main_v70 : Ref sig .tc := ⟨.hbm, 125, rfl⟩
abbrev main_cst_19 : Ref sig .tc := ⟨.hbm, 126, rfl⟩
abbrev main_cst_20 : Ref sig .tc := ⟨.hbm, 127, rfl⟩
abbrev main_call6_v0 : Ref sig .tc := ⟨.hbm, 128, rfl⟩
abbrev main_call6_v1 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_call7_cst : Ref sig .tc := ⟨.hbm, 137, rfl⟩
abbrev main_call7_v0 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_call8_v0 : Ref sig .tc := ⟨.hbm, 143, rfl⟩
abbrev main_call8_cst : Ref sig .tc := ⟨.hbm, 144, rfl⟩
abbrev main_call8_v1 : Ref sig .tc := ⟨.hbm, 145, rfl⟩
abbrev main_call8_v2 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_call9_v0 : Ref sig .tc := ⟨.hbm, 152, rfl⟩
abbrev main_call9_cst : Ref sig .tc := ⟨.hbm, 153, rfl⟩
abbrev main_call9_v1 : Ref sig .tc := ⟨.hbm, 154, rfl⟩
abbrev main_call9_v2 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_21 : Ref sig .tc := ⟨.hbm, 160, rfl⟩
abbrev main_v91 : Ref sig .tc := ⟨.hbm, 161, rfl⟩
abbrev main_cst_22 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_23 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_24 : Ref sig .tc := ⟨.hbm, 172, rfl⟩
abbrev main_v100 : Ref sig .tc := ⟨.hbm, 173, rfl⟩
abbrev main_cst_25 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_26 : Ref sig .tc := ⟨.hbm, 178, rfl⟩
abbrev main_v104 : Ref sig .tc := ⟨.hbm, 179, rfl⟩
abbrev main_cst_27 : Ref sig .tc := ⟨.hbm, 180, rfl⟩
abbrev main_v105 : Ref sig .tc := ⟨.hbm, 181, rfl⟩
abbrev main_v106 : Ref sig .tc := ⟨.hbm, 182, rfl⟩
abbrev main_cst_28 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_cst_29 : Ref sig .tc := ⟨.hbm, 187, rfl⟩
abbrev main_v110 : Ref sig .tc := ⟨.hbm, 188, rfl⟩
abbrev main_v111 : Ref sig .tc := ⟨.hbm, 189, rfl⟩
abbrev main_cst_30 : Ref sig .tc := ⟨.hbm, 190, rfl⟩
abbrev main_cst_31 : Ref sig .tc := ⟨.hbm, 191, rfl⟩
abbrev main_call10_v0 : Ref sig .tc := ⟨.hbm, 192, rfl⟩
abbrev main_call10_v1 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_call11_cst : Ref sig .tc := ⟨.hbm, 201, rfl⟩
abbrev main_call11_v0 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_call12_cst : Ref sig .tc := ⟨.hbm, 212, rfl⟩
abbrev main_call12_v0 : Ref sig .tc := ⟨.hbm, 213, rfl⟩
abbrev main_v128 : Ref sig .tc := ⟨.hbm, 214, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S256x1024_S1024x256_1_0 : S256x1024.Transposes [1, 0] S1024x256
  reducesTo_S8192x256_S8192_d1 : S8192x256.ReducesTo [1] S8192
  bcast_S8192x1_S8192x256_0_1 : S8192x1.BroadcastsInDim S8192x256 (![0, 1] : Fin 2 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S256_d1 : S256x1024.ReducesTo [1] S256
  reducesTo_S256_S_d0 : S256.ReducesTo [0] S_
  bcast_S_S256 : S_.BroadcastsInDim S256 (![] : Fin 0 → Fin S256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S128x256_S256x128_1_0 : S128x256.Transposes [1, 0] S256x128
  reducesTo_S8192x128_S8192_d1 : S8192x128.ReducesTo [1] S8192
  bcast_S8192x1_S8192x128_0_1 : S8192x1.BroadcastsInDim S8192x128 (![0, 1] : Fin 2 → Fin S8192x128.rank)
  reducesTo_S8192x128_S_d0_1 : S8192x128.ReducesTo [0, 1] S_
  bcast_S_S128x256 : S_.BroadcastsInDim S128x256 (![] : Fin 0 → Fin S128x256.rank)
  reducesTo_S128x256_S128_d1 : S128x256.ReducesTo [1] S128
  reducesTo_S128_S_d0 : S128.ReducesTo [0] S_
  bcast_S_S128 : S_.BroadcastsInDim S128 (![] : Fin 0 → Fin S128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  reducesTo_S8192x64_S8192_d1 : S8192x64.ReducesTo [1] S8192
  bcast_S8192x1_S8192x64_0_1 : S8192x1.BroadcastsInDim S8192x64 (![0, 1] : Fin 2 → Fin S8192x64.rank)
  reducesTo_S8192x64_S_d0_1 : S8192x64.ReducesTo [0, 1] S_
  bcast_S_S64x128 : S_.BroadcastsInDim S64x128 (![] : Fin 0 → Fin S64x128.rank)
  reducesTo_S64x128_S64_d1 : S64x128.ReducesTo [1] S64
  reducesTo_S64_S_d0 : S64.ReducesTo [0] S_
  bcast_S_S64 : S_.BroadcastsInDim S64 (![] : Fin 0 → Fin S64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S1000x64_S64x1000_1_0 : S1000x64.Transposes [1, 0] S64x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x1024_S1024x256_S8192x256_1_0_0_1_n_n_wf : DotDims.WF S8192x1024 S1024x256 S8192x256 [1] [0] [0] [1] [] []
  dot_S8192x256_S8192x1024_S256x1024_0_0_1_1_n_n_wf : DotDims.WF S8192x256 S8192x1024 S256x1024 [0] [0] [1] [1] [] []
  dot_S8192x256_S256x128_S8192x128_1_0_0_1_n_n_wf : DotDims.WF S8192x256 S256x128 S8192x128 [1] [0] [0] [1] [] []
  dot_S8192x128_S8192x256_S128x256_0_0_1_1_n_n_wf : DotDims.WF S8192x128 S8192x256 S128x256 [0] [0] [1] [1] [] []
  dot_S8192x128_S128x64_S8192x64_1_0_0_1_n_n_wf : DotDims.WF S8192x128 S128x64 S8192x64 [1] [0] [0] [1] [] []
  dot_S8192x64_S8192x128_S64x128_0_0_1_1_n_n_wf : DotDims.WF S8192x64 S8192x128 S64x128 [0] [0] [1] [1] [] []
  dot_S8192x64_S64x1000_S8192x1000_1_0_0_1_n_n_wf : DotDims.WF S8192x64 S64x1000 S8192x1000 [1] [0] [0] [1] [] []

variable [Facts₀]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S8192x1024_S256x1024_0_0_1_1_n_n : DotDims S8192x256 S8192x1024 S256x1024 where
  lhsContracting := [0]
  rhsContracting := [0]
  lhsNonContracting := [1]
  rhsNonContracting := [1]
  lhsBatch := []
  rhsBatch := []
  wf := dot_S8192x256_S8192x1024_S256x1024_0_0_1_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S8192x256_S128x256_0_0_1_1_n_n : DotDims S8192x128 S8192x256 S128x256 where
  lhsContracting := [0]
  rhsContracting := [0]
  lhsNonContracting := [1]
  rhsNonContracting := [1]
  lhsBatch := []
  rhsBatch := []
  wf := dot_S8192x128_S8192x256_S128x256_0_0_1_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S8192x128_S64x128_0_0_1_1_n_n : DotDims S8192x64 S8192x128 S64x128 where
  lhsContracting := [0]
  rhsContracting := [0]
  lhsNonContracting := [1]
  rhsNonContracting := [1]
  lhsBatch := []
  rhsBatch := []
  wf := dot_S8192x64_S8192x128_S64x128_0_0_1_1_n_n_wf
def dot_S8192x64_S64x1000_S8192x1000_1_0_0_1_n_n : DotDims S8192x64 S64x1000 S8192x1000 where
  lhsContracting := [1]
  rhsContracting := [0]
  lhsNonContracting := [0]
  rhsNonContracting := [1]
  lhsBatch := []
  rhsBatch := []
  wf := dot_S8192x64_S64x1000_S8192x1000_1_0_0_1_n_n_wf

class Facts : Prop extends Facts₀ where

variable [Facts]
-- ==== Proof.KPieces.lean ====
/- What each case of the body leaves in each carried accumulator and each output window it stores, as a term of the
   skeleton's payloads over the blocks the point reads and the accumulators' contents before the point. -/
import proofs.«172171_j13907104104967_2_alg».proof.Proof.KIFrameA
import Idealize.ShloMosaic.Lib.Pipeline.Value
import Idealize.ShloMosaic.Lib.Tactic

set_option maxRecDepth 16384

noncomputable section

namespace Cert.KernelIdeal.KPieces

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The origin of a rank-2 rectangle, as the constant-zero offset. -/
theorem hz : (![0, 0] : Fin 2 → Nat) = fun _ => 0 := funext fun a => by fin_cases a <;> rfl

/-- At the first grid point (the accumulators are reset, then updated), what the body leaves in the carried accumulator 0, as a term of the payloads over the blocks read. -/
theorem sA_0 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 = k0_pay18 (k0_pay17 x0 x4) (k0_pay8 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the first grid point (the accumulators are reset, then updated), what the body leaves in the carried accumulator 1, as a term of the payloads over the blocks read. -/
theorem sA_1 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 = k0_pay19 (k0_pay15 x0) (k0_pay16 x0 x4) (k0_pay9 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the first grid point (the accumulators are reset, then updated), what the body leaves in the carried accumulator 2, as a term of the payloads over the blocks read. -/
theorem sA_2 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 = k0_pay24 (k0_pay22 (k0_pay14 x0 x1 x2 x3) x9) (k0_pay10 (F := F)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the first grid point (the accumulators are reset, then updated), what the body leaves in the carried accumulator 3, as a term of the payloads over the blocks read. -/
theorem sA_3 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 = k0_pay25 (k0_pay21 (k0_pay14 x0 x1 x2 x3)) (k0_pay22 (k0_pay14 x0 x1 x2 x3) x9) (k0_pay11 (F := F)) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the first grid point (the accumulators are reset, then updated), what the body leaves in the carried accumulator 4, as a term of the payloads over the blocks read. -/
theorem sA_4 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 = k0_pay30 (k0_pay20 (k0_pay14 x0 x1 x2 x3) x6 x7 x8) x14 (k0_pay12 (F := F)) := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the first grid point (the accumulators are reset, then updated), what the body leaves in the carried accumulator 5, as a term of the payloads over the blocks read. -/
theorem sA_5 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 = k0_pay31 (k0_pay20 (k0_pay14 x0 x1 x2 x3) x6 x7 x8) x14 (k0_pay13 (F := F)) := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17)]
  unfold kernelRun0_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the first grid point (the accumulators are reset, then updated), what the body leaves in output window 18, as a term of the payloads over the blocks read. -/
theorem oA_18 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 = k0_pay1 (k0_pay27 (k0_pay26 (k0_pay20 (k0_pay14 x0 x1 x2 x3) x6 x7 x8) x11 x12) x13) x16 x17 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At a middle grid point, what the body leaves in the carried accumulator 0, as a term of the payloads over the blocks read. -/
theorem sB_0 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay18 (k0_pay17 x0 x4) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At a middle grid point, what the body leaves in the carried accumulator 1, as a term of the payloads over the blocks read. -/
theorem sB_1 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay19 (k0_pay15 x0) (k0_pay16 x0 x4) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At a middle grid point, what the body leaves in the carried accumulator 2, as a term of the payloads over the blocks read. -/
theorem sB_2 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay24 (k0_pay22 (k0_pay14 x0 x1 x2 x3) x9) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At a middle grid point, what the body leaves in the carried accumulator 3, as a term of the payloads over the blocks read. -/
theorem sB_3 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay25 (k0_pay21 (k0_pay14 x0 x1 x2 x3)) (k0_pay22 (k0_pay14 x0 x1 x2 x3) x9) xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At a middle grid point, what the body leaves in the carried accumulator 4, as a term of the payloads over the blocks read. -/
theorem sB_4 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay30 (k0_pay20 (k0_pay14 x0 x1 x2 x3) x6 x7 x8) x14 xs4 := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At a middle grid point, what the body leaves in the carried accumulator 5, as a term of the payloads over the blocks read. -/
theorem sB_5 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay31 (k0_pay20 (k0_pay14 x0 x1 x2 x3) x6 x7 x8) x14 xs5 := by
  unfold sout0_B_5
  rw [View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At a middle grid point, what the body leaves in output window 18, as a term of the payloads over the blocks read. -/
theorem oB_18 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : ¬cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay1 (k0_pay27 (k0_pay26 (k0_pay20 (k0_pay14 x0 x1 x2 x3) x6 x7 x8) x11 x12) x13) x16 x17 := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in the carried accumulator 0, as a term of the payloads over the blocks read. -/
theorem sC_0 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay18 (k0_pay17 x0 x4) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in the carried accumulator 1, as a term of the payloads over the blocks read. -/
theorem sC_1 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay19 (k0_pay15 x0) (k0_pay16 x0 x4) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in the carried accumulator 2, as a term of the payloads over the blocks read. -/
theorem sC_2 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay24 (k0_pay22 (k0_pay14 x0 x1 x2 x3) x9) xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in the carried accumulator 3, as a term of the payloads over the blocks read. -/
theorem sC_3 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay25 (k0_pay21 (k0_pay14 x0 x1 x2 x3)) (k0_pay22 (k0_pay14 x0 x1 x2 x3) x9) xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in the carried accumulator 4, as a term of the payloads over the blocks read. -/
theorem sC_4 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay30 (k0_pay20 (k0_pay14 x0 x1 x2 x3) x6 x7 x8) x14 xs4 := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in the carried accumulator 5, as a term of the payloads over the blocks read. -/
theorem sC_5 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    sout0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay31 (k0_pay20 (k0_pay14 x0 x1 x2 x3) x6 x7 x8) x14 xs5 := by
  unfold sout0_C_5
  rw [View.read_writes_eq_canon _ _ _ (scover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in output window 18, as a term of the payloads over the blocks read. -/
theorem oC_18 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay1 (k0_pay27 (k0_pay26 (k0_pay20 (k0_pay14 x0 x1 x2 x3) x6 x7 x8) x11 x12) x13) x16 x17 := by
  unfold out0_C_18
  rw [View.read_writes_eq_canon _ _ _ (cover0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in output window 19, as a term of the payloads over the blocks read. -/
theorem oC_19 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay3 x5 (k0_pay18 (k0_pay17 x0 x4) xs0) (k0_pay19 (k0_pay15 x0) (k0_pay16 x0 x4) xs1) := by
  unfold out0_C_19
  rw [View.read_writes_eq_canon _ _ _ (cover0_C_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in output window 20, as a term of the payloads over the blocks read. -/
theorem oC_20 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay6 (k0_pay4 x10) (k0_pay24 (k0_pay22 (k0_pay14 x0 x1 x2 x3) x9) xs2) (k0_pay5 (F := F)) (k0_pay25 (k0_pay21 (k0_pay14 x0 x1 x2 x3)) (k0_pay22 (k0_pay14 x0 x1 x2 x3) x9) xs3) := by
  unfold out0_C_20
  rw [View.read_writes_eq_canon _ _ _ (cover0_C_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

/-- At the last grid point, what the body leaves in output window 21, as a term of the payloads over the blocks read. -/
theorem oC_21 (c : Dev nD) (i : grid0.Coords) (arg1 : Memref sig .tc .vmem S512x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x1024 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S64x128 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S64x128 .f32) (harg15 : arg15.IsWhole) (arg16 : Memref sig .tc .vmem S1x64 .f32) (harg16 : arg16.IsWhole) (arg17 : Memref sig .tc .vmem S1024x64 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x256 .f32) (harg20 : arg20.IsWhole) (arg21 : Memref sig .tc .vmem S1x128 .f32) (harg21 : arg21.IsWhole) (arg22 : Memref sig .tc .vmem S1x64 .f32) (harg22 : arg22.IsWhole) (arg23 : Memref sig .tc .vmem S1x1 .f32) (harg23 : arg23.IsWhole) (arg24 : Memref sig .tc .vmem S1x256 .f32) (harg24 : arg24.IsWhole) (arg25 : Memref sig .tc .vmem S1x1 .f32) (harg25 : arg25.IsWhole) (arg26 : Memref sig .tc .vmem S1x128 .f32) (harg26 : arg26.IsWhole) (arg27 : Memref sig .tc .vmem S1x1 .f32) (harg27 : arg27.IsWhole) (arg28 : Memref sig .tc .vmem S1x64 .f32) (harg28 : arg28.IsWhole) (hc0 : ¬cond0_0 i) (hc1 : cond0_1 i)
    (x0 : Vec F S512x1024 .f32) (x1 : Vec F S256x1024 .f32) (x2 : Vec F S1x256 .f32) (x3 : Vec F S1x256 .f32) (x4 : Vec F S256x1024 .f32) (x5 : Vec F S1x256 .f32) (x6 : Vec F S128x256 .f32) (x7 : Vec F S1x128 .f32) (x8 : Vec F S1x128 .f32) (x9 : Vec F S128x256 .f32) (x10 : Vec F S1x128 .f32) (x11 : Vec F S64x128 .f32) (x12 : Vec F S1x64 .f32) (x13 : Vec F S1x64 .f32) (x14 : Vec F S64x128 .f32) (x15 : Vec F S1x64 .f32) (x16 : Vec F S1024x64 .f32) (x17 : Vec F S1x1024 .f32) (xs0 : Vec F S1x1 .f32) (xs1 : Vec F S1x256 .f32) (xs2 : Vec F S1x1 .f32) (xs3 : Vec F S1x128 .f32) (xs4 : Vec F S1x1 .f32) (xs5 : Vec F S1x64 .f32) :
    out0_C_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5 = k0_pay2 (k0_pay7 x15 (k0_pay30 (k0_pay20 (k0_pay14 x0 x1 x2 x3) x6 x7 x8) x14 xs4)) (k0_pay31 (k0_pay20 (k0_pay14 x0 x1 x2 x3) x6 x7 x8) x14 xs5) := by
  unfold out0_C_21
  rw [View.read_writes_eq_canon _ _ _ (cover0_C_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 xs0 xs1 xs2 xs3 xs4 xs5)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread,
    View.ld_unit_zero (S := S512x1024) hz, View.ld_unit_zero (S := S256x1024) hz, View.ld_unit_zero (S := S1x256) hz, View.ld_unit_zero (S := S128x256) hz, View.ld_unit_zero (S := S1x128) hz, View.ld_unit_zero (S := S64x128) hz, View.ld_unit_zero (S := S1x64) hz, View.ld_unit_zero (S := S1024x64) hz, View.ld_unit_zero (S := S1x1024) hz, View.ld_unit_zero (S := S1x1) hz,
    View.readCov_unit_zero (S := S1x1) _ hz, View.readCov_unit_zero (S := S1x256) _ hz, View.readCov_unit_zero (S := S1x128) _ hz, View.readCov_unit_zero (S := S1x64) _ hz]

end Cert.KernelIdeal.KPieces

end
-- ==== Proof.HebbSpec.lean ====
/-
  The row-wise mathematics of the fused network, over the extended reals.

  One layer sends a row v to  max (v . W_j + b_j, 0) * m_j.  The Hebbian statistics of a layer with
  table H, over all rows a_b of its input: each row is scaled to unit length, u = v / |v|; projected,
  y_j = sum_k u_k * H_jk; the projection is scaled to unit length again, z = y / |y|.  Then
    theta   = (sum_b sum_j z_bj^2) / N
    score_j = sum_k ( H_jk + 1 * ( (sum_b z_bj * u_bk) - theta * H_jk ) )          (the reference's form)
            = (1 - 1 * theta) * (sum_k H_jk) + 1 * (sum_b z_bj * (sum_k u_bk))      (the kernel's form)
  and the mask is 0 where (score_j - min) / ((max - min) + eps) < 1/2 and 1 elsewhere.
-/
import Idealize.ShloMosaic.PureOps.Ideal
import Idealize.ShloMosaic.Lib.ValueIdx

noncomputable section

namespace Cert.Hebb

open Idealize.ShloMosaic

/-- The float words the two programs share, read as extended reals. -/
abbrev w0 : EReal := Ideal.ofBits .f32 0x00000000#32
abbrev w1 : EReal := Ideal.ofBits .f32 0x3F800000#32
abbrev wHalf : EReal := Ideal.ofBits .f32 0x3F000000#32
abbrev wEps : EReal := Ideal.ofBits .f32 0x322BCC77#32
abbrev wN1 : EReal := Ideal.ofBits .f32 0x4A000000#32   -- 8192 * 256
abbrev wN2 : EReal := Ideal.ofBits .f32 0x49800000#32   -- 8192 * 128
abbrev wN3 : EReal := Ideal.ofBits .f32 0x49000000#32   -- 8192 * 64

variable {K J : Nat}

/-- One masked linear layer on one row: max (v . W_j + b_j, 0) * m_j. -/
def layerRow (v : Fin K → EReal) (W : Fin J → Fin K → EReal) (b m : Fin J → EReal) (j : Fin J) : EReal :=
  max ((∑ k, v k * W j k) + b j) w0 * m j

/-- The last layer on one row: max (v . W_j + b_j, 0). -/
def lastRow (v : Fin K → EReal) (W : Fin J → Fin K → EReal) (b : Fin J → EReal) (j : Fin J) : EReal :=
  max ((∑ k, v k * W j k) + b j) w0

/-- A row scaled by its Euclidean norm: v_k / sqrt (sum v^2). -/
def unitRow (v : Fin K → EReal) (k : Fin K) : EReal :=
  Ideal.div (v k) (Ideal.sqrt (∑ k', v k' * v k'))

/-- The unit row projected on the table's rows: y_j = sum_k u_k * H_jk. -/
def projRow (v : Fin K → EReal) (H : Fin J → Fin K → EReal) (j : Fin J) : EReal :=
  ∑ k, unitRow v k * H j k

/-- The projection scaled to unit length: z = y / |y|. -/
def zRow (v : Fin K → EReal) (H : Fin J → Fin K → EReal) : Fin J → EReal :=
  unitRow (projRow v H)

/-- The sum of the unit row's entries. -/
def sRow (v : Fin K → EReal) : EReal := ∑ k, unitRow v k

/-- One row's share of the sum of squares of z. -/
def sqRow (v : Fin K → EReal) (H : Fin J → Fin K → EReal) : EReal := ∑ j, zRow v H j * zRow v H j

variable {B : Nat}

/-- sum over all rows and entries of z^2. -/
def sqAll (a : Fin B → Fin K → EReal) (H : Fin J → Fin K → EReal) : EReal := ∑ b, sqRow (a b) H

/-- sum over all rows of z_bj * (sum_k u_bk). -/
def sdAll (a : Fin B → Fin K → EReal) (H : Fin J → Fin K → EReal) (j : Fin J) : EReal :=
  ∑ b, zRow (a b) H j * sRow (a b)

/-- The score in the kernel's form, from the two accumulated statistics. -/
def scoreK (sq : EReal) (sd : Fin J → EReal) (H : Fin J → Fin K → EReal) (N : EReal) (j : Fin J) : EReal :=
  (w1 - w1 * Ideal.div sq N) * (∑ k, H j k) + w1 * sd j

/-- The score in the reference's form. -/
def scoreR (a : Fin B → Fin K → EReal) (H : Fin J → Fin K → EReal) (N : EReal) (j : Fin J) : EReal :=
  ∑ k, (H j k + w1 * ((∑ b, zRow (a b) H j * unitRow (a b) k) - Ideal.div (sqAll a H) N * H j k))

/-- The thresholded, min-max normalised score. -/
def maskOf (s : Fin J → EReal) (j : Fin J) : EReal :=
  if Ideal.div (s j - Finset.univ.inf s) ((Finset.univ.sup s - Finset.univ.inf s) + wEps) < wHalf then w0 else w1

end Cert.Hebb

end
-- ==== Proof.KPayL1.lean ====
/-
  The first layer's tile values, entry by entry: on one tile of 512 rows the kernel's vector operations
  compute, row by row, the masked linear layer, the unit row, its unit projection on the table's rows, the
  tile's share of the sum of squares, and the two running sums the tile adds to.
-/
import proofs.«172171_j13907104104967_2_alg».proof.Proof.Gen.KernelIdeal.Skeleton
import proofs.«172171_j13907104104967_2_alg».proof.Proof.HebbSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Pay

open Cert.KernelIdeal Cert.KernelIdeal.Gen Cert.Hebb

/-! ## Layout and reduction steps read at an index given by coordinates -/

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of an `[a, b]` array, at row `r`: the sum over the row's entries. -/
private theorem sumLanes_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- The sum along the rows of an `[a, b]` array, at lane `j`: the sum over the column's entries. -/
private theorem sumRows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction (F := Ideal) .add [0] ⟨1, ![b]⟩ src 0x00000000#32 h hφ hacc (ix1 j) = ∑ r : Fin a, src (ix2 r j) := by
  refine (Ideal.multiReduction_add_single src 0x00000000#32 h hφ hacc (ix1 j)).trans ?_
  refine Finset.sum_congr rfl fun r _ => congrArg src ?_
  funext c
  match c with
  | ⟨0, _⟩ => rfl
  | ⟨1, _⟩ => rfl

/-! ## The tile's matrix product read at an entry -/

private theorem lhs_tile_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
private theorem lhs_tile_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
private theorem rhs_tile_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
private theorem rhs_tile_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The product of a `[512, 1024]` tile with a `[1024, 256]` matrix into the zero accumulator, at `(r, j)`: the sum over
    `k` of the tile's row `r` times the matrix's column `j`. -/
private theorem matmul_tile_apply (x : FVec Ideal S512x1024 .f32) (y : FVec Ideal S1024x256 .f32) (r : Fin 512) (j : Fin 256) :
    matmul dot_S512x1024_S1024x256_S512x256_1_0_0_1_n_n none x y (constant (F := Ideal) S512x256 .f32 0x00000000#32) (ix2 r j)
      = ∑ k : Fin 1024, x (ix2 r k) * y (ix2 k j) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r j) ((contrEquiv1 dot_S512x1024_S1024x256_S512x256_1_0_0_1_n_n 1024 rfl rfl).symm k) = ix2 r k := funext fun a => Fin.ext (by
    match a with
    | ⟨0, _⟩ => exact lhs_tile_0 _ _
    | ⟨1, _⟩ => exact (lhs_tile_1 _ _).trans hk)
  have er : dot_S512x1024_S1024x256_S512x256_1_0_0_1_n_n.rhsIdx (ix2 r j) ((contrEquiv1 dot_S512x1024_S1024x256_S512x256_1_0_0_1_n_n 1024 rfl rfl).symm k) = ix2 k j := funext fun a => Fin.ext (by
    match a with
    | ⟨0, _⟩ => exact (rhs_tile_0 _ _).trans hk
    | ⟨1, _⟩ => exact rhs_tile_1 _ _)
  rw [el, er]

/-! ## The six tile values -/

/-- The next layer's input: row r of the tile through the masked linear layer. -/
theorem pay14_apply (v3 : Vec Ideal S512x1024 .f32) (v4 : Vec Ideal S256x1024 .f32) (v7 v13 : Vec Ideal S1x256 .f32)
    (r : Fin 512) (j : Fin 256) :
    k0_pay14 (F := Ideal) v3 v4 v7 v13 (ix2 r j)
      = layerRow (fun k : Fin 1024 => v3 (ix2 r k)) (fun (j : Fin 256) (k : Fin 1024) => v4 (ix2 j k))
          (fun j : Fin 256 => v7 (ix2 0 j)) (fun j : Fin 256 => v13 (ix2 0 j)) j := by
  unfold k0_pay14 layerRow
  rw [mulf_apply, maximumf_apply, addf_apply, broadcast_apply, shapeCast_self, shapeCast_self]
  have e6 := matmul_tile_apply v3 (transpose S1024x256 [1, 0] v4 transposes_S256x1024_p1_0_S1024x256) r j
  have e5 : ∀ k : Fin 1024, transpose S1024x256 [1, 0] v4 transposes_S256x1024_p1_0_S1024x256 (ix2 k j) = v4 (ix2 j k) :=
    fun k => transpose_ix2_apply v4 _ k j
  have e9 := broadcastTo_1b_ab_apply (a := 512) v7 broadcasts_S1x256_S512x256 r j
  have e15 := broadcastTo_1b_ab_apply (a := 512) v13 broadcasts_S1x256_S512x256 r j
  rw [e6, e9, e15]
  simp only [e5]
  rfl

/-- The tile's rows scaled to unit length. -/
theorem pay15_apply (v3 : Vec Ideal S512x1024 .f32) (r : Fin 512) (k : Fin 1024) :
    k0_pay15 (F := Ideal) v3 (ix2 r k) = unitRow (fun k : Fin 1024 => v3 (ix2 r k)) k := by
  unfold k0_pay15
  rw [divf_apply]
  refine congrArg (Ideal.div (v3 (ix2 r k))) ?_
  refine (broadcastTo_a1_ab_apply _ _ r k).trans ?_
  show Ideal.sqrt _ = Ideal.sqrt _
  refine congrArg Ideal.sqrt ?_
  refine (shapeCast_a_a1_apply _ _ r (0 : Fin 1)).trans ?_
  refine (sumLanes_apply _ _ _ _ r).trans ?_
  rfl

/-- The tile's unit rows times the table's transpose, at `(r, j)`: the unit row's projection on the table's row `j`. -/
private theorem proj_tile_apply (v3 : Vec Ideal S512x1024 .f32) (v17 : Vec Ideal S256x1024 .f32) (r : Fin 512) (j : Fin 256) :
    matmul dot_S512x1024_S1024x256_S512x256_1_0_0_1_n_n none (k0_pay15 (F := Ideal) v3)
        (transpose S1024x256 [1, 0] v17 transposes_S256x1024_p1_0_S1024x256 : FVec Ideal S1024x256 .f32) (constant (F := Ideal) S512x256 .f32 0x00000000#32) (ix2 r j)
      = projRow (fun k : Fin 1024 => v3 (ix2 r k)) (fun (j : Fin 256) (k : Fin 1024) => v17 (ix2 j k)) j := by
  rw [matmul_tile_apply]
  unfold projRow
  refine Finset.sum_congr rfl fun k _ => ?_
  rw [pay15_apply, transpose_ix2_apply]

/-- The unit projection written out: the projection over the root of the sum of its squares. -/
private theorem zRow_eq {K J : ℕ} (v : Fin K → EReal) (H : Fin J → Fin K → EReal) (j : Fin J) :
    zRow v H j = Ideal.div (projRow v H j) (Ideal.sqrt (∑ j', projRow v H j' * projRow v H j')) := rfl

/-- The unit rows' projections, scaled to unit length. -/
theorem pay16_apply (v3 : Vec Ideal S512x1024 .f32) (v17 : Vec Ideal S256x1024 .f32) (r : Fin 512) (j : Fin 256) :
    k0_pay16 (F := Ideal) v3 v17 (ix2 r j)
      = zRow (fun k : Fin 1024 => v3 (ix2 r k)) (fun (j : Fin 256) (k : Fin 1024) => v17 (ix2 j k)) j := by
  unfold k0_pay16
  rw [divf_apply, zRow_eq, proj_tile_apply]
  refine congrArg (Ideal.div _) ?_
  refine (broadcastTo_a1_ab_apply _ _ r j).trans ?_
  show Ideal.sqrt _ = Ideal.sqrt _
  refine congrArg Ideal.sqrt ?_
  refine (shapeCast_a_a1_apply _ _ r (0 : Fin 1)).trans ?_
  refine (sumLanes_apply _ _ _ _ r).trans ?_
  refine Finset.sum_congr rfl fun j' _ => ?_
  rw [mulf_apply, proj_tile_apply]

/-- The tile's share of the sum of squares. -/
theorem pay17_apply (v3 : Vec Ideal S512x1024 .f32) (v17 : Vec Ideal S256x1024 .f32) :
    k0_pay17 (F := Ideal) v3 v17 (ix2 0 0)
      = ∑ r : Fin 512, sqRow (fun k : Fin 1024 => v3 (ix2 r k)) (fun (j : Fin 256) (k : Fin 1024) => v17 (ix2 j k)) := by
  unfold k0_pay17
  refine (shapeCast_a_1a_apply _ _ (0 : Fin 1) (0 : Fin 1)).trans ?_
  refine (sumRows_apply _ _ _ _ (0 : Fin 1)).trans ?_
  refine Finset.sum_congr rfl fun r _ => ?_
  refine (shapeCast_a_a1_apply _ _ r (0 : Fin 1)).trans ?_
  refine (sumLanes_apply _ _ _ _ r).trans ?_
  unfold sqRow
  refine Finset.sum_congr rfl fun j _ => ?_
  rw [mulf_apply, pay16_apply]

/-- The running sum of squares after the tile: what it held plus the tile's share. -/
theorem pay18_apply (v36 : FVec Ideal S1x1 .f32) (v37 : Vec Ideal S1x1 .f32) :
    k0_pay18 (F := Ideal) v36 v37 (ix2 0 0) = v37 (ix2 0 0) + v36 (ix2 0 0) := by
  unfold k0_pay18
  rw [shapeCast_self]
  rfl

/-- The running sum  sum_b z_bj * (sum_k u_bk)  after the tile, from the tile's unit rows u and unit projections z. -/
theorem pay19_apply (v23 : FVec Ideal S512x1024 .f32) (v31 : FVec Ideal S512x256 .f32) (v44 : Vec Ideal S1x256 .f32)
    (j : Fin 256) :
    k0_pay19 (F := Ideal) v23 v31 v44 (ix2 0 j)
      = v44 (ix2 0 j) + ∑ r : Fin 512, v31 (ix2 r j) * (∑ k : Fin 1024, v23 (ix2 r k)) := by
  unfold k0_pay19
  rw [shapeCast_self, addf_apply]
  refine congrArg (v44 (ix2 0 j) + ·) ?_
  refine (shapeCast_a_1a_apply _ _ (0 : Fin 1) j).trans ?_
  refine (sumRows_apply _ _ _ _ j).trans ?_
  refine Finset.sum_congr rfl fun r _ => ?_
  rw [mulf_apply]
  refine congrArg (v31 (ix2 r j) * ·) ?_
  refine (broadcastTo_a1_ab_apply _ _ r j).trans ?_
  refine (shapeCast_a_a1_apply _ _ r (0 : Fin 1)).trans ?_
  exact sumLanes_apply _ _ _ _ r

end Cert.KernelIdeal.Pay

end
-- ==== Proof.KPayL2.lean ====
/-
  The second layer's tile values, entry by entry: the masked linear layer, the unit rows, their
  projection on the table's rows, the projection scaled to unit length, and the two running sums.
-/
import proofs.«172171_j13907104104967_2_alg».proof.Proof.Gen.KernelIdeal.Skeleton
import proofs.«172171_j13907104104967_2_alg».proof.Proof.HebbSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Pay

open Cert.KernelIdeal Cert.KernelIdeal.Gen Cert.Hebb

/-! ## The non-pointwise operations of the second layer, read at an entry -/

/-- The sum over the 256 lanes of row r of a 512x256 tile. -/
private theorem l2_laneSum_512x256 (x : FVec Ideal S512x256 .f32) (r : Fin 512) :
    multiReduction (F := Ideal) .add [1] S512 x 0x00000000#32 reduces_S512x256_S512 (.inl rfl) rfl (ix1 r)
      = ∑ k : Fin 256, x (ix2 r k) := by
  refine (Ideal.multiReduction_add_single x 0x00000000#32 reduces_S512x256_S512 (.inl rfl) rfl (ix1 r)).trans ?_
  refine Finset.sum_congr rfl fun k _ => congrArg x ?_
  funext a
  match a with
  | ⟨0, _⟩ => rfl
  | ⟨1, _⟩ => rfl

/-- The sum over the 128 lanes of row r of a 512x128 tile. -/
private theorem l2_laneSum_512x128 (x : FVec Ideal S512x128 .f32) (r : Fin 512) :
    multiReduction (F := Ideal) .add [1] S512 x 0x00000000#32 reduces_S512x128_S512 (.inl rfl) rfl (ix1 r)
      = ∑ k : Fin 128, x (ix2 r k) := by
  refine (Ideal.multiReduction_add_single x 0x00000000#32 reduces_S512x128_S512 (.inl rfl) rfl (ix1 r)).trans ?_
  refine Finset.sum_congr rfl fun k _ => congrArg x ?_
  funext a
  match a with
  | ⟨0, _⟩ => rfl
  | ⟨1, _⟩ => rfl

/-- A vector of 512 entries written as a column: entry (r, 0) is entry r. -/
private theorem l2_colCast_512 (y : FVec Ideal S512 .f32) (r : Fin 512) (u : Fin 1) :
    shapeCast S512x1 y shapeCasts_S512_S512x1 (ix2 r u) = y (ix1 r) :=
  shapeCast_apply y shapeCasts_S512_S512x1 _ _ (by
    have hu : u.val = 0 := by omega
    rw [Shape.rowMajor_val_one, Shape.rowMajor_val_two]
    show r.val = r.val * 1 + u.val
    rw [hu, Nat.mul_one, Nat.add_zero])

/-- A column of 512 entries spread over 256 lanes: entry (r, k) is the column's entry r. -/
private theorem l2_colBcast_512x256 (c : FVec Ideal S512x1 .f32) (r : Fin 512) (k : Fin 256) :
    broadcastTo S512x256 c broadcasts_S512x1_S512x256 (ix2 r k) = c (ix2 r (0 : Fin 1)) := by
  refine broadcastTo_apply c broadcasts_S512x1_S512x256 (ix2 r k) (ix2 r (0 : Fin 1)) fun ax => ?_
  match ax with
  | ⟨0, _⟩ => rfl
  | ⟨1, _⟩ => rfl

/-- A column of 512 entries spread over 128 lanes: entry (r, j) is the column's entry r. -/
private theorem l2_colBcast_512x128 (c : FVec Ideal S512x1 .f32) (r : Fin 512) (j : Fin 128) :
    broadcastTo S512x128 c broadcasts_S512x1_S512x128 (ix2 r j) = c (ix2 r (0 : Fin 1)) := by
  refine broadcastTo_apply c broadcasts_S512x1_S512x128 (ix2 r j) (ix2 r (0 : Fin 1)) fun ax => ?_
  match ax with
  | ⟨0, _⟩ => rfl
  | ⟨1, _⟩ => rfl

/-- The contraction 512x256 by 256x128: the left operand's row is the result's row … -/
private theorem l2_lhs_dot2_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
/-- … its column the contracted coordinate … -/
private theorem l2_lhs_dot2_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
/-- … the right operand's row the contracted coordinate … -/
private theorem l2_rhs_dot2_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
/-- … and its column the result's column. -/
private theorem l2_rhs_dot2_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- The product of a 512x256 tile with a 256x128 matrix, from zero: entry (r, j) is the sum over k of x_rk * w_kj. -/
private theorem l2_matmul2_apply (x : FVec Ideal S512x256 .f32) (w : FVec Ideal S256x128 .f32) (r : Fin 512) (j : Fin 128) :
    matmul dot_S512x256_S256x128_S512x128_1_0_0_1_n_n none x w (constant (F := Ideal) S512x128 .f32 0x00000000#32) (ix2 r j)
      = ∑ k : Fin 256, x (ix2 r k) * w (ix2 k j) := by
  simp only [matmul]
  rw [Ideal.matmul_constant_zero_apply, ← Equiv.sum_comp (contrEquiv1 dot_S512x256_S256x128_S512x128_1_0_0_1_n_n 256 rfl rfl).symm]
  refine Finset.sum_congr rfl fun k _ => ?_
  have hk := contrEquiv1_symm_val dot_S512x256_S256x128_S512x128_1_0_0_1_n_n 256 rfl rfl k
  have el : dot_S512x256_S256x128_S512x128_1_0_0_1_n_n.lhsIdx (ix2 r j) ((contrEquiv1 dot_S512x256_S256x128_S512x128_1_0_0_1_n_n 256 rfl rfl).symm k) = ix2 r k := funext fun a => Fin.ext (by
    match a with
    | ⟨0, _⟩ => exact l2_lhs_dot2_0 _ _
    | ⟨1, _⟩ => exact (l2_lhs_dot2_1 _ _).trans hk)
  have er : dot_S512x256_S256x128_S512x128_1_0_0_1_n_n.rhsIdx (ix2 r j) ((contrEquiv1 dot_S512x256_S256x128_S512x128_1_0_0_1_n_n 256 rfl rfl).symm k) = ix2 k j := funext fun a => Fin.ext (by
    match a with
    | ⟨0, _⟩ => exact (l2_rhs_dot2_0 _ _).trans hk
    | ⟨1, _⟩ => exact l2_rhs_dot2_1 _ _)
  rw [el, er]

/-- The table transposed: entry (k, j) of the 256x128 matrix is entry (j, k) of the 128x256 table. -/
private theorem l2_tableT_apply (H : FVec Ideal S128x256 .f32) (k : Fin 256) (j : Fin 128) :
    transpose S256x128 [1, 0] H transposes_S128x256_p1_0_S256x128 (ix2 k j) = H (ix2 j k) :=
  transpose_ix2_apply H transposes_S128x256_p1_0_S256x128 k j

/-- One row spread over 512 rows: entry (r, j) is the row's entry j. -/
private theorem l2_rowBcast_512x128 (b : FVec Ideal S1x128 .f32) (r : Fin 512) (j : Fin 128) :
    broadcastTo S512x128 b broadcasts_S1x128_S512x128 (ix2 r j) = b (ix2 (0 : Fin 1) j) :=
  broadcastTo_1b_ab_apply b broadcasts_S1x128_S512x128 r j

/-- A row cast to its own shape is itself. -/
private theorem l2_rowCast_1x128 (b : FVec Ideal S1x128 .f32) (u : Fin 1) (j : Fin 128) :
    shapeCast S1x128 b shapeCasts_S1x128_S1x128 (ix2 u j) = b (ix2 u j) :=
  shapeCast_apply b shapeCasts_S1x128_S1x128 _ _ rfl

/-- The sum down the 512 rows of a column. -/
private theorem l2_colSum_512x1 (c : FVec Ideal S512x1 .f32) (u : Fin 1) :
    multiReduction (F := Ideal) .add [0] S1 c 0x00000000#32 reduces_S512x1_S1 (.inl rfl) rfl (ix1 u)
      = ∑ r : Fin 512, c (ix2 r u) := by
  refine (Ideal.multiReduction_add_single c 0x00000000#32 reduces_S512x1_S1 (.inl rfl) rfl (ix1 u)).trans ?_
  refine Finset.sum_congr rfl fun r _ => congrArg c ?_
  funext a
  match a with
  | ⟨0, _⟩ => rfl
  | ⟨1, _⟩ => rfl

/-- The sum down the 512 rows of lane j of a 512x128 tile. -/
private theorem l2_colSum_512x128 (x : FVec Ideal S512x128 .f32) (j : Fin 128) :
    multiReduction (F := Ideal) .add [0] S128 x 0x00000000#32 reduces_S512x128_S128 (.inl rfl) rfl (ix1 j)
      = ∑ r : Fin 512, x (ix2 r j) := by
  refine (Ideal.multiReduction_add_single x 0x00000000#32 reduces_S512x128_S128 (.inl rfl) rfl (ix1 j)).trans ?_
  refine Finset.sum_congr rfl fun r _ => congrArg x ?_
  funext a
  match a with
  | ⟨0, _⟩ => rfl
  | ⟨1, _⟩ => rfl

/-- A one-entry vector written as a 1x1 tile. -/
private theorem l2_cast_1_1x1 (y : FVec Ideal S1 .f32) (u v : Fin 1) :
    shapeCast S1x1 y shapeCasts_S1_S1x1 (ix2 u v) = y (ix1 v) :=
  shapeCast_a_1a_apply y shapeCasts_S1_S1x1 u v

/-- A 1x1 tile cast to its own shape is itself. -/
private theorem l2_selfCast_1x1 (b : FVec Ideal S1x1 .f32) (u v : Fin 1) :
    shapeCast S1x1 b shapeCasts_S1x1_S1x1 (ix2 u v) = b (ix2 u v) :=
  shapeCast_apply b shapeCasts_S1x1_S1x1 _ _ rfl

/-- A vector of 128 entries written as a row. -/
private theorem l2_cast_128_1x128 (y : FVec Ideal S128 .f32) (u : Fin 1) (j : Fin 128) :
    shapeCast S1x128 y shapeCasts_S128_S1x128 (ix2 u j) = y (ix1 j) :=
  shapeCast_a_1a_apply y shapeCasts_S128_S1x128 u j

theorem pay20_apply (v16 : FVec Ideal S512x256 .f32) (v53 : Vec Ideal S128x256 .f32) (v56 v62 : Vec Ideal S1x128 .f32)
    (r : Fin 512) (j : Fin 128) :
    k0_pay20 (F := Ideal) v16 v53 v56 v62 (ix2 r j)
      = layerRow (fun k : Fin 256 => v16 (ix2 r k)) (fun (j : Fin 128) (k : Fin 256) => v53 (ix2 j k))
          (fun j : Fin 128 => v56 (ix2 0 j)) (fun j : Fin 128 => v62 (ix2 0 j)) j := by
  unfold k0_pay20 layerRow
  refine (mulf_apply _ _ _).trans ?_
  refine congr (congrArg HMul.hMul ?_) ?_
  · refine (maximumf_apply _ _ _).trans ?_
    refine congr (congrArg max ?_) rfl
    refine (addf_apply _ _ _).trans ?_
    refine congr (congrArg HAdd.hAdd ?_) ?_
    · refine (l2_matmul2_apply _ _ r j).trans ?_
      refine Finset.sum_congr rfl fun k _ => ?_
      rw [l2_tableT_apply]
    · refine (l2_rowBcast_512x128 _ r j).trans ?_
      exact l2_rowCast_1x128 _ 0 j
  · refine (l2_rowBcast_512x128 _ r j).trans ?_
    exact l2_rowCast_1x128 _ 0 j

theorem pay21_apply (v16 : FVec Ideal S512x256 .f32) (r : Fin 512) (k : Fin 256) :
    k0_pay21 (F := Ideal) v16 (ix2 r k) = unitRow (fun k : Fin 256 => v16 (ix2 r k)) k := by
  unfold k0_pay21 unitRow
  refine (divf_apply _ _ _).trans ?_
  refine congrArg (Ideal.div (v16 (ix2 r k))) ?_
  refine (l2_colBcast_512x256 _ r k).trans ?_
  refine congrArg Ideal.sqrt ?_
  refine (l2_colCast_512 _ r 0).trans ?_
  exact l2_laneSum_512x256 _ r

theorem pay22_apply (v16 : FVec Ideal S512x256 .f32) (v66 : Vec Ideal S128x256 .f32) (r : Fin 512) (j : Fin 128) :
    k0_pay22 (F := Ideal) v16 v66 (ix2 r j)
      = projRow (fun k : Fin 256 => v16 (ix2 r k)) (fun (j : Fin 128) (k : Fin 256) => v66 (ix2 j k)) j := by
  unfold k0_pay22 projRow
  refine (l2_matmul2_apply _ _ r j).trans ?_
  refine Finset.sum_congr rfl fun k _ => ?_
  rw [pay21_apply v16 r k, l2_tableT_apply]

theorem pay23_apply (v74 : FVec Ideal S512x128 .f32) (r : Fin 512) (j : Fin 128) :
    k0_pay23 (F := Ideal) v74 (ix2 r j) = unitRow (fun j : Fin 128 => v74 (ix2 r j)) j := by
  unfold k0_pay23 unitRow
  refine (divf_apply _ _ _).trans ?_
  refine congrArg (Ideal.div (v74 (ix2 r j))) ?_
  refine (l2_colBcast_512x128 _ r j).trans ?_
  refine congrArg Ideal.sqrt ?_
  refine (l2_colCast_512 _ r 0).trans ?_
  exact l2_laneSum_512x128 _ r

theorem pay24_apply (v74 : FVec Ideal S512x128 .f32) (v86 : Vec Ideal S1x1 .f32) :
    k0_pay24 (F := Ideal) v74 v86 (ix2 0 0)
      = v86 (ix2 0 0) + ∑ r : Fin 512, ∑ j : Fin 128,
          unitRow (fun j : Fin 128 => v74 (ix2 r j)) j * unitRow (fun j : Fin 128 => v74 (ix2 r j)) j := by
  unfold k0_pay24
  refine (l2_selfCast_1x1 _ 0 0).trans ?_
  refine (addf_apply _ _ _).trans ?_
  refine congrArg (v86 (ix2 0 0) + ·) ?_
  refine (l2_cast_1_1x1 _ 0 0).trans ?_
  refine (l2_colSum_512x1 _ 0).trans ?_
  refine Finset.sum_congr rfl fun r _ => ?_
  refine (l2_colCast_512 _ r 0).trans ?_
  refine (l2_laneSum_512x128 _ r).trans ?_
  refine Finset.sum_congr rfl fun j _ => ?_
  refine (mulf_apply _ _ _).trans ?_
  rw [pay23_apply v74 r j]

theorem pay25_apply (v72 : FVec Ideal S512x256 .f32) (v74 : FVec Ideal S512x128 .f32) (v93 : Vec Ideal S1x128 .f32)
    (j : Fin 128) :
    k0_pay25 (F := Ideal) v72 v74 v93 (ix2 0 j)
      = v93 (ix2 0 j) + ∑ r : Fin 512, unitRow (fun j : Fin 128 => v74 (ix2 r j)) j * (∑ k : Fin 256, v72 (ix2 r k)) := by
  unfold k0_pay25
  refine (l2_rowCast_1x128 _ 0 j).trans ?_
  refine (addf_apply _ _ _).trans ?_
  refine congrArg (v93 (ix2 0 j) + ·) ?_
  refine (l2_cast_128_1x128 _ 0 j).trans ?_
  refine (l2_colSum_512x128 _ j).trans ?_
  refine Finset.sum_congr rfl fun r _ => ?_
  refine (mulf_apply _ _ _).trans ?_
  refine congr (congrArg HMul.hMul (pay23_apply v74 r j)) ?_
  refine (l2_colBcast_512x128 _ r j).trans ?_
  refine (l2_colCast_512 _ r 0).trans ?_
  exact l2_laneSum_512x256 _ r

end Cert.KernelIdeal.Pay

end
-- ==== Proof.KPayL3.lean ====
/-
  The third and the last layer's tile values, entry by entry.
-/
import proofs.«172171_j13907104104967_2_alg».proof.Proof.Gen.KernelIdeal.Skeleton
import proofs.«172171_j13907104104967_2_alg».proof.Proof.HebbSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.Pay

open Cert.KernelIdeal Cert.KernelIdeal.Gen Cert.Hebb

/-! ## The non-pointwise operations of these tiles, each read at one entry -/

namespace L3

/-- A [512] vector cast to a [512, 1] column reads, at (r, u), the vector at r. -/
private theorem cast_col (x : FVec Ideal S512 .f32) (r : Fin 512) (u : Fin 1) :
    shapeCast S512x1 x shapeCasts_S512_S512x1 (ix2 r u) = x (ix1 r) :=
  shapeCast_apply x shapeCasts_S512_S512x1 (ix2 r u) (ix1 r) (by
    have hu : u.val = 0 := by omega
    rw [Shape.rowMajor_val_one, Shape.rowMajor_val_two]
    show r.val = r.val * 1 + u.val
    rw [hu, Nat.mul_one, Nat.add_zero])

/-- A [512, 1] column broadcast over 128 lanes reads, at (r, k), the column at r. -/
private theorem bcast_col128 (x : FVec Ideal S512x1 .f32) (r : Fin 512) (k : Fin 128) :
    broadcastTo S512x128 x broadcasts_S512x1_S512x128 (ix2 r k) = x (ix2 r (0 : Fin 1)) := by
  refine broadcastTo_apply x broadcasts_S512x1_S512x128 (ix2 r k) (ix2 r (0 : Fin 1)) fun ax => ?_
  match ax with
  | ⟨0, _⟩ => rfl
  | ⟨1, _⟩ => rfl

/-- A [512, 1] column broadcast over 64 lanes reads, at (r, j), the column at r. -/
private theorem bcast_col64 (x : FVec Ideal S512x1 .f32) (r : Fin 512) (j : Fin 64) :
    broadcastTo S512x64 x broadcasts_S512x1_S512x64 (ix2 r j) = x (ix2 r (0 : Fin 1)) := by
  refine broadcastTo_apply x broadcasts_S512x1_S512x64 (ix2 r j) (ix2 r (0 : Fin 1)) fun ax => ?_
  match ax with
  | ⟨0, _⟩ => rfl
  | ⟨1, _⟩ => rfl

/-- The lane sum of a [512, 128] tile at row r is the sum over the row's 128 entries. -/
private theorem rowsum128 (x : FVec Ideal S512x128 .f32) (hφ : FKind.Formats .f32)
    (hacc : (0x00000000#32 : BitVec 32) = 0x00000000#32) (r : Fin 512) :
    multiReduction (F := Ideal) .add [1] S512 x 0x00000000#32 reduces_S512x128_S512 hφ hacc (ix1 r)
      = ∑ k : Fin 128, x (ix2 r k) := by
  refine (Ideal.multiReduction_add_single x 0x00000000#32 reduces_S512x128_S512 hφ hacc (ix1 r)).trans ?_
  refine Finset.sum_congr rfl fun k _ => congrArg x ?_
  funext c
  match c with
  | ⟨0, _⟩ => rfl
  | ⟨1, _⟩ => rfl

/-- The lane sum of a [512, 64] tile at row r is the sum over the row's 64 entries. -/
private theorem rowsum64 (x : FVec Ideal S512x64 .f32) (hφ : FKind.Formats .f32)
    (hacc : (0x00000000#32 : BitVec 32) = 0x00000000#32) (r : Fin 512) :
    multiReduction (F := Ideal) .add [1] S512 x 0x00000000#32 reduces_S512x64_S512 hφ hacc (ix1 r)
      = ∑ k : Fin 64, x (ix2 r k) := by
  refine (Ideal.multiReduction_add_single x 0x00000000#32 reduces_S512x64_S512 hφ hacc (ix1 r)).trans ?_
  refine Finset.sum_congr rfl fun k _ => congrArg x ?_
  funext c
  match c with
  | ⟨0, _⟩ => rfl
  | ⟨1, _⟩ => rfl

/-- The square root of a vector reads the square root of the entry. -/
private theorem sqrt_apply {s : Shape} (x : FVec Ideal s .f32) (i : s.Idx) : sqrt x i = Ideal.sqrt (x i) := rfl

private theorem lhs_mm3_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
private theorem lhs_mm3_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
private theorem rhs_mm3_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
private theorem rhs_mm3_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- The [512, 128] by [128, 64] product into a zero accumulator, at (r, j): the sum over the 128 contracted entries. -/
private theorem mm3_apply (x : FVec Ideal S512x128 .f32) (y : FVec Ideal S128x64 .f32) (r : Fin 512) (j : Fin 64) :
    matmul dot_S512x128_S128x64_S512x64_1_0_0_1_n_n none x y (constant (F := Ideal) S512x64 .f32 0x00000000#32) (ix2 r j)
      = ∑ k : Fin 128, x (ix2 r k) * y (ix2 k j) := by
  simp only [matmul]
  rw [Ideal.matmul_constant_zero_apply, ← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 r j) ((contrEquiv1 dot_S512x128_S128x64_S512x64_1_0_0_1_n_n 128 rfl rfl).symm k) = ix2 r k := funext fun a => Fin.ext (by
    match a with
    | ⟨0, _⟩ => exact lhs_mm3_0 _ _
    | ⟨1, _⟩ => exact (lhs_mm3_1 _ _).trans hk)
  have er : dot_S512x128_S128x64_S512x64_1_0_0_1_n_n.rhsIdx (ix2 r j) ((contrEquiv1 dot_S512x128_S128x64_S512x64_1_0_0_1_n_n 128 rfl rfl).symm k) = ix2 k j := funext fun a => Fin.ext (by
    match a with
    | ⟨0, _⟩ => exact (rhs_mm3_0 _ _).trans hk
    | ⟨1, _⟩ => exact rhs_mm3_1 _ _)
  rw [el, er]

/-- A [64, 128] table transposed reads, at (k, j), the table at (j, k). -/
private theorem tr3_apply (H : Vec Ideal S64x128 .f32) (k : Fin 128) (j : Fin 64) :
    transpose S128x64 [1, 0] H transposes_S64x128_p1_0_S128x64 (ix2 k j) = H (ix2 j k) :=
  transpose_ix2_apply H transposes_S64x128_p1_0_S128x64 k j

/-- A [512, 64] tile divided by the root of its rows' sums of squares is, row by row, the row scaled to unit length. -/
private theorem unit64 (y : FVec Ideal S512x64 .f32) (hφ : FKind.Formats .f32)
    (hacc : (0x00000000#32 : BitVec 32) = 0x00000000#32) (r : Fin 512) (j : Fin 64) :
    divf y (broadcastTo S512x64 (sqrt (shapeCast S512x1 (multiReduction (F := Ideal) .add [1] S512 (mulf y y) 0x00000000#32
        reduces_S512x64_S512 hφ hacc) shapeCasts_S512_S512x1)) broadcasts_S512x1_S512x64) (ix2 r j)
      = unitRow (fun k : Fin 64 => y (ix2 r k)) j := by
  unfold unitRow
  refine (divf_apply _ _ _).trans ?_
  refine congrArg (Ideal.div (y (ix2 r j))) ?_
  refine (bcast_col64 _ r j).trans ?_
  refine (sqrt_apply _ _).trans ?_
  refine congrArg Ideal.sqrt ?_
  refine (cast_col _ r 0).trans ?_
  refine (rowsum64 _ _ _ r).trans ?_
  rfl

/-- A [1, 64] row broadcast over 512 rows reads, at (r, j), the row at j. -/
private theorem bcast_row64 (b : FVec Ideal S1x64 .f32) (r : Fin 512) (j : Fin 64) :
    broadcastTo S512x64 b broadcasts_S1x64_S512x64 (ix2 r j) = b (ix2 (0 : Fin 1) j) :=
  broadcastTo_1b_ab_apply b broadcasts_S1x64_S512x64 r j

private theorem lhs_mm4_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
private theorem lhs_mm4_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
private theorem rhs_mm4_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
private theorem rhs_mm4_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- The [512, 64] by [64, 1024] product into a zero accumulator, at (r, o): the sum over the 64 contracted entries. -/
private theorem mm4_apply (x : FVec Ideal S512x64 .f32) (y : FVec Ideal S64x1024 .f32) (r : Fin 512) (o : Fin 1024) :
    matmul dot_S512x64_S64x1024_S512x1024_1_0_0_1_n_n none x y (constant (F := Ideal) S512x1024 .f32 0x00000000#32) (ix2 r o)
      = ∑ k : Fin 64, x (ix2 r k) * y (ix2 k o) := by
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r o) ((contrEquiv1 dot_S512x64_S64x1024_S512x1024_1_0_0_1_n_n 64 rfl rfl).symm k) = ix2 r k := funext fun a => Fin.ext (by
    match a with
    | ⟨0, _⟩ => exact lhs_mm4_0 _ _
    | ⟨1, _⟩ => exact (lhs_mm4_1 _ _).trans hk)
  have er : dot_S512x64_S64x1024_S512x1024_1_0_0_1_n_n.rhsIdx (ix2 r o) ((contrEquiv1 dot_S512x64_S64x1024_S512x1024_1_0_0_1_n_n 64 rfl rfl).symm k) = ix2 k o := funext fun a => Fin.ext (by
    match a with
    | ⟨0, _⟩ => exact (rhs_mm4_0 _ _).trans hk
    | ⟨1, _⟩ => exact rhs_mm4_1 _ _)
  rw [el, er]

/-- A [1024, 64] weight matrix transposed reads, at (k, o), the matrix at (o, k). -/
private theorem tr4_apply (W : FVec Ideal S1024x64 .f32) (k : Fin 64) (o : Fin 1024) :
    transpose S64x1024 [1, 0] W transposes_S1024x64_p1_0_S64x1024 (ix2 k o) = W (ix2 o k) :=
  transpose_ix2_apply W transposes_S1024x64_p1_0_S64x1024 k o

/-- A [1, 1024] row broadcast over 512 rows reads, at (r, o), the row at o. -/
private theorem bcast_row1024 (b : FVec Ideal S1x1024 .f32) (r : Fin 512) (o : Fin 1024) :
    broadcastTo S512x1024 b broadcasts_S1x1024_S512x1024 (ix2 r o) = b (ix2 (0 : Fin 1) o) :=
  broadcastTo_1b_ab_apply b broadcasts_S1x1024_S512x1024 r o

/-- The sum over the rows of a [512, 1] column, at its one entry. -/
private theorem colsum1 (x : FVec Ideal S512x1 .f32) (hφ : FKind.Formats .f32)
    (hacc : (0x00000000#32 : BitVec 32) = 0x00000000#32) (u : Fin 1) :
    multiReduction (F := Ideal) .add [0] S1 x 0x00000000#32 reduces_S512x1_S1 hφ hacc (ix1 u)
      = ∑ r : Fin 512, x (ix2 r u) := by
  refine (Ideal.multiReduction_add_single x 0x00000000#32 reduces_S512x1_S1 hφ hacc (ix1 u)).trans ?_
  refine Finset.sum_congr rfl fun r _ => congrArg x ?_
  funext c
  match c with
  | ⟨0, _⟩ => rfl
  | ⟨1, _⟩ => rfl

/-- The sum over the rows of a [512, 64] tile, at column j. -/
private theorem colsum64 (x : FVec Ideal S512x64 .f32) (hφ : FKind.Formats .f32)
    (hacc : (0x00000000#32 : BitVec 32) = 0x00000000#32) (j : Fin 64) :
    multiReduction (F := Ideal) .add [0] S64 x 0x00000000#32 reduces_S512x64_S64 hφ hacc (ix1 j)
      = ∑ r : Fin 512, x (ix2 r j) := by
  refine (Ideal.multiReduction_add_single x 0x00000000#32 reduces_S512x64_S64 hφ hacc (ix1 j)).trans ?_
  refine Finset.sum_congr rfl fun r _ => congrArg x ?_
  funext c
  match c with
  | ⟨0, _⟩ => rfl
  | ⟨1, _⟩ => rfl

end L3

theorem pay27_apply (v65 : FVec Ideal S512x128 .f32) (v102 : Vec Ideal S64x128 .f32) (v105 v111 : Vec Ideal S1x64 .f32)
    (r : Fin 512) (j : Fin 64) :
    k0_pay27 (F := Ideal) (k0_pay26 (F := Ideal) v65 v102 v105) v111 (ix2 r j)
      = layerRow (fun k : Fin 128 => v65 (ix2 r k)) (fun (j : Fin 64) (k : Fin 128) => v102 (ix2 j k))
          (fun j : Fin 64 => v105 (ix2 0 j)) (fun j : Fin 64 => v111 (ix2 0 j)) j := by
  unfold k0_pay27 k0_pay26 layerRow
  refine (mulf_apply _ _ _).trans ?_
  refine congrArg₂ (· * ·) ?_ ?_
  · refine (maximumf_apply _ _ _).trans ?_
    refine congrArg₂ max ?_ rfl
    refine (addf_apply _ _ _).trans ?_
    refine congrArg₂ (· + ·) ?_ ?_
    · refine (L3.mm3_apply _ _ r j).trans ?_
      refine Finset.sum_congr rfl fun k _ => ?_
      rw [L3.tr3_apply]
    · refine (L3.bcast_row64 _ r j).trans ?_
      rw [shapeCast_self]
  · refine (L3.bcast_row64 _ r j).trans ?_
    rw [shapeCast_self]

theorem pay28_apply (v65 : FVec Ideal S512x128 .f32) (r : Fin 512) (k : Fin 128) :
    k0_pay28 (F := Ideal) v65 (ix2 r k) = unitRow (fun k : Fin 128 => v65 (ix2 r k)) k := by
  unfold k0_pay28 unitRow
  refine (divf_apply _ _ _).trans ?_
  refine congrArg (Ideal.div (v65 (ix2 r k))) ?_
  refine (L3.bcast_col128 _ r k).trans ?_
  refine (L3.sqrt_apply _ _).trans ?_
  refine congrArg Ideal.sqrt ?_
  refine (L3.cast_col _ r 0).trans ?_
  refine (L3.rowsum128 _ _ _ r).trans ?_
  rfl

theorem pay29_apply (v65 : FVec Ideal S512x128 .f32) (v115 : Vec Ideal S64x128 .f32) (r : Fin 512) (j : Fin 64) :
    k0_pay29 (F := Ideal) v65 v115 (ix2 r j)
      = zRow (fun k : Fin 128 => v65 (ix2 r k)) (fun (j : Fin 64) (k : Fin 128) => v115 (ix2 j k)) j := by
  have hm : ∀ j' : Fin 64,
      matmul dot_S512x128_S128x64_S512x64_1_0_0_1_n_n none (k0_pay28 (F := Ideal) v65)
          (transpose S128x64 [1, 0] v115 transposes_S64x128_p1_0_S128x64 : FVec Ideal S128x64 .f32) (constant (F := Ideal) S512x64 .f32 0x00000000#32) (ix2 r j')
        = projRow (fun k : Fin 128 => v65 (ix2 r k)) (fun (j : Fin 64) (k : Fin 128) => v115 (ix2 j k)) j' := by
    intro j'
    refine (L3.mm3_apply _ _ r j').trans ?_
    unfold projRow
    refine Finset.sum_congr rfl fun k _ => ?_
    rw [pay28_apply, L3.tr3_apply]
  unfold k0_pay29 zRow
  refine (L3.unit64 _ _ _ r j).trans ?_
  exact congrArg (fun f => unitRow f j) (funext hm)

theorem pay30_apply (v65 : FVec Ideal S512x128 .f32) (v115 : Vec Ideal S64x128 .f32) (v135 : Vec Ideal S1x1 .f32) :
    k0_pay30 (F := Ideal) v65 v115 v135 (ix2 0 0)
      = v135 (ix2 0 0) + ∑ r : Fin 512, sqRow (fun k : Fin 128 => v65 (ix2 r k)) (fun (j : Fin 64) (k : Fin 128) => v115 (ix2 j k)) := by
  unfold k0_pay30
  refine (congrFun (shapeCast_self _ _) _).trans ?_
  refine (addf_apply _ _ _).trans ?_
  refine congrArg₂ (· + ·) rfl ?_
  refine (shapeCast_a_1a_apply _ shapeCasts_S1_S1x1 0 0).trans ?_
  refine (L3.colsum1 _ _ _ 0).trans ?_
  refine Finset.sum_congr rfl fun r _ => ?_
  refine (L3.cast_col _ r 0).trans ?_
  refine (L3.rowsum64 _ _ _ r).trans ?_
  unfold sqRow
  refine Finset.sum_congr rfl fun j _ => ?_
  rw [mulf_apply, pay29_apply]

theorem pay31_apply (v65 : FVec Ideal S512x128 .f32) (v115 : Vec Ideal S64x128 .f32) (v142 : Vec Ideal S1x64 .f32)
    (j : Fin 64) :
    k0_pay31 (F := Ideal) v65 v115 v142 (ix2 0 j)
      = v142 (ix2 0 j) + ∑ r : Fin 512,
          zRow (fun k : Fin 128 => v65 (ix2 r k)) (fun (j : Fin 64) (k : Fin 128) => v115 (ix2 j k)) j
            * sRow (fun k : Fin 128 => v65 (ix2 r k)) := by
  unfold k0_pay31
  refine (congrFun (shapeCast_self _ _) _).trans ?_
  refine (addf_apply _ _ _).trans ?_
  refine congrArg₂ (· + ·) rfl ?_
  refine (shapeCast_a_1a_apply _ shapeCasts_S64_S1x64 0 j).trans ?_
  refine (L3.colsum64 _ _ _ j).trans ?_
  refine Finset.sum_congr rfl fun r _ => ?_
  refine (mulf_apply _ _ _).trans ?_
  refine congrArg₂ (· * ·) (pay29_apply v65 v115 r j) ?_
  refine (L3.bcast_col64 _ r j).trans ?_
  refine (L3.cast_col _ r 0).trans ?_
  refine (L3.rowsum128 _ _ _ r).trans ?_
  unfold sRow
  refine Finset.sum_congr rfl fun k _ => ?_
  exact pay28_apply v65 r k

/-- The last layer: no mask; 1024 output columns, of which the program keeps the first 1000. -/
theorem pay1_apply (v114 : FVec Ideal S512x64 .f32) (v151 : Vec Ideal S1024x64 .f32) (v155 : Vec Ideal S1x1024 .f32)
    (r : Fin 512) (o : Fin 1024) :
    k0_pay1 (F := Ideal) v114 v151 v155 (ix2 r o)
      = lastRow (fun k : Fin 64 => v114 (ix2 r k)) (fun (o : Fin 1024) (k : Fin 64) => v151 (ix2 o k))
          (fun o : Fin 1024 => v155 (ix2 0 o)) o := by
  unfold k0_pay1 lastRow
  refine (maximumf_apply _ _ _).trans ?_
  refine congrArg₂ max ?_ rfl
  refine (addf_apply _ _ _).trans ?_
  refine congrArg₂ (· + ·) ?_ ?_
  · refine (L3.mm4_apply _ _ r o).trans ?_
    refine Finset.sum_congr rfl fun k _ => ?_
    rw [L3.tr4_apply, shapeCast_self]
  · refine (L3.bcast_row1024 _ r o).trans ?_
    rw [shapeCast_self]

end Cert.KernelIdeal.Pay

end
-- ==== Proof.KPayFin.lean ====
/-
  The last grid point's finish, entry by entry: from a layer's table row sums, its accumulated sum of
  squares and its accumulated  sum_b z_bj * (sum_k u_bk), the score  (1 - 1 * sq / N) * rowsum_j + 1 * sd_j,
  normalised by its minimum and maximum and thresholded at one half; and the zeros the first grid point
  stores into the six running sums.
-/
import proofs.«172171_j13907104104967_2_alg».proof.Proof.Gen.KernelIdeal.Skeleton
import proofs.«172171_j13907104104967_2_alg».proof.Proof.HebbSpec
import Idealize.ShloMosaic.Lib.Pipeline.Value
import Idealize.ShloMosaic.Lib.ValueIdx
import Idealize.ShloMosaic.Lib.ValueLayout
import Idealize.ShloMosaic.PureOps.Ideal.Laws
import Mathlib.Order.CompleteLattice.Finset

noncomputable section

open Idealize.ShloMosaic Idealize.ShloMosaic.TcCoe Idealize.ShloMosaic.ValueIdx

namespace Cert.KernelIdeal.Pay

open Cert.KernelIdeal Cert.KernelIdeal.Gen Cert.Hebb

/-- The f32 word of plus infinity is the top of the extended reals. -/
private theorem ofBits_posInf : Ideal.ofBits .f32 0x7F800000#32 = ⊤ := by simp [Ideal.ofBits, Ideal.ieee]

/-- The f32 word of minus infinity is the bottom of the extended reals. -/
private theorem ofBits_negInf : Ideal.ofBits .f32 0xFF800000#32 = ⊥ := by simp [Ideal.ofBits, Ideal.ieee]

/-- Over the one result index of a [1, n] row reduced along its second axis, the source index with
    coordinate k inserted is (0, k). -/
private theorem lift_row {n : ℕ} (hr : (⟨2, ![1, n]⟩ : Shape).Reduces [1] S1) (i : S1.Idx) (k : Fin n) :
    hr.lift i k = ix2 (0 : Fin 1) k := by
  funext c
  apply Fin.ext
  match c with
  | ⟨0, h0⟩ =>
    have hlt : (hr.lift i k ⟨0, h0⟩).val < 1 := (hr.lift i k ⟨0, h0⟩).isLt
    show (hr.lift i k ⟨0, h0⟩).val = 0
    omega
  | ⟨1, h1⟩ =>
    show hr.liftVal i k.val ⟨1, h1⟩ = k.val
    unfold Shape.Reduces.liftVal
    exact dif_pos rfl

/-- The fold of the minimum from the top over all of a finite type is the infimum. -/
private theorem fold_min_top {ι : Type} [Fintype ι] (f : ι → EReal) :
    Finset.fold (FloatOps.minimumf (F := Ideal) (φ := .f32)) (⊤ : EReal) f Finset.univ = Finset.univ.inf f := rfl

/-- The fold of the maximum from the bottom over all of a finite type is the supremum. -/
private theorem fold_max_bot {ι : Type} [Fintype ι] (f : ι → EReal) :
    Finset.fold (FloatOps.maximumf (F := Ideal) (φ := .f32)) (⊥ : EReal) f Finset.univ = Finset.univ.sup f := rfl

/-- The minimum of a [1, n] row taken along its second axis from plus infinity is the infimum of the row's entries. -/
private theorem min_row {n : ℕ} (s : FVec Ideal ⟨2, ![1, n]⟩ .f32) (hr : (⟨2, ![1, n]⟩ : Shape).Reduces [1] S1)
    (hφ : FKind.Formats .f32) (hacc : (0x7F800000#32 : BitVec FTy.f32.bits) = FKind.minimumf.neutral .f32 hφ) (i : S1.Idx) :
    multiReduction .minimumf [1] S1 s 0x7F800000#32 hr hφ hacc i = Finset.univ.inf (fun k : Fin n => s (ix2 (0 : Fin 1) k)) := by
  rw [multiReduction_minimumf_eq_fold, hr.fold_filter_drop_single]
  have e : (s ∘ hr.lift i) = fun k : Fin n => s (ix2 (0 : Fin 1) k) := funext fun k => congrArg s (lift_row hr i k)
  exact (congrArg₂ (fun (a : EReal) (f : Fin n → EReal) => Finset.fold (FloatOps.minimumf (F := Ideal) (φ := .f32)) a f Finset.univ)
    ofBits_posInf e).trans (fold_min_top _)

/-- The maximum of a [1, n] row taken along its second axis from minus infinity is the supremum of the row's entries. -/
private theorem max_row {n : ℕ} (s : FVec Ideal ⟨2, ![1, n]⟩ .f32) (hr : (⟨2, ![1, n]⟩ : Shape).Reduces [1] S1)
    (hφ : FKind.Formats .f32) (hacc : (0xFF800000#32 : BitVec FTy.f32.bits) = FKind.maximumf.neutral .f32 hφ) (i : S1.Idx) :
    multiReduction .maximumf [1] S1 s 0xFF800000#32 hr hφ hacc i = Finset.univ.sup (fun k : Fin n => s (ix2 (0 : Fin 1) k)) := by
  rw [multiReduction_maximumf_eq_fold, hr.fold_filter_drop_single]
  have e : (s ∘ hr.lift i) = fun k : Fin n => s (ix2 (0 : Fin 1) k) := funext fun k => congrArg s (lift_row hr i k)
  exact (congrArg₂ (fun (a : EReal) (f : Fin n → EReal) => Finset.fold (FloatOps.maximumf (F := Ideal) (φ := .f32)) a f Finset.univ)
    ofBits_negInf e).trans (fold_max_bot _)

/-- A one-entry vector cast to a 1 x 1 matrix reads its one entry. -/
private theorem cast_unit {α : Type} (x : S1.Idx → α) (hc : S1.ShapeCasts S1x1) :
    shapeCast S1x1 x hc (ix2 (0 : Fin 1) (0 : Fin 1)) = x (ix1 (0 : Fin 1)) :=
  shapeCast_a_1a_apply x hc 0 0

/-- A 1 x 1 matrix broadcast along a [1, n] row reads its one entry everywhere. -/
private theorem bcast_row {α : Type} {n : ℕ} (x : S1x1.Idx → α) (hb : S1x1.Broadcasts ⟨2, ![1, n]⟩) (j : Fin n) :
    broadcastTo ⟨2, ![1, n]⟩ x hb (ix2 (0 : Fin 1) j) = x (ix2 (0 : Fin 1) (0 : Fin 1)) := by
  refine broadcastTo_apply x hb (ix2 (0 : Fin 1) j) (ix2 (0 : Fin 1) (0 : Fin 1)) fun ax => ?_
  match ax with
  | ⟨0, _⟩ => rfl
  | ⟨1, _⟩ => rfl

/-- Selecting on the bit of an ordered less-than is the conditional on the order. -/
private theorem select_olt (a b x y : EReal) :
    Scalar.select (FloatOps.cmpf (F := Ideal) (φ := .f32) .olt a b) x y = if a < b then x else y := by
  by_cases h : a < b
  · rw [if_pos h]; show Scalar.select (BitVec.ofBool (decide (a < b))) x y = x
    rw [decide_eq_true h]; exact select_one x y
  · rw [if_neg h]; show Scalar.select (BitVec.ofBool (decide (a < b))) x y = y
    rw [decide_eq_false h]; exact select_zero x y

/-- The common tail: a [1, n] row of scores, less its minimum, over its range plus the small word, compared with
    one half; 0 below and 1 elsewhere. -/
private theorem tail_apply {n : ℕ} (s : FVec Ideal ⟨2, ![1, n]⟩ .f32) (hr : (⟨2, ![1, n]⟩ : Shape).Reduces [1] S1)
    (hφ : FKind.Formats .f32) (hmin : (0x7F800000#32 : BitVec FTy.f32.bits) = FKind.minimumf.neutral .f32 hφ)
    (hmax : (0xFF800000#32 : BitVec FTy.f32.bits) = FKind.maximumf.neutral .f32 hφ)
    (hc : S1.ShapeCasts S1x1) (hb : S1x1.Broadcasts ⟨2, ![1, n]⟩) (j : Fin n) :
    select
        (cmpf .olt
          (divf
            (subf s (broadcastTo ⟨2, ![1, n]⟩ (shapeCast S1x1 (multiReduction .minimumf [1] S1 s 0x7F800000#32 hr hφ hmin) hc) hb))
            (broadcastTo ⟨2, ![1, n]⟩
              (addf
                (subf (shapeCast S1x1 (multiReduction .maximumf [1] S1 s 0xFF800000#32 hr hφ hmax) hc)
                  (shapeCast S1x1 (multiReduction .minimumf [1] S1 s 0x7F800000#32 hr hφ hmin) hc))
                (broadcast S1x1 (Scalar.ofBits (F := Ideal) .f32 0x322BCC77#32)))
              hb))
          (broadcast ⟨2, ![1, n]⟩ (Scalar.ofBits (F := Ideal) .f32 0x3F000000#32)))
        (broadcast ⟨2, ![1, n]⟩ (Scalar.ofBits (F := Ideal) .f32 0x00000000#32))
        (broadcast ⟨2, ![1, n]⟩ (Scalar.ofBits (F := Ideal) .f32 0x3F800000#32))
        (ix2 (0 : Fin 1) j)
      = maskOf (fun k : Fin n => s (ix2 (0 : Fin 1) k)) j := by
  unfold maskOf
  simp only [select_apply, cmpf_apply, divf_apply, subf_apply, addf_apply, broadcast_apply,
    bcast_row, cast_unit, min_row, max_row, select_olt]
  rw [min_row s hr hφ hmin (ix1 0), max_row s hr hφ hmax (ix1 0)]
  rfl

theorem pay3_apply (v165 : Vec Ideal S1x256 .f32) (v167 : Vec Ideal S1x1 .f32) (v176 : Vec Ideal S1x256 .f32) (j : Fin 256) :
    k0_pay3 (F := Ideal) v165 v167 v176 (ix2 0 j)
      = maskOf (fun j : Fin 256 => (w1 - w1 * Ideal.div (v167 (ix2 0 0)) wN1) * v165 (ix2 0 j) + w1 * v176 (ix2 0 j)) j := by
  unfold k0_pay3
  refine (tail_apply (n := 256) _ reduces_S1x256_S1 _ _ _ shapeCasts_S1_S1x1 broadcasts_S1x1_S1x256 j).trans ?_
  refine congrArg (fun f => maskOf f j) (funext fun k => ?_)
  simp only [addf_apply, mulf_apply, subf_apply, divf_apply, broadcast_apply, bcast_row, shapeCast_self]
  rfl

theorem pay6_apply (v197 : Vec Ideal S1x128 .f32) (v199 : Vec Ideal S1x1 .f32) (v208 : Vec Ideal S1x128 .f32) (j : Fin 128) :
    k0_pay6 (F := Ideal) (k0_pay4 (F := Ideal) v197) v199 (k0_pay5 (F := Ideal)) v208 (ix2 0 j)
      = maskOf (fun j : Fin 128 => (w1 - w1 * Ideal.div (v199 (ix2 0 0)) wN2) * v197 (ix2 0 j) + w1 * v208 (ix2 0 j)) j := by
  unfold k0_pay6 k0_pay4 k0_pay5
  refine (tail_apply (n := 128) _ reduces_S1x128_S1 _ _ _ shapeCasts_S1_S1x1 broadcasts_S1x1_S1x128 j).trans ?_
  refine congrArg (fun f => maskOf f j) (funext fun k => ?_)
  simp only [addf_apply, mulf_apply, subf_apply, divf_apply, broadcast_apply, bcast_row, shapeCast_self]
  rfl

theorem pay2_apply (v229 : Vec Ideal S1x64 .f32) (v231 : Vec Ideal S1x1 .f32) (v240 : Vec Ideal S1x64 .f32) (j : Fin 64) :
    k0_pay2 (F := Ideal) (k0_pay7 (F := Ideal) v229 v231) v240 (ix2 0 j)
      = maskOf (fun j : Fin 64 => (w1 - w1 * Ideal.div (v231 (ix2 0 0)) wN3) * v229 (ix2 0 j) + w1 * v240 (ix2 0 j)) j := by
  unfold k0_pay2 k0_pay7
  refine (tail_apply (n := 64) _ reduces_S1x64_S1 _ _ _ shapeCasts_S1_S1x1 broadcasts_S1x1_S1x64 j).trans ?_
  refine congrArg (fun f => maskOf f j) (funext fun k => ?_)
  simp only [addf_apply, mulf_apply, subf_apply, divf_apply, broadcast_apply, bcast_row, shapeCast_self]
  rfl

theorem pay8_apply (i : S1x1.Idx) : k0_pay8 (F := Ideal) i = w0 := by
  unfold k0_pay8; rw [shapeCast_self]; rfl
theorem pay9_apply (i : S1x256.Idx) : k0_pay9 (F := Ideal) i = w0 := by
  unfold k0_pay9; rw [shapeCast_self]; rfl
theorem pay10_apply (i : S1x1.Idx) : k0_pay10 (F := Ideal) i = w0 := by
  unfold k0_pay10; rw [shapeCast_self]; rfl
theorem pay11_apply (i : S1x128.Idx) : k0_pay11 (F := Ideal) i = w0 := by
  unfold k0_pay11; rw [shapeCast_self]; rfl
theorem pay12_apply (i : S1x1.Idx) : k0_pay12 (F := Ideal) i = w0 := by
  unfold k0_pay12; rw [shapeCast_self]; rfl
theorem pay13_apply (i : S1x64.Idx) : k0_pay13 (F := Ideal) i = w0 := by
  unfold k0_pay13; rw [shapeCast_self]; rfl

end Cert.KernelIdeal.Pay

end
-- ==== Proof.KHost.lean ====
/-
  What the region finds in its windows, entry by entry: the input tile is rows 512 t .. 512 t + 511 of x; every
  other window's one block is its whole array, which is an argument of the program, or a vector argument laid out as a
  row, or the row sums of a table, or the last layer's weights and bias extended by zero rows to 1024.
-/
import proofs.«172171_j13907104104967_2_alg».proof.Proof.Gen.KernelIdeal.Frame.Runs
import proofs.«172171_j13907104104967_2_alg».proof.Proof.HebbSpec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

noncomputable section

open Idealize.ShloMosaic Idealize.ShloMosaic.TcCoe Idealize.ShloMosaic.ValueIdx Idealize.SL.Sem

namespace Cert.KernelIdeal.KHost

open Cert.KernelIdeal Cert.KernelIdeal.Gen Cert.Hebb

variable (m : (ℓ : Loc nD τ sig) → Buf (Elt Ideal) ℓ) (c : Dev nD)

/-- The fifteen argument arrays on core c, at their literal types. -/
abbrev aX : Vec Ideal S8192x1024 .f32 := m ((c.tc : Thread nD τ).loc main_arg0)
abbrev aM0 : Vec Ideal S256 .f32 := m ((c.tc : Thread nD τ).loc main_arg1)
abbrev aM1 : Vec Ideal S128 .f32 := m ((c.tc : Thread nD τ).loc main_arg2)
abbrev aM2 : Vec Ideal S64 .f32 := m ((c.tc : Thread nD τ).loc main_arg3)
abbrev aW1 : Vec Ideal S256x1024 .f32 := m ((c.tc : Thread nD τ).loc main_arg4)
abbrev aB1 : Vec Ideal S256 .f32 := m ((c.tc : Thread nD τ).loc main_arg5)
abbrev aW2 : Vec Ideal S128x256 .f32 := m ((c.tc : Thread nD τ).loc main_arg6)
abbrev aB2 : Vec Ideal S128 .f32 := m ((c.tc : Thread nD τ).loc main_arg7)
abbrev aW3 : Vec Ideal S64x128 .f32 := m ((c.tc : Thread nD τ).loc main_arg8)
abbrev aB3 : Vec Ideal S64 .f32 := m ((c.tc : Thread nD τ).loc main_arg9)
abbrev aW4 : Vec Ideal S1000x64 .f32 := m ((c.tc : Thread nD τ).loc main_arg10)
abbrev aB4 : Vec Ideal S1000 .f32 := m ((c.tc : Thread nD τ).loc main_arg11)
abbrev aH1 : Vec Ideal S256x1024 .f32 := m ((c.tc : Thread nD τ).loc main_arg12)
abbrev aH2 : Vec Ideal S128x256 .f32 := m ((c.tc : Thread nD τ).loc main_arg13)
abbrev aH3 : Vec Ideal S64x128 .f32 := m ((c.tc : Thread nD τ).loc main_arg14)

variable (t : Fin cfg0.N)

/-! ## The steps every window shares -/

/-- What a host operation before the region left in its result: the operations' term of the arguments. -/
local macro "host_value" : tactic => `(tactic| (
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl))

set_option hygiene false in
/-- A window whose one block is its whole array, an argument: entry (j0, j1) of the block is entry (0 * n0 + j0, 0 * n1 + j1). -/
local macro "read_whole " win:ident arr:ident harr:ident n0:num n1:num : tactic => `(tactic| (
  funext j
  unfold iblk
  rw [View.read_apply]
  show V m c $arr _ = m (c.tc.loc $arr) _
  rw [$harr:ident]
  congr 1
  funext a
  apply Fin.ext
  have h0 : Pipeline.Window.index $win t 0 = 0 := rfl
  have h1 : Pipeline.Window.index $win t 1 = 0 := rfl
  match a with
  | ⟨0, _⟩ =>
    show Pipeline.Window.index $win t 0 * $n0 + 1 * (j 0).val = (j 0).val
    rw [h0]; omega
  | ⟨1, _⟩ =>
    show Pipeline.Window.index $win t 1 * $n1 + 1 * (j 1).val = (j 1).val
    rw [h1]; omega))

set_option hygiene false in
/-- A window on a vector laid out as a row: entry (0, j) of its one block is entry j of the vector. -/
local macro "read_row " win:ident arr:ident harr:ident n:num : tactic => `(tactic| (
  unfold iblk
  rw [View.read_apply]
  show V m c $arr _ = _
  rw [$harr:ident]
  have h0 : Pipeline.Window.index $win t 0 = 0 := rfl
  have h1 : Pipeline.Window.index $win t 1 = 0 := rfl
  refine (shapeCast_apply _ _ _ (ix1 j) ?_).trans ?_
  · rw [Shape.rowMajor_val_two, Shape.rowMajor_val_one]
    show j.val = (Pipeline.Window.index $win t 0 * 1 + 1 * 0) * $n + (Pipeline.Window.index $win t 1 * $n + 1 * j.val)
    rw [h0, h1]; omega))

/-! ## Window 0: the input tile -/

/-- The tile window's block index at point t is (t, 0). -/
private theorem idx_tile : ∀ t : Fin cfg0.N, win0_0.index t 0 = t.val ∧ win0_0.index t 1 = 0 :=
  (by decide +kernel : ∀ t : Fin grid0.N, win0_0.index t 0 = t.val ∧ win0_0.index t 1 = 0)

/-- Window 0: the tile's row r is row 512 t + r of x. -/
theorem blk0 (r : Fin 512) (k : Fin 1024) (hb : 512 * t.val + r.val < 8192) :
    (iblk m c 0 t : Vec Ideal S512x1024 .f32) (ix2 r k) = aX m c (ix2 ⟨512 * t.val + r.val, hb⟩ k) := by
  have hi := idx_tile t
  unfold iblk
  rw [View.read_apply]
  show V m c main_arg0 _ = m (c.tc.loc main_arg0) _
  rw [V_main_arg0]
  congr 1
  funext a
  apply Fin.ext
  match a with
  | ⟨0, _⟩ =>
    show win0_0.index t 0 * 512 + 1 * r.val = 512 * t.val + r.val
    rw [hi.1]; omega
  | ⟨1, _⟩ =>
    show win0_0.index t 1 * 1024 + 1 * k.val = k.val
    rw [hi.2]; omega

/-! ## The weight and table arguments -/

/-- Windows 1, 4, 6, 9, 11, 14: the weight and table arguments, whole. -/
theorem blk1 : (iblk m c 1 t : Vec Ideal S256x1024 .f32) = aW1 m c := by read_whole win0_1 main_arg4 V_main_arg4 256 1024
theorem blk4 : (iblk m c 4 t : Vec Ideal S256x1024 .f32) = aH1 m c := by read_whole win0_4 main_arg12 V_main_arg12 256 1024
theorem blk6 : (iblk m c 6 t : Vec Ideal S128x256 .f32) = aW2 m c := by read_whole win0_6 main_arg6 V_main_arg6 128 256
theorem blk9 : (iblk m c 9 t : Vec Ideal S128x256 .f32) = aH2 m c := by read_whole win0_9 main_arg13 V_main_arg13 128 256
theorem blk11 : (iblk m c 11 t : Vec Ideal S64x128 .f32) = aW3 m c := by read_whole win0_11 main_arg8 V_main_arg8 64 128
theorem blk14 : (iblk m c 14 t : Vec Ideal S64x128 .f32) = aH3 m c := by read_whole win0_14 main_arg14 V_main_arg14 64 128

/-! ## The bias and mask vectors, laid out as rows -/

private theorem V_v6 : (V m c main_v6 : Vec Ideal S1x256 .f32) = shapeCast S1x256 (aB1 m c) shapeCasts_S256_S1x256 := by host_value
private theorem V_v7 : (V m c main_v7 : Vec Ideal S1x256 .f32) = shapeCast S1x256 (aM0 m c) shapeCasts_S256_S1x256 := by host_value
private theorem V_v8 : (V m c main_v8 : Vec Ideal S1x128 .f32) = shapeCast S1x128 (aB2 m c) shapeCasts_S128_S1x128 := by host_value
private theorem V_v9 : (V m c main_v9 : Vec Ideal S1x128 .f32) = shapeCast S1x128 (aM1 m c) shapeCasts_S128_S1x128 := by host_value
private theorem V_v10 : (V m c main_v10 : Vec Ideal S1x64 .f32) = shapeCast S1x64 (aB3 m c) shapeCasts_S64_S1x64 := by host_value
private theorem V_v11 : (V m c main_v11 : Vec Ideal S1x64 .f32) = shapeCast S1x64 (aM2 m c) shapeCasts_S64_S1x64 := by host_value

/-- Windows 2, 3, 7, 8, 12, 13: the bias and mask vectors as rows. -/
theorem blk2 (j : Fin 256) : (iblk m c 2 t : Vec Ideal S1x256 .f32) (ix2 0 j) = aB1 m c (ix1 j) := by
  read_row win0_2 main_v6 V_v6 256
  rfl
theorem blk3 (j : Fin 256) : (iblk m c 3 t : Vec Ideal S1x256 .f32) (ix2 0 j) = aM0 m c (ix1 j) := by
  read_row win0_3 main_v7 V_v7 256
  rfl
theorem blk7 (j : Fin 128) : (iblk m c 7 t : Vec Ideal S1x128 .f32) (ix2 0 j) = aB2 m c (ix1 j) := by
  read_row win0_7 main_v8 V_v8 128
  rfl
theorem blk8 (j : Fin 128) : (iblk m c 8 t : Vec Ideal S1x128 .f32) (ix2 0 j) = aM1 m c (ix1 j) := by
  read_row win0_8 main_v9 V_v9 128
  rfl
theorem blk12 (j : Fin 64) : (iblk m c 12 t : Vec Ideal S1x64 .f32) (ix2 0 j) = aB3 m c (ix1 j) := by
  read_row win0_12 main_v10 V_v10 64
  rfl
theorem blk13 (j : Fin 64) : (iblk m c 13 t : Vec Ideal S1x64 .f32) (ix2 0 j) = aM2 m c (ix1 j) := by
  read_row win0_13 main_v11 V_v11 64
  rfl

/-! ## The tables' row sums, laid out as rows -/

private theorem V_v1 : (V m c main_v1 : Vec Ideal S1x256 .f32)
    = shapeCast S1x256 (Host.reduceAdd (F := Ideal) (aH1 m c) (constant (F := Ideal) S_ .f32 0x00000000#32) reducesTo_S256x1024_S256_d1 h_S_)
        shapeCasts_S256_S1x256 := by host_value
private theorem V_v3 : (V m c main_v3 : Vec Ideal S1x128 .f32)
    = shapeCast S1x128 (Host.reduceAdd (F := Ideal) (aH2 m c) (constant (F := Ideal) S_ .f32 0x00000000#32) reducesTo_S128x256_S128_d1 h_S_)
        shapeCasts_S128_S1x128 := by host_value
private theorem V_v5 : (V m c main_v5 : Vec Ideal S1x64 .f32)
    = shapeCast S1x64 (Host.reduceAdd (F := Ideal) (aH3 m c) (constant (F := Ideal) S_ .f32 0x00000000#32) reducesTo_S64x128_S64_d1 h_S_)
        shapeCasts_S64_S1x64 := by host_value

/-- The host's sum of an [a, b] table over axis 1 from the zero word, at row j: the sum of the row's entries. -/
private theorem hostRowSum_apply {a b : ℕ} (H : (⟨2, ![a, b]⟩ : Shape).Idx → EReal)
    (h' : (⟨2, ![a, b]⟩ : Shape).ReducesTo [1] ⟨1, ![a]⟩) (h : (⟨2, ![a, b]⟩ : Shape).Reduces [1] ⟨1, ![a]⟩) (j : Fin a) :
    Ideal.hostReduceAdd h' H (Ideal.ofBits .f32 0x00000000#32) (ix1 j) = ∑ k : Fin b, H (ix2 j k) := by
  rw [Ideal.hostReduceAdd_single h' h, Ideal.ofBits_zero_f32, zero_add]
  refine Finset.sum_congr rfl fun k _ => congrArg H ?_
  funext a
  match a with
  | ⟨0, _⟩ => rfl
  | ⟨1, _⟩ => rfl

/-- Windows 5, 10, 15: the tables' row sums as rows. -/
theorem blk5 (j : Fin 256) : (iblk m c 5 t : Vec Ideal S1x256 .f32) (ix2 0 j) = ∑ k : Fin 1024, aH1 m c (ix2 j k) := by
  read_row win0_5 main_v1 V_v1 256
  simp only [Host.reduceAdd, Ideal.hostReduceAdd_def]
  exact hostRowSum_apply (aH1 m c) reducesTo_S256x1024_S256_d1 (by decide) j
theorem blk10 (j : Fin 128) : (iblk m c 10 t : Vec Ideal S1x128 .f32) (ix2 0 j) = ∑ k : Fin 256, aH2 m c (ix2 j k) := by
  read_row win0_10 main_v3 V_v3 128
  simp only [Host.reduceAdd, Ideal.hostReduceAdd_def]
  exact hostRowSum_apply (aH2 m c) reducesTo_S128x256_S128_d1 (by decide) j
theorem blk15 (j : Fin 64) : (iblk m c 15 t : Vec Ideal S1x64 .f32) (ix2 0 j) = ∑ k : Fin 128, aH3 m c (ix2 j k) := by
  read_row win0_15 main_v5 V_v5 64
  simp only [Host.reduceAdd, Ideal.hostReduceAdd_def]
  exact hostRowSum_apply (aH3 m c) reducesTo_S64x128_S64_d1 (by decide) j

/-! ## The last layer's weights and bias, extended by zero rows -/

/-- The last layer's weights as the region finds them: the argument extended by 24 rows of the padding value. -/
private theorem V_v12 : (V m c main_v12 : Vec Ideal S1024x64 .f32)
    = pad S1024x64 ![0, 0] ![24, 0] ![0, 0] (aW4 m c) (sitofp (F := Ideal) .f32 (constantI S_ 32 0#32))
        pads_S1000x64_S1024x64_0240_000 h_S_ := by host_value

/-- The last layer's bias as the region finds it: the argument extended by 24 entries of the padding value, laid out as a row. -/
private theorem V_v14 : (V m c main_v14 : Vec Ideal S1x1024 .f32)
    = shapeCast S1x1024 (pad S1024 ![0] ![24] ![0] (aB4 m c) (sitofp (F := Ideal) .f32 (constantI S_ 32 0#32))
        pads_S1000_S1024_0240 h_S_) shapeCasts_S1024_S1x1024 := by host_value

/-- Windows 16, 17: the last layer's weights and bias, on the first 1000 of the 1024 rows. -/
theorem blk16 (o : Fin 1000) (k : Fin 64) (ho : o.val < 1024) :
    (iblk m c 16 t : Vec Ideal S1024x64 .f32) (ix2 ⟨o.val, ho⟩ k) = aW4 m c (ix2 o k) := by
  unfold iblk
  rw [View.read_apply]
  show V m c main_v12 _ = _
  rw [V_v12]
  refine (pad_apply_of_inside _ _ _ _ _ _ _ _ (ix2 o k) fun a => ?_).trans rfl
  have h0 : win0_16.index t 0 = 0 := rfl
  have h1 : win0_16.index t 1 = 0 := rfl
  match a with
  | ⟨0, _⟩ =>
    show win0_16.index t 0 * 1024 + 1 * o.val = 0 + o.val * (0 + 1)
    rw [h0]; omega
  | ⟨1, _⟩ =>
    show win0_16.index t 1 * 64 + 1 * k.val = 0 + k.val * (0 + 1)
    rw [h1]; omega
theorem blk17 (o : Fin 1000) (ho : o.val < 1024) :
    (iblk m c 17 t : Vec Ideal S1x1024 .f32) (ix2 0 ⟨o.val, ho⟩) = aB4 m c (ix1 o) := by
  unfold iblk
  rw [View.read_apply]
  show V m c main_v14 _ = _
  rw [V_v14]
  have h0 : win0_17.index t 0 = 0 := rfl
  have h1 : win0_17.index t 1 = 0 := rfl
  refine (shapeCast_apply _ _ _ (ix1 (⟨o.val, ho⟩ : Fin 1024)) ?_).trans ?_
  · rw [Shape.rowMajor_val_two, Shape.rowMajor_val_one]
    show o.val = (win0_17.index t 0 * 1 + 1 * 0) * 1024 + (win0_17.index t 1 * 1024 + 1 * o.val)
    rw [h0, h1]; omega
  · refine (pad_apply_of_inside _ _ _ _ _ _ _ _ (ix1 o) fun a => ?_).trans rfl
    match a with
    | ⟨0, _⟩ =>
      show o.val = 0 + o.val * (0 + 1)
      omega

end Cert.KernelIdeal.KHost

end
-- ==== Proof.HebbAlgebra.lean ====
/-
  Extended-real algebra for the Hebbian score.  A value that is neither +inf nor -inf is a real number;
  where every entry is such a value the extended-real sums and products are the real ones, and over the
  reals the row sum of  H + 1 * (E - theta * H)  is  (1 - 1 * theta) * (row sum of H) + 1 * (row sum of E)
  with  E_jk = sum_b z_bj * u_bk, whose row sum is  sum_b z_bj * (sum_k u_bk).
-/
import proofs.«172171_j13907104104967_2_alg».proof.Proof.HebbSpec
import Mathlib.Data.EReal.Basic
import Mathlib.Data.EReal.Operations
import Mathlib.Algebra.BigOperators.Fin

noncomputable section

namespace Cert.Hebb

open Idealize.ShloMosaic

/-- Neither infinity: a real number. -/
def Fin' (x : EReal) : Prop := x ≠ ⊤ ∧ x ≠ ⊥

variable {B K J : Nat}

theorem w0_eq : w0 = 0 := by
  simp [Ideal.ofBits, Ideal.ieee]
theorem w1_eq : w1 = 1 := by
  simp [Ideal.ofBits, Ideal.ieee, -EReal.coe_mul]; norm_num
theorem wN1_eq : wN1 = ((2097152 : ℝ) : EReal) := by
  simp [Ideal.ofBits, Ideal.ieee, -EReal.coe_mul]; norm_num
theorem wN2_eq : wN2 = ((1048576 : ℝ) : EReal) := by
  simp [Ideal.ofBits, Ideal.ieee, -EReal.coe_mul]; norm_num
theorem wN3_eq : wN3 = ((524288 : ℝ) : EReal) := by
  simp [Ideal.ofBits, Ideal.ieee, -EReal.coe_mul]; norm_num

/-! ### Real values are closed under the ring operations -/

theorem Fin'.coe (r : ℝ) : Fin' (r : EReal) := ⟨EReal.coe_ne_top r, EReal.coe_ne_bot r⟩

theorem Fin'.exists {x : EReal} (h : Fin' x) : ∃ r : ℝ, x = (r : EReal) := by
  lift x to ℝ using ⟨h.1, h.2⟩
  exact ⟨x, rfl⟩

theorem Fin'.add {x y : EReal} (hx : Fin' x) (hy : Fin' y) : Fin' (x + y) := by
  obtain ⟨a, rfl⟩ := hx.exists
  obtain ⟨b, rfl⟩ := hy.exists
  rw [← EReal.coe_add]
  exact Fin'.coe _

theorem Fin'.mul {x y : EReal} (hx : Fin' x) (hy : Fin' y) : Fin' (x * y) := by
  obtain ⟨a, rfl⟩ := hx.exists
  obtain ⟨b, rfl⟩ := hy.exists
  rw [← EReal.coe_mul]
  exact Fin'.coe _

theorem Fin'.max {x y : EReal} (hx : Fin' x) (hy : Fin' y) : Fin' (max x y) := by
  rcases max_choice x y with h | h <;> rw [h] <;> assumption

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type*} (s : Finset ι) (f : ι → EReal) (h : ∀ i ∈ s, Fin' (f i)) : Fin' (∑ i ∈ s, f i) := by
  classical
  induction s using Finset.induction_on with
  | empty => rw [Finset.sum_empty, ← EReal.coe_zero]; exact Fin'.coe 0
  | insert a s ha ih =>
    rw [Finset.sum_insert ha]
    exact (h a (Finset.mem_insert_self a s)).add (ih fun i hi => h i (Finset.mem_insert_of_mem hi))

theorem fin_w0 : Fin' w0 := by rw [w0_eq, ← EReal.coe_zero]; exact Fin'.coe 0

/-- A row of real entries whose norm is not zero scales to a row of real entries. -/
theorem fin_unitRow (v : Fin K → EReal) (hv : ∀ k, Fin' (v k)) (hn : w0 < Ideal.sqrt (∑ k, v k * v k)) (k : Fin K) :
    Fin' (unitRow v k) := by
  choose r hr using fun k => (hv k).exists
  have hS : (∑ k, v k * v k) = ((∑ k, r k * r k : ℝ) : EReal) := by
    rw [coe_sum]
    exact Finset.sum_congr rfl fun i _ => by rw [hr i, EReal.coe_mul]
  have hS0 : ¬ (∑ k, r k * r k) < 0 := not_lt.mpr (Finset.sum_nonneg fun i _ => mul_self_nonneg (r i))
  rw [hS, Ideal.sqrt_coe, if_neg hS0, w0_eq] at hn
  have hne : Real.sqrt (∑ k, r k * r k) ≠ 0 := by
    have : (0 : ℝ) < Real.sqrt (∑ k, r k * r k) := by exact_mod_cast hn
    exact this.ne'
  rw [unitRow, hS, Ideal.sqrt_coe, if_neg hS0, Ideal.div_coe hne, hr k]
  exact (Fin'.coe _).mul (Fin'.coe _)

theorem fin_projRow (v : Fin K → EReal) (H : Fin J → Fin K → EReal) (hu : ∀ k, Fin' (unitRow v k))
    (hH : ∀ j k, Fin' (H j k)) (j : Fin J) : Fin' (projRow v H j) :=
  Fin'.sum _ _ fun k _ => (hu k).mul (hH j k)

theorem fin_layerRow (v : Fin K → EReal) (W : Fin J → Fin K → EReal) (b m : Fin J → EReal) (hv : ∀ k, Fin' (v k))
    (hW : ∀ j k, Fin' (W j k)) (hb : ∀ j, Fin' (b j)) (hm : ∀ j, Fin' (m j)) (j : Fin J) : Fin' (layerRow v W b m j) :=
  ((((Fin'.sum _ _ fun k _ => (hv k).mul (hW j k)).add (hb j)).max fin_w0).mul (hm j))

/-- The two forms of the score agree where the table, the unit rows and the unit projections are real. -/
theorem scoreK_eq_scoreR (a : Fin B → Fin K → EReal) (H : Fin J → Fin K → EReal) (N : EReal) (n : ℝ) (hn : n ≠ 0)
    (hN : N = (n : EReal)) (hH : ∀ j k, Fin' (H j k)) (hu : ∀ b k, Fin' (unitRow (a b) k))
    (hz : ∀ b j, Fin' (zRow (a b) H j)) :
    scoreK (sqAll a H) (sdAll a H) H N = scoreR a H N := by
  choose h hh using fun j k => (hH j k).exists
  choose u hu' using fun b k => (hu b k).exists
  choose z hz' using fun b j => (hz b j).exists
  funext j
  -- the accumulated statistics, as real numbers
  have hsq : sqAll a H = ((∑ b, ∑ j', z b j' * z b j' : ℝ) : EReal) := by
    simp only [sqAll, sqRow, hz', coe_sum, EReal.coe_mul]
  have hsr : ∀ b, sRow (a b) = ((∑ k, u b k : ℝ) : EReal) := fun b => by
    simp only [sRow, hu', coe_sum]
  have hsd : sdAll a H j = ((∑ b, z b j * ∑ k, u b k : ℝ) : EReal) := by
    simp only [sdAll, hsr, hz', coe_sum, EReal.coe_mul]
  have hSH : (∑ k, H j k) = ((∑ k, h j k : ℝ) : EReal) := by
    simp only [hh, coe_sum]
  have hdiv : Ideal.div (sqAll a H) N = (((∑ b, ∑ j', z b j' * z b j') * (1 / n) : ℝ) : EReal) := by
    rw [hN, Ideal.div_coe hn, hsq, EReal.coe_mul]
  have hR : scoreR a H N j
      = ((∑ k, (h j k + 1 * ((∑ b, z b j * u b k) - (∑ b, ∑ j', z b j' * z b j') * (1 / n) * h j k)) : ℝ) : EReal) := by
    simp only [scoreR, hdiv, w1_eq, hh, hz', hu', coe_sum, EReal.coe_mul, EReal.coe_add, EReal.coe_sub, EReal.coe_one]
  have hK : scoreK (sqAll a H) (sdAll a H) H N j
      = (((1 - 1 * ((∑ b, ∑ j', z b j' * z b j') * (1 / n))) * (∑ k, h j k) + 1 * (∑ b, z b j * ∑ k, u b k) : ℝ) : EReal) := by
    simp only [scoreK, hdiv, hsd, hSH, w1_eq, EReal.coe_mul, EReal.coe_add, EReal.coe_sub, EReal.coe_one]
  rw [hR, hK]
  congr 1
  simp only [one_mul, Finset.sum_add_distrib, Finset.sum_sub_distrib, ← Finset.mul_sum]
  have hE : (∑ k, ∑ b, z b j * u b k) = ∑ b, z b j * ∑ k, u b k := by
    rw [Finset.sum_comm]
    exact Finset.sum_congr rfl fun b _ => (Finset.mul_sum _ _ _).symm
  rw [hE]
  ring

/-- A row number below 8192 is a tile number below 16 and a row below 512 within the tile. -/
def tileEquiv : Fin 16 × Fin 512 ≃ Fin 8192 where
  toFun p := ⟨512 * p.1.val + p.2.val, by omega⟩
  invFun b := (⟨b.val / 512, by omega⟩, ⟨b.val % 512, by omega⟩)
  left_inv p := by
    rcases p with ⟨⟨t, ht⟩, ⟨r, hr⟩⟩
    simp only [Prod.mk.injEq, Fin.mk.injEq]
    constructor <;> omega
  right_inv b := by
    rcases b with ⟨b, hb⟩
    simp only [Fin.mk.injEq]
    omega

/-- Sixteen tiles of 512 rows are the 8192 rows. -/
theorem sum_tiles {M : Type*} [AddCommMonoid M] (f : Fin 8192 → M) :
    (∑ t : Fin 16, ∑ r : Fin 512, f ⟨512 * t.val + r.val, by omega⟩) = ∑ b : Fin 8192, f b := by
  rw [← Fintype.sum_prod_type']
  exact Fintype.sum_equiv tileEquiv _ _ fun p => rfl

end Cert.Hebb

end
-- ==== Proof.KTile.lean ====
/-
  One tile of the batch.  On tile t (rows 512 t .. 512 t + 511) the body computes, row by row, the three masked
  layers X1, X2, X3 of the tile's rows of x, and adds to each of the six running sums the tile's share: for a layer
  with input rows a and table H, the sum over the tile's rows of  sum_j z_j^2  and of  z_j * (sum_k u_k);  and the
  tile's block of the main output is the last layer of the rows' third layer.
-/
import proofs.«172171_j13907104104967_2_alg».proof.Proof.Gen.KernelIdeal.Frame.Runs
import proofs.«172171_j13907104104967_2_alg».proof.Proof.KPayL1
import proofs.«172171_j13907104104967_2_alg».proof.Proof.KPayL2
import proofs.«172171_j13907104104967_2_alg».proof.Proof.KPayL3
import proofs.«172171_j13907104104967_2_alg».proof.Proof.KPayFin
import proofs.«172171_j13907104104967_2_alg».proof.Proof.KHost
import proofs.«172171_j13907104104967_2_alg».proof.Proof.HebbAlgebra
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KTile

open Cert.KernelIdeal Cert.KernelIdeal.Gen Cert.KernelIdeal.Pay Cert.KernelIdeal.KHost Cert.Hebb

variable (m : (ℓ : Loc nD τ sig) → Buf (Elt Ideal) ℓ) (c : Dev nD)

/-! ## The arguments as plain families, and the three masked layers of every row -/

abbrev fX : Fin 8192 → Fin 1024 → EReal := fun b k => aX m c (ix2 b k)
abbrev fM0 : Fin 256 → EReal := fun j => aM0 m c (ix1 j)
abbrev fM1 : Fin 128 → EReal := fun j => aM1 m c (ix1 j)
abbrev fM2 : Fin 64 → EReal := fun j => aM2 m c (ix1 j)
abbrev fW1 : Fin 256 → Fin 1024 → EReal := fun j k => aW1 m c (ix2 j k)
abbrev fB1 : Fin 256 → EReal := fun j => aB1 m c (ix1 j)
abbrev fW2 : Fin 128 → Fin 256 → EReal := fun j k => aW2 m c (ix2 j k)
abbrev fB2 : Fin 128 → EReal := fun j => aB2 m c (ix1 j)
abbrev fW3 : Fin 64 → Fin 128 → EReal := fun j k => aW3 m c (ix2 j k)
abbrev fB3 : Fin 64 → EReal := fun j => aB3 m c (ix1 j)
abbrev fW4 : Fin 1000 → Fin 64 → EReal := fun o k => aW4 m c (ix2 o k)
abbrev fB4 : Fin 1000 → EReal := fun o => aB4 m c (ix1 o)
abbrev fH1 : Fin 256 → Fin 1024 → EReal := fun j k => aH1 m c (ix2 j k)
abbrev fH2 : Fin 128 → Fin 256 → EReal := fun j k => aH2 m c (ix2 j k)
abbrev fH3 : Fin 64 → Fin 128 → EReal := fun j k => aH3 m c (ix2 j k)

/-- The first, second and third masked layer of every row of x. -/
def X1 : Fin 8192 → Fin 256 → EReal := fun b => layerRow (fX m c b) (fW1 m c) (fB1 m c) (fM0 m c)
def X2 : Fin 8192 → Fin 128 → EReal := fun b => layerRow (X1 m c b) (fW2 m c) (fB2 m c) (fM1 m c)
def X3 : Fin 8192 → Fin 64 → EReal := fun b => layerRow (X2 m c b) (fW3 m c) (fB3 m c) (fM2 m c)

theorem N16 : cfg0.N = 16 := N_0

/-- Row r of tile t is row 512 t + r of the batch. -/
def row (t : Fin cfg0.N) (r : Fin 512) : Fin 8192 :=
  ⟨512 * t.val + r.val, by have h : t.val < 16 := N16 ▸ t.isLt; have := r.isLt; omega⟩

/-! ## The windows' blocks at their literal types -/

abbrev b0 (t : Fin cfg0.N) : Vec Ideal S512x1024 .f32 := iblk m c 0 t
abbrev b1 (t : Fin cfg0.N) : Vec Ideal S256x1024 .f32 := iblk m c 1 t
abbrev b2 (t : Fin cfg0.N) : Vec Ideal S1x256 .f32 := iblk m c 2 t
abbrev b3 (t : Fin cfg0.N) : Vec Ideal S1x256 .f32 := iblk m c 3 t
abbrev b4 (t : Fin cfg0.N) : Vec Ideal S256x1024 .f32 := iblk m c 4 t
abbrev b5 (t : Fin cfg0.N) : Vec Ideal S1x256 .f32 := iblk m c 5 t
abbrev b6 (t : Fin cfg0.N) : Vec Ideal S128x256 .f32 := iblk m c 6 t
abbrev b7 (t : Fin cfg0.N) : Vec Ideal S1x128 .f32 := iblk m c 7 t
abbrev b8 (t : Fin cfg0.N) : Vec Ideal S1x128 .f32 := iblk m c 8 t
abbrev b9 (t : Fin cfg0.N) : Vec Ideal S128x256 .f32 := iblk m c 9 t
abbrev b10 (t : Fin cfg0.N) : Vec Ideal S1x128 .f32 := iblk m c 10 t
abbrev b11 (t : Fin cfg0.N) : Vec Ideal S64x128 .f32 := iblk m c 11 t
abbrev b12 (t : Fin cfg0.N) : Vec Ideal S1x64 .f32 := iblk m c 12 t
abbrev b13 (t : Fin cfg0.N) : Vec Ideal S1x64 .f32 := iblk m c 13 t
abbrev b14 (t : Fin cfg0.N) : Vec Ideal S64x128 .f32 := iblk m c 14 t
abbrev b15 (t : Fin cfg0.N) : Vec Ideal S1x64 .f32 := iblk m c 15 t
abbrev b16 (t : Fin cfg0.N) : Vec Ideal S1024x64 .f32 := iblk m c 16 t
abbrev b17 (t : Fin cfg0.N) : Vec Ideal S1x1024 .f32 := iblk m c 17 t

variable (t : Fin cfg0.N)

theorem b0_row (r : Fin 512) : (fun k : Fin 1024 => b0 m c t (ix2 r k)) = fX m c (row t r) :=
  funext fun k => blk0 m c t r k (row t r).isLt
theorem b1_mat : (fun (j : Fin 256) (k : Fin 1024) => b1 m c t (ix2 j k)) = fW1 m c := by
  funext j k; exact congrFun (blk1 m c t) (ix2 j k)
theorem b2_vec : (fun j : Fin 256 => b2 m c t (ix2 0 j)) = fB1 m c := funext fun j => blk2 m c t j
theorem b3_vec : (fun j : Fin 256 => b3 m c t (ix2 0 j)) = fM0 m c := funext fun j => blk3 m c t j
theorem b4_mat : (fun (j : Fin 256) (k : Fin 1024) => b4 m c t (ix2 j k)) = fH1 m c := by
  funext j k; exact congrFun (blk4 m c t) (ix2 j k)
theorem b6_mat : (fun (j : Fin 128) (k : Fin 256) => b6 m c t (ix2 j k)) = fW2 m c := by
  funext j k; exact congrFun (blk6 m c t) (ix2 j k)
theorem b7_vec : (fun j : Fin 128 => b7 m c t (ix2 0 j)) = fB2 m c := funext fun j => blk7 m c t j
theorem b8_vec : (fun j : Fin 128 => b8 m c t (ix2 0 j)) = fM1 m c := funext fun j => blk8 m c t j
theorem b9_mat : (fun (j : Fin 128) (k : Fin 256) => b9 m c t (ix2 j k)) = fH2 m c := by
  funext j k; exact congrFun (blk9 m c t) (ix2 j k)
theorem b11_mat : (fun (j : Fin 64) (k : Fin 128) => b11 m c t (ix2 j k)) = fW3 m c := by
  funext j k; exact congrFun (blk11 m c t) (ix2 j k)
theorem b12_vec : (fun j : Fin 64 => b12 m c t (ix2 0 j)) = fB3 m c := funext fun j => blk12 m c t j
theorem b13_vec : (fun j : Fin 64 => b13 m c t (ix2 0 j)) = fM2 m c := funext fun j => blk13 m c t j
theorem b14_mat : (fun (j : Fin 64) (k : Fin 128) => b14 m c t (ix2 j k)) = fH3 m c := by
  funext j k; exact congrFun (blk14 m c t) (ix2 j k)

/-! ## The tile's three layers are the batch's, row by row -/

/-- The tile's first, second and third layer outputs, as the body computes them. -/
abbrev T1 : FVec Ideal S512x256 .f32 := k0_pay14 (F := Ideal) (b0 m c t) (b1 m c t) (b2 m c t) (b3 m c t)
abbrev T2 : FVec Ideal S512x128 .f32 := k0_pay20 (F := Ideal) (T1 m c t) (b6 m c t) (b7 m c t) (b8 m c t)
abbrev T3 : FVec Ideal S512x64 .f32 :=
  k0_pay27 (F := Ideal) (k0_pay26 (F := Ideal) (T2 m c t) (b11 m c t) (b12 m c t)) (b13 m c t)

theorem t1_row (r : Fin 512) : (fun k : Fin 256 => T1 m c t (ix2 r k)) = X1 m c (row t r) := by
  funext j
  show k0_pay14 (F := Ideal) _ _ _ _ (ix2 r j) = _
  rw [pay14_apply, b0_row, b1_mat, b2_vec, b3_vec]
  rfl

theorem t2_row (r : Fin 512) : (fun k : Fin 128 => T2 m c t (ix2 r k)) = X2 m c (row t r) := by
  funext j
  show k0_pay20 (F := Ideal) _ _ _ _ (ix2 r j) = _
  rw [pay20_apply, t1_row, b6_mat, b7_vec, b8_vec]
  rfl

theorem t3_row (r : Fin 512) : (fun k : Fin 64 => T3 m c t (ix2 r k)) = X3 m c (row t r) := by
  funext j
  show k0_pay27 (F := Ideal) (k0_pay26 (F := Ideal) _ _ _) _ (ix2 r j) = _
  rw [pay27_apply, t2_row, b11_mat, b12_vec, b13_vec]
  rfl

/-! ## The tile's shares of the six running sums -/

def dSq1 (t : Fin cfg0.N) : EReal := ∑ r : Fin 512, sqRow (fX m c (row t r)) (fH1 m c)
def dSd1 (t : Fin cfg0.N) (j : Fin 256) : EReal :=
  ∑ r : Fin 512, zRow (fX m c (row t r)) (fH1 m c) j * sRow (fX m c (row t r))
def dSq2 (t : Fin cfg0.N) : EReal := ∑ r : Fin 512, sqRow (X1 m c (row t r)) (fH2 m c)
def dSd2 (t : Fin cfg0.N) (j : Fin 128) : EReal :=
  ∑ r : Fin 512, zRow (X1 m c (row t r)) (fH2 m c) j * sRow (X1 m c (row t r))
def dSq3 (t : Fin cfg0.N) : EReal := ∑ r : Fin 512, sqRow (X2 m c (row t r)) (fH3 m c)
def dSd3 (t : Fin cfg0.N) (j : Fin 64) : EReal :=
  ∑ r : Fin 512, zRow (X2 m c (row t r)) (fH3 m c) j * sRow (X2 m c (row t r))

/-- Layer 1, sum of squares: what the running sum held plus the tile's share. -/
theorem step_sq1 (xs : Vec Ideal S1x1 .f32) :
    k0_pay18 (F := Ideal) (k0_pay17 (F := Ideal) (b0 m c t) (b4 m c t)) xs (ix2 0 0) = xs (ix2 0 0) + dSq1 m c t := by
  rw [pay18_apply, pay17_apply, b4_mat]
  simp only [b0_row]
  rfl

theorem step_sd1 (xs : Vec Ideal S1x256 .f32) (j : Fin 256) :
    k0_pay19 (F := Ideal) (k0_pay15 (F := Ideal) (b0 m c t)) (k0_pay16 (F := Ideal) (b0 m c t) (b4 m c t)) xs (ix2 0 j)
      = xs (ix2 0 j) + dSd1 m c t j := by
  rw [pay19_apply]
  simp only [pay16_apply, pay15_apply, b4_mat, b0_row]
  rfl

theorem step_sq2 (xs : Vec Ideal S1x1 .f32) :
    k0_pay24 (F := Ideal) (k0_pay22 (F := Ideal) (T1 m c t) (b9 m c t)) xs (ix2 0 0) = xs (ix2 0 0) + dSq2 m c t := by
  rw [pay24_apply]
  simp only [pay22_apply, b9_mat, t1_row]
  rfl

theorem step_sd2 (xs : Vec Ideal S1x128 .f32) (j : Fin 128) :
    k0_pay25 (F := Ideal) (k0_pay21 (F := Ideal) (T1 m c t)) (k0_pay22 (F := Ideal) (T1 m c t) (b9 m c t)) xs (ix2 0 j)
      = xs (ix2 0 j) + dSd2 m c t j := by
  rw [pay25_apply]
  simp only [pay22_apply, pay21_apply, b9_mat, t1_row]
  rfl

theorem step_sq3 (xs : Vec Ideal S1x1 .f32) :
    k0_pay30 (F := Ideal) (T2 m c t) (b14 m c t) xs (ix2 0 0) = xs (ix2 0 0) + dSq3 m c t := by
  rw [pay30_apply, b14_mat]
  simp only [t2_row]
  rfl

theorem step_sd3 (xs : Vec Ideal S1x64 .f32) (j : Fin 64) :
    k0_pay31 (F := Ideal) (T2 m c t) (b14 m c t) xs (ix2 0 j) = xs (ix2 0 j) + dSd3 m c t j := by
  rw [pay31_apply, b14_mat]
  simp only [t2_row]
  rfl

/-- The tile's block of the main output, on the 1000 kept columns: the last layer of the rows' third layer. -/
theorem step_out (r : Fin 512) (o : Fin 1000) (ho : o.val < 1024) :
    k0_pay1 (F := Ideal) (T3 m c t) (b16 m c t) (b17 m c t) (ix2 r ⟨o.val, ho⟩)
      = lastRow (X3 m c (row t r)) (fW4 m c) (fB4 m c) o := by
  rw [pay1_apply, t3_row]
  unfold lastRow
  simp only [blk16 m c t o _ ho, blk17 m c t o ho]

end Cert.KernelIdeal.KTile

end
-- ==== Proof.KInv.lean ====
/-
  The kernel's carried sums, point by point.  The first grid point starts each of the six running sums from zero and
  every point adds its tile's share, so after point n each running sum is the chain  share 0 + share 1 + ... + share n.
  At the last point the three masks are computed from the finished sums, and at every point the main output's block is
  the last layer of the tile's rows.
-/
import proofs.«172171_j13907104104967_2_alg».proof.Proof.KIFrameA
import proofs.«172171_j13907104104967_2_alg».proof.Proof.KPieces
import proofs.«172171_j13907104104967_2_alg».proof.Proof.KTile

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KInv

open Cert.KernelIdeal Cert.KernelIdeal.Gen Cert.KernelIdeal.GenP Cert.KernelIdeal.Pay Cert.KernelIdeal.KHost
  Cert.KernelIdeal.KPieces Cert.KernelIdeal.KTile Cert.Hebb

variable (m : (ℓ : Loc nD τ sig) → Buf (Elt Ideal) ℓ) (c : Dev nD)

/-- share 0 + share 1 + ... + share n. -/
def chain (g : Fin cfg0.N → EReal) : (n : ℕ) → n < cfg0.N → EReal
  | 0, h => g ⟨0, h⟩
  | n + 1, h => chain g n (Nat.lt_of_succ_lt h) + g ⟨n + 1, h⟩

theorem outsAt0_congr (n n' : ℕ) (h : n < cfg0.N) (h' : n' < cfg0.N) (e : n = n') :
    outsAt0 m c n h = outsAt0 m c n' h' := by
  subst e; rfl

/-- After point n the six carried accumulators hold the six chains. -/
structure Inv (n : ℕ) (h : n < cfg0.N) : Prop where
  s0 : (outsAt0 m c n h).2.2.2.2.1 (ix2 0 0) = chain (dSq1 m c) n h
  s1 : ∀ j : Fin 256, (outsAt0 m c n h).2.2.2.2.2.1 (ix2 0 j) = chain (fun t => dSd1 m c t j) n h
  s2 : (outsAt0 m c n h).2.2.2.2.2.2.1 (ix2 0 0) = chain (dSq2 m c) n h
  s3 : ∀ j : Fin 128, (outsAt0 m c n h).2.2.2.2.2.2.2.1 (ix2 0 j) = chain (fun t => dSd2 m c t j) n h
  s4 : (outsAt0 m c n h).2.2.2.2.2.2.2.2.1 (ix2 0 0) = chain (dSq3 m c) n h
  s5 : ∀ j : Fin 64, (outsAt0 m c n h).2.2.2.2.2.2.2.2.2 (ix2 0 j) = chain (fun t => dSd3 m c t j) n h

theorem inv_zero (h : 0 < cfg0.N) : Inv m c 0 h := by
  have e := outsAt0_A m c ⟨0, h⟩ rfl (show ¬(0 % 16 = 15) by decide)
  refine ⟨?_, fun j => ?_, ?_, fun j => ?_, ?_, fun j => ?_⟩
  · show (outsAt0 m c (⟨0, h⟩ : Fin cfg0.N).val (⟨0, h⟩ : Fin cfg0.N).isLt).2.2.2.2.1 (ix2 0 0) = _
    rw [e]; dsimp only
    rw [sA_0, step_sq1, pay8_apply, w0_eq, zero_add]; rfl
  · show (outsAt0 m c (⟨0, h⟩ : Fin cfg0.N).val (⟨0, h⟩ : Fin cfg0.N).isLt).2.2.2.2.2.1 (ix2 0 j) = _
    rw [e]; dsimp only
    rw [sA_1, step_sd1, pay9_apply, w0_eq, zero_add]; rfl
  · show (outsAt0 m c (⟨0, h⟩ : Fin cfg0.N).val (⟨0, h⟩ : Fin cfg0.N).isLt).2.2.2.2.2.2.1 (ix2 0 0) = _
    rw [e]; dsimp only
    rw [sA_2, step_sq2, pay10_apply, w0_eq, zero_add]; rfl
  · show (outsAt0 m c (⟨0, h⟩ : Fin cfg0.N).val (⟨0, h⟩ : Fin cfg0.N).isLt).2.2.2.2.2.2.2.1 (ix2 0 j) = _
    rw [e]; dsimp only
    rw [sA_3, step_sd2, pay11_apply, w0_eq, zero_add]; rfl
  · show (outsAt0 m c (⟨0, h⟩ : Fin cfg0.N).val (⟨0, h⟩ : Fin cfg0.N).isLt).2.2.2.2.2.2.2.2.1 (ix2 0 0) = _
    rw [e]; dsimp only
    rw [sA_4, step_sq3, pay12_apply, w0_eq, zero_add]; rfl
  · show (outsAt0 m c (⟨0, h⟩ : Fin cfg0.N).val (⟨0, h⟩ : Fin cfg0.N).isLt).2.2.2.2.2.2.2.2.2 (ix2 0 j) = _
    rw [e]; dsimp only
    rw [sA_5, step_sd3, pay13_apply, w0_eq, zero_add]; rfl

theorem inv_all : ∀ (n : ℕ) (h : n < cfg0.N), Inv m c n h
  | 0, h => inv_zero m c h
  | n + 1, h => by
    have hN : cfg0.N = 16 := N_0
    have ih := inv_all n (Nat.lt_of_succ_lt h)
    have h0 : ¬(⟨n + 1, h⟩ : Fin cfg0.N).val % 16 = 0 := by dsimp only; omega
    have hp : ∀ (k : ℕ) (hk : k < cfg0.N), k = n → outsAt0 m c k hk = outsAt0 m c n (Nat.lt_of_succ_lt h) :=
      fun k hk ek => outsAt0_congr m c k n hk _ ek
    by_cases h1 : (⟨n + 1, h⟩ : Fin cfg0.N).val % 16 = 15
    · have e := outsAt0_C m c ⟨n + 1, h⟩ h0 h1
      refine ⟨?_, fun j => ?_, ?_, fun j => ?_, ?_, fun j => ?_⟩
      · show (outsAt0 m c (⟨n + 1, h⟩ : Fin cfg0.N).val (⟨n + 1, h⟩ : Fin cfg0.N).isLt).2.2.2.2.1 (ix2 0 0) = _
        rw [e]; dsimp only
        rw [sC_0, step_sq1, hp _ _ (by omega), ih.s0]; rfl
      · show (outsAt0 m c (⟨n + 1, h⟩ : Fin cfg0.N).val (⟨n + 1, h⟩ : Fin cfg0.N).isLt).2.2.2.2.2.1 (ix2 0 j) = _
        rw [e]; dsimp only
        rw [sC_1, step_sd1, hp _ _ (by omega), ih.s1]; rfl
      · show (outsAt0 m c (⟨n + 1, h⟩ : Fin cfg0.N).val (⟨n + 1, h⟩ : Fin cfg0.N).isLt).2.2.2.2.2.2.1 (ix2 0 0) = _
        rw [e]; dsimp only
        rw [sC_2, step_sq2, hp _ _ (by omega), ih.s2]; rfl
      · show (outsAt0 m c (⟨n + 1, h⟩ : Fin cfg0.N).val (⟨n + 1, h⟩ : Fin cfg0.N).isLt).2.2.2.2.2.2.2.1 (ix2 0 j) = _
        rw [e]; dsimp only
        rw [sC_3, step_sd2, hp _ _ (by omega), ih.s3]; rfl
      · show (outsAt0 m c (⟨n + 1, h⟩ : Fin cfg0.N).val (⟨n + 1, h⟩ : Fin cfg0.N).isLt).2.2.2.2.2.2.2.2.1 (ix2 0 0) = _
        rw [e]; dsimp only
        rw [sC_4, step_sq3, hp _ _ (by omega), ih.s4]; rfl
      · show (outsAt0 m c (⟨n + 1, h⟩ : Fin cfg0.N).val (⟨n + 1, h⟩ : Fin cfg0.N).isLt).2.2.2.2.2.2.2.2.2 (ix2 0 j) = _
        rw [e]; dsimp only
        rw [sC_5, step_sd3, hp _ _ (by omega), ih.s5]; rfl
    · have e := outsAt0_B m c ⟨n + 1, h⟩ h0 h1
      refine ⟨?_, fun j => ?_, ?_, fun j => ?_, ?_, fun j => ?_⟩
      · show (outsAt0 m c (⟨n + 1, h⟩ : Fin cfg0.N).val (⟨n + 1, h⟩ : Fin cfg0.N).isLt).2.2.2.2.1 (ix2 0 0) = _
        rw [e]; dsimp only
        rw [sB_0, step_sq1, hp _ _ (by omega), ih.s0]; rfl
      · show (outsAt0 m c (⟨n + 1, h⟩ : Fin cfg0.N).val (⟨n + 1, h⟩ : Fin cfg0.N).isLt).2.2.2.2.2.1 (ix2 0 j) = _
        rw [e]; dsimp only
        rw [sB_1, step_sd1, hp _ _ (by omega), ih.s1]; rfl
      · show (outsAt0 m c (⟨n + 1, h⟩ : Fin cfg0.N).val (⟨n + 1, h⟩ : Fin cfg0.N).isLt).2.2.2.2.2.2.1 (ix2 0 0) = _
        rw [e]; dsimp only
        rw [sB_2, step_sq2, hp _ _ (by omega), ih.s2]; rfl
      · show (outsAt0 m c (⟨n + 1, h⟩ : Fin cfg0.N).val (⟨n + 1, h⟩ : Fin cfg0.N).isLt).2.2.2.2.2.2.2.1 (ix2 0 j) = _
        rw [e]; dsimp only
        rw [sB_3, step_sd2, hp _ _ (by omega), ih.s3]; rfl
      · show (outsAt0 m c (⟨n + 1, h⟩ : Fin cfg0.N).val (⟨n + 1, h⟩ : Fin cfg0.N).isLt).2.2.2.2.2.2.2.2.1 (ix2 0 0) = _
        rw [e]; dsimp only
        rw [sB_4, step_sq3, hp _ _ (by omega), ih.s4]; rfl
      · show (outsAt0 m c (⟨n + 1, h⟩ : Fin cfg0.N).val (⟨n + 1, h⟩ : Fin cfg0.N).isLt).2.2.2.2.2.2.2.2.2 (ix2 0 j) = _
        rw [e]; dsimp only
        rw [sB_5, step_sd3, hp _ _ (by omega), ih.s5]; rfl

end Cert.KernelIdeal.KInv

end
-- ==== Proof.KOut.lean ====
/-
  What the kernel's output buffers hold.  At every grid point the main output's staging buffer holds, on the 1000
  kept columns, the last layer of the tile's rows' third layer; at the last grid point the three mask buffers hold
  the thresholded, normalised scores computed from the finished running sums and the tables' row sums.
-/
import proofs.«172171_j13907104104967_2_alg».proof.Proof.KInv

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KOut

open Cert.KernelIdeal Cert.KernelIdeal.Gen Cert.KernelIdeal.GenP Cert.KernelIdeal.Pay Cert.KernelIdeal.KHost
  Cert.KernelIdeal.KPieces Cert.KernelIdeal.KTile Cert.KernelIdeal.KInv Cert.Hebb

variable (m : (ℓ : Loc nD τ sig) → Buf (Elt Ideal) ℓ) (c : Dev nD)

/-- At every point the main output's staging buffer holds, on the kept columns, the last layer of the tile's rows. -/
theorem out18_at (t : Fin cfg0.N) (r : Fin 512) (o : Fin 1000) (ho : o.val < 1024) :
    (outsAt0 m c t.val t.isLt).1 (ix2 r ⟨o.val, ho⟩) = lastRow (X3 m c (row t r)) (fW4 m c) (fB4 m c) o := by
  by_cases h0 : t.val % 16 = 0
  · have h1 : ¬t.val % 16 = 15 := by omega
    rw [outsAt0_A m c t h0 h1]; dsimp only
    rw [oA_18]
    exact step_out m c t r o ho
  · by_cases h1 : t.val % 16 = 15
    · rw [outsAt0_C m c t h0 h1]; dsimp only
      rw [oC_18]
      exact step_out m c t r o ho
    · rw [outsAt0_B m c t h0 h1]; dsimp only
      rw [oB_18]
      exact step_out m c t r o ho

/-- The table row sums the finish reads. -/
def sumH1 : Fin 256 → EReal := fun j => ∑ k : Fin 1024, fH1 m c j k
def sumH2 : Fin 128 → EReal := fun j => ∑ k : Fin 256, fH2 m c j k
def sumH3 : Fin 64 → EReal := fun j => ∑ k : Fin 128, fH3 m c j k

/-- Past the first point, the chain up to a point is the chain up to the point before plus the point's share. -/
theorem chain_pred (g : Fin cfg0.N → EReal) (t : Fin cfg0.N) (hne : t.val ≠ 0) (h' : t.val - 1 < cfg0.N) :
    chain g t.val t.isLt = chain g (t.val - 1) h' + g t := by
  obtain ⟨n, hn⟩ := t
  cases n with
  | zero => exact absurd rfl hne
  | succ k => rfl

/-- At a last point (case C) the three mask buffers hold the masks of the finished sums. -/
theorem hm0_at (t : Fin cfg0.N) (h0 : ¬t.val % 16 = 0) (h1 : t.val % 16 = 15) (j : Fin 256) :
    (outsAt0 m c t.val t.isLt).2.1 (ix2 0 j)
      = maskOf (fun j : Fin 256 => (w1 - w1 * Ideal.div (chain (dSq1 m c) t.val t.isLt) wN1) * sumH1 m c j
          + w1 * chain (fun t => dSd1 m c t j) t.val t.isLt) j := by
  rw [outsAt0_C m c t h0 h1]; dsimp only
  rw [oC_19, pay3_apply]
  refine congrArg (fun f => maskOf f j) (funext fun j' => ?_)
  try dsimp only
  have hne : t.val ≠ 0 := by omega
  have h' : t.val - 1 < cfg0.N := Nat.lt_of_le_of_lt (Nat.sub_le _ _) t.isLt
  have hI := inv_all m c (t.val - 1) h'
  rw [step_sq1, step_sd1, hI.s0, hI.s1, blk5, chain_pred (dSq1 m c) t hne h',
    chain_pred (fun t => dSd1 m c t j') t hne h']
  rfl

theorem hm1_at (t : Fin cfg0.N) (h0 : ¬t.val % 16 = 0) (h1 : t.val % 16 = 15) (j : Fin 128) :
    (outsAt0 m c t.val t.isLt).2.2.1 (ix2 0 j)
      = maskOf (fun j : Fin 128 => (w1 - w1 * Ideal.div (chain (dSq2 m c) t.val t.isLt) wN2) * sumH2 m c j
          + w1 * chain (fun t => dSd2 m c t j) t.val t.isLt) j := by
  rw [outsAt0_C m c t h0 h1]; dsimp only
  rw [oC_20, pay6_apply]
  refine congrArg (fun f => maskOf f j) (funext fun j' => ?_)
  try dsimp only
  have hne : t.val ≠ 0 := by omega
  have h' : t.val - 1 < cfg0.N := Nat.lt_of_le_of_lt (Nat.sub_le _ _) t.isLt
  have hI := inv_all m c (t.val - 1) h'
  rw [step_sq2, step_sd2, hI.s2, hI.s3, blk10, chain_pred (dSq2 m c) t hne h',
    chain_pred (fun t => dSd2 m c t j') t hne h']
  rfl

theorem hm2_at (t : Fin cfg0.N) (h0 : ¬t.val % 16 = 0) (h1 : t.val % 16 = 15) (j : Fin 64) :
    (outsAt0 m c t.val t.isLt).2.2.2.1 (ix2 0 j)
      = maskOf (fun j : Fin 64 => (w1 - w1 * Ideal.div (chain (dSq3 m c) t.val t.isLt) wN3) * sumH3 m c j
          + w1 * chain (fun t => dSd3 m c t j) t.val t.isLt) j := by
  rw [outsAt0_C m c t h0 h1]; dsimp only
  rw [oC_21, pay2_apply]
  refine congrArg (fun f => maskOf f j) (funext fun j' => ?_)
  try dsimp only
  have hne : t.val ≠ 0 := by omega
  have h' : t.val - 1 < cfg0.N := Nat.lt_of_le_of_lt (Nat.sub_le _ _) t.isLt
  have hI := inv_all m c (t.val - 1) h'
  rw [step_sq3, step_sd3, hI.s4, hI.s5, blk15, chain_pred (dSq3 m c) t hne h',
    chain_pred (fun t => dSd3 m c t j') t hne h']
  rfl

end Cert.KernelIdeal.KOut

end
-- ==== Proof.KTail.lean ====
/-
  The host operations after the region, read entry by entry: the slice of the region's first result and the
  three results flattened to vectors.
-/
import proofs.«172171_j13907104104967_2_alg».proof.Proof.Gen.KernelIdeal.Frame.Runs
import Idealize.ShloMosaic.Lib.StableHlo.Run
import Idealize.ShloMosaic.Lib.Pipeline.FrameSuffix
import Idealize.ShloMosaic.Lib.Pipeline.Value
import Idealize.ShloMosaic.Lib.ValueIdx
import Idealize.ShloMosaic.Lib.ValueLayout

noncomputable section

open Idealize.ShloMosaic Idealize.ShloMosaic.TcCoe Idealize.ShloMosaic.ValueIdx

namespace Cert.KernelIdeal.KTail

open Cert.KernelIdeal Cert.KernelIdeal.Gen

variable (m : (ℓ : Loc nD τ sig) → Buf (Elt Ideal) ℓ)
  (D : (p : Fin 1) → (c : Dev nD) → Pipeline.Dat τ (Elt Ideal) Unit ℕ (UR sig nD τ) ℕ (cfgs p) c) (c : Dev nD)

/-- The region's four result arrays as the region leaves them, and the four buffers the host operations after it
    write, each at its literal type. -/
abbrev res0 : Vec Ideal S8192x1024 .f32 := (D 0 c).arrAt 18 (cfgs 0).N
abbrev res1 : Vec Ideal S1x256 .f32 := (D 0 c).arrAt 19 (cfgs 0).N
abbrev res2 : Vec Ideal S1x128 .f32 := (D 0 c).arrAt 20 (cfgs 0).N
abbrev res3 : Vec Ideal S1x64 .f32 := (D 0 c).arrAt 21 (cfgs 0).N
abbrev out16 : Vec Ideal S8192x1000 .f32 := Pipeline.afterTail₀ cfgs D 0 (V0 m) [hostOps1] c main_v16
abbrev out17 : Vec Ideal S256 .f32 := Pipeline.afterTail₀ cfgs D 0 (V0 m) [hostOps1] c main_v17
abbrev out18 : Vec Ideal S128 .f32 := Pipeline.afterTail₀ cfgs D 0 (V0 m) [hostOps1] c main_v18
abbrev out19 : Vec Ideal S64 .f32 := Pipeline.afterTail₀ cfgs D 0 (V0 m) [hostOps1] c main_v19

/-- What the region leaves at a result array's reference is that array. -/
private theorem exit0 : (Pipeline.withArrays (cfgs 0).spec c (V0 m c) (fun w => (D 0 c).arrAt w (cfgs 0).N)
      (Proc.devRef .tc main_v15_0) : Vec Ideal S8192x1024 .f32) = res0 D c :=
  Pipeline.withArrays_arr spec0 launch0.win.arr_inj c _ _ 18
private theorem exit1 : (Pipeline.withArrays (cfgs 0).spec c (V0 m c) (fun w => (D 0 c).arrAt w (cfgs 0).N)
      (Proc.devRef .tc main_v15_1) : Vec Ideal S1x256 .f32) = res1 D c :=
  Pipeline.withArrays_arr spec0 launch0.win.arr_inj c _ _ 19
private theorem exit2 : (Pipeline.withArrays (cfgs 0).spec c (V0 m c) (fun w => (D 0 c).arrAt w (cfgs 0).N)
      (Proc.devRef .tc main_v15_2) : Vec Ideal S1x128 .f32) = res2 D c :=
  Pipeline.withArrays_arr spec0 launch0.win.arr_inj c _ _ 20
private theorem exit3 : (Pipeline.withArrays (cfgs 0).spec c (V0 m c) (fun w => (D 0 c).arrAt w (cfgs 0).N)
      (Proc.devRef .tc main_v15_3) : Vec Ideal S1x64 .f32) = res3 D c :=
  Pipeline.withArrays_arr spec0 launch0.win.arr_inj c _ _ 21

/-- The slice keeps the first 1000 of the 1024 columns. -/
theorem tail_v16 (b : Fin 8192) (o : Fin 1000) (ho : o.val < 1024) :
    out16 m D c (ix2 b o) = res0 D c (ix2 b ⟨o.val, ho⟩) := by
  unfold out16 Pipeline.afterTail₀
  show StableHlo.after hostOps1 _ (Proc.devRef .tc main_v16) _ = _
  after_results
  show extractStridedSlice S8192x1000 ![0, 0] (Pipeline.withArrays (cfgs 0).spec c (V0 m c) (fun w => (D 0 c).arrAt w (cfgs 0).N)
      (Proc.devRef .tc main_v15_0) : Vec Ideal S8192x1024 .f32) slices_S8192x1024_S8192x1000_0_0 (ix2 b o) = _
  refine (congrArg (fun x : Vec Ideal S8192x1024 .f32 => extractStridedSlice S8192x1000 ![0, 0] x slices_S8192x1024_S8192x1000_0_0 (ix2 b o)) (exit0 m D c)).trans ?_
  exact extractStridedSlice_apply ![0, 0] (res0 D c) slices_S8192x1024_S8192x1000_0_0 (ix2 b o) (ix2 b ⟨o.val, ho⟩) (fun a => by
    match a with
    | ⟨0, _⟩ => exact (Nat.zero_add _).symm
    | ⟨1, _⟩ => exact (Nat.zero_add _).symm)

/-- The first flattened result: entry j of the vector is entry (0, j) of the [1, 256] array. -/
theorem tail_v17 (j : Fin 256) : out17 m D c (ix1 j) = res1 D c (ix2 0 j) := by
  unfold out17 Pipeline.afterTail₀
  show StableHlo.after hostOps1 _ (Proc.devRef .tc main_v17) _ = _
  after_results
  show shapeCast S256 (Pipeline.withArrays (cfgs 0).spec c (V0 m c) (fun w => (D 0 c).arrAt w (cfgs 0).N)
      (Proc.devRef .tc main_v15_1) : Vec Ideal S1x256 .f32) shapeCasts_S1x256_S256 (ix1 j) = _
  refine (congrArg (fun x : Vec Ideal S1x256 .f32 => shapeCast S256 x shapeCasts_S1x256_S256 (ix1 j)) (exit1 m D c)).trans ?_
  exact shapeCast_1a_a_apply (res1 D c) shapeCasts_S1x256_S256 j

/-- The second flattened result: entry j of the vector is entry (0, j) of the [1, 128] array. -/
theorem tail_v18 (j : Fin 128) : out18 m D c (ix1 j) = res2 D c (ix2 0 j) := by
  unfold out18 Pipeline.afterTail₀
  show StableHlo.after hostOps1 _ (Proc.devRef .tc main_v18) _ = _
  after_results
  show shapeCast S128 (Pipeline.withArrays (cfgs 0).spec c (V0 m c) (fun w => (D 0 c).arrAt w (cfgs 0).N)
      (Proc.devRef .tc main_v15_2) : Vec Ideal S1x128 .f32) shapeCasts_S1x128_S128 (ix1 j) = _
  refine (congrArg (fun x : Vec Ideal S1x128 .f32 => shapeCast S128 x shapeCasts_S1x128_S128 (ix1 j)) (exit2 m D c)).trans ?_
  exact shapeCast_1a_a_apply (res2 D c) shapeCasts_S1x128_S128 j

/-- The third flattened result: entry j of the vector is entry (0, j) of the [1, 64] array. -/
theorem tail_v19 (j : Fin 64) : out19 m D c (ix1 j) = res3 D c (ix2 0 j) := by
  unfold out19 Pipeline.afterTail₀
  show StableHlo.after hostOps1 _ (Proc.devRef .tc main_v19) _ = _
  after_results
  show shapeCast S64 (Pipeline.withArrays (cfgs 0).spec c (V0 m c) (fun w => (D 0 c).arrAt w (cfgs 0).N)
      (Proc.devRef .tc main_v15_3) : Vec Ideal S1x64 .f32) shapeCasts_S1x64_S64 (ix1 j) = _
  refine (congrArg (fun x : Vec Ideal S1x64 .f32 => shapeCast S64 x shapeCasts_S1x64_S64 (ix1 j)) (exit3 m D c)).trans ?_
  exact shapeCast_1a_a_apply (res3 D c) shapeCasts_S1x64_S64 j

/-- The four buffers the host operations after the region write are unscoped and are no window's array: the
    frame's post reads each of them at what those operations leave. -/
theorem mem_v16 : main_v16 ∈ Pipeline.restRefs sig (cfgs 0).spec :=
  Pipeline.mem_restRefs_of main_v16 (by decide) (by decide)
theorem mem_v17 : main_v17 ∈ Pipeline.restRefs sig (cfgs 0).spec :=
  Pipeline.mem_restRefs_of main_v17 (by decide) (by decide)
theorem mem_v18 : main_v18 ∈ Pipeline.restRefs sig (cfgs 0).spec :=
  Pipeline.mem_restRefs_of main_v18 (by decide) (by decide)
theorem mem_v19 : main_v19 ∈ Pipeline.restRefs sig (cfgs 0).spec :=
  Pipeline.mem_restRefs_of main_v19 (by decide) (by decide)

end Cert.KernelIdeal.KTail

end
-- ==== Proof.KFinal.lean ====
/-
  The idealized kernel's run, read as values.  The main output is written back block by block, sixteen row blocks of
  512 rows, each the last layer of its rows' third layer; the three masks have one block each, written back after the
  last grid point only, where the running sums are finished.  The host operations after the region keep the first 1000
  columns of the main output and flatten the masks; the fifteen arguments are unchanged.
-/
import proofs.«172171_j13907104104967_2_alg».proof.Proof.KOut
import proofs.«172171_j13907104104967_2_alg».proof.Proof.KIFrameB
import proofs.«172171_j13907104104967_2_alg».proof.Proof.KTail
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KFinal

open Cert.KernelIdeal Cert.KernelIdeal.Gen Cert.KernelIdeal.KTile Cert.KernelIdeal.KInv Cert.KernelIdeal.KOut
  Cert.KernelIdeal.KTail Cert.Hebb

/-! ## The main output: sixteen row blocks, each written back at its own point -/

section Generic18

variable {c : Dev nD} (D : Dat τ (Elt Ideal) Unit ℕ (UR sig nD τ) ℕ cfg0 c)
  (outs : (n : ℕ) → n < cfg0.N → Vec Ideal S512x1024 .f32)

private theorem div_lt (i : S8192x1024.Idx) : (i 0).val / 512 < cfg0.N := by
  have h := idx2_lt0 i
  have hN : cfg0.N = 16 := N_0
  omega

/-- The whole array whose row b is row b mod 512 of what point b / 512 leaves in the staging buffer. -/
private def glue : Vec Ideal S8192x1024 .f32 := fun i =>
  outs ((i 0).val / 512) (div_lt i) (ix2 ⟨(i 0).val % 512, Nat.mod_lt _ (by decide)⟩ ⟨(i 1).val, idx2_lt1 i⟩)

private theorem outs_congr (n n' : ℕ) (h : n < cfg0.N) (h' : n' < cfg0.N) (e : n = n') (x : S512x1024.Idx) :
    outs n h x = outs n' h' x := by
  subst e; rfl

/-- Inside row block t the glued array is point t's buffer at the local index. -/
private theorem glue_at (t : Fin cfg0.N) (x : S512x1024.Idx) (i : S8192x1024.Idx)
    (h0 : (i 0).val = 512 * t.val + (x 0).val) (h1 : (i 1).val = (x 1).val) :
    glue outs i = outs t.val t.isLt x := by
  have hx0 : (x 0).val < 512 := idx2_lt0 x
  have e : (i 0).val / 512 = t.val := by omega
  unfold glue
  refine (outs_congr outs _ t.val _ t.isLt e _).trans ?_
  refine congrArg (outs t.val t.isLt) (funext fun a => Fin.ext ?_)
  match a with
  | ⟨0, _⟩ => show (i 0).val % 512 = (x 0).val; omega
  | ⟨1, _⟩ => exact h1

/-- The output window's block index at point t is (t, 0), at each of the sixteen grid points. -/
private theorem idx18 : ∀ t : Fin cfg0.N, win0_18.index t (0 : Fin 2) = t.val ∧ win0_18.index t (1 : Fin 2) = 0 :=
  (by decide +kernel : ∀ t : Fin grid0.N, win0_18.index t (0 : Fin 2) = t.val ∧ win0_18.index t (1 : Fin 2) = 0)

/-- What point t writes back is its block of the glued array. -/
private theorem flushed18_eq (hafter : ∀ t : Fin cfg0.N, D.after 18 t = outs t.val t.isLt) (t : Fin cfg0.N)
    (hf : (cfg0.win 18).flush t = true) :
    D.flushed 18 t = ((cfg0.win 18).blk t).view.read (Elt Ideal) (glue outs) := by
  show (cfg0.win 18).cut (grid0.coords t) (D.after 18 t) = _
  rw [hafter]
  obtain ⟨e0, e1⟩ := idx18 t
  funext j
  have hj0 : (j 0).val < 512 := (j 0).isLt
  have hj1 : (j 1).val < 1024 := (j 1).isLt
  show outs t.val t.isLt ((cfg0.win 18).xinj (grid0.coords t) j) = glue outs (((cfg0.win 18).blk t).view.emb j)
  refine (glue_at outs t _ _ ?_ ?_).symm
  · show win0_18.index t (0 : Fin 2) * 512 + 1 * (j 0).val = 512 * t.val + (j 0).val
    rw [e0]; omega
  · show win0_18.index t (1 : Fin 2) * 1024 + 1 * (j 1).val = (j 1).val
    rw [e1]; omega

/-- An index of the array is in point t's block iff each coordinate is in the block's range on its axis. -/
private theorem mem_blk18 (t : Fin cfg0.N) (i : S8192x1024.Idx) :
    i ∈ ((cfg0.win 18).blk t).view.set ↔ ∀ a : Fin 2, win0_18.index t a * S512x1024.size a ≤ (i a).val
      ∧ (i a).val < win0_18.index t a * S512x1024.size a + S512x1024.size a := by
  show i ∈ ((View.whole main_v15_0).slice (win0_18.rect t)).set ↔ _
  rw [View.set_slice_whole, Rect.mem_set_unit]
  exact Iff.rfl

/-- Row b is in the block of point b / 512. -/
private theorem cover18 (i : S8192x1024.Idx) :
    ∃ t : Fin cfg0.N, (cfg0.win 18).flush t = true ∧ i ∈ ((cfg0.win 18).blk t).view.set := by
  have hi0 : (i 0).val < 8192 := idx2_lt0 i
  have hi1 : (i 1).val < 1024 := idx2_lt1 i
  have ht : ∃ t : Fin cfg0.N, t.val = (i 0).val / 512 := ⟨⟨(i 0).val / 512, div_lt i⟩, rfl⟩
  obtain ⟨t, ht⟩ := ht
  obtain ⟨e0, e1⟩ := idx18 t
  refine ⟨t, flush0_18 t, ?_⟩
  rw [mem_blk18]
  intro a
  match a with
  | ⟨0, _⟩ =>
    show win0_18.index t (0 : Fin 2) * 512 ≤ (i 0).val ∧ (i 0).val < win0_18.index t (0 : Fin 2) * 512 + 512
    rw [e0]; omega
  | ⟨1, _⟩ =>
    show win0_18.index t (1 : Fin 2) * 1024 ≤ (i 1).val ∧ (i 1).val < win0_18.index t (1 : Fin 2) * 1024 + 1024
    rw [e1]; omega

/-- So the array ends as the glued array. -/
private theorem arr18_eq (hafter : ∀ t : Fin cfg0.N, D.after 18 t = outs t.val t.isLt) :
    D.arrAt 18 cfg0.N = glue outs :=
  D.arrAt_eq_of_cover 18 (glue outs) (flushed18_eq D outs hafter) cover18

end Generic18

/-! ## The three masks: one block each, written back at the last point only -/

section Generic1

variable {c : Dev nD} (D : Dat τ (Elt Ideal) Unit ℕ (UR sig nD τ) ℕ cfg0 c)

/-- Window 19 has one block, the whole array, written back at the last point only. -/
private theorem flushed19_eq (g : Vec Ideal S1x256 .f32) (hafter : D.after 19 t0_15 = g) (t : Fin cfg0.N)
    (hf : (cfg0.win 19).flush t = true) :
    D.flushed 19 t = ((cfg0.win 19).blk t).view.read (Elt Ideal) g := by
  have hN : cfg0.N = 16 := N_0
  have h15 : t.val = 15 := by have := (flush0_19 t).mp hf; have := t.isLt; omega
  obtain rfl : t = t0_15 := Fin.ext h15
  show (cfg0.win 19).cut (grid0.coords t0_15) (D.after 19 t0_15) = _
  rw [hafter]
  have hz' : (fun a => win0_19.index t0_15 a * main_v15_1.ty.shape.size a) = fun _ => 0 :=
    funext fun a => by fin_cases a <;> decide
  exact (Memref.read_access_unit_zero (Elt Ideal) main_v15_1 hz' (fun a => by rw [congrFun hz' a]; simp) g).symm

private theorem cover19 (i : S1x256.Idx) :
    ∃ t : Fin cfg0.N, (cfg0.win 19).flush t = true ∧ i ∈ ((cfg0.win 19).blk t).view.set := by
  refine ⟨t0_15, (flush0_19 t0_15).mpr rfl, ?_⟩
  show i ∈ ((View.whole main_v15_1).slice (win0_19.rect t0_15)).set
  rw [View.set_slice_whole, Rect.mem_set_unit]
  intro a
  have h0 : (i 0 : Nat) < 1 := (i 0).isLt
  have h1 : (i 1 : Nat) < 256 := (i 1).isLt
  match a with
  | ⟨0, _⟩ =>
    show win0_19.index t0_15 0 * win0_19.size 0 ≤ (i 0 : Nat)
      ∧ (i 0 : Nat) < win0_19.index t0_15 0 * win0_19.size 0 + win0_19.xsize (grid0.coords t0_15) 0
    rw [show win0_19.index t0_15 0 * win0_19.size 0 = 0 from by decide +kernel,
      show win0_19.xsize (grid0.coords t0_15) 0 = 1 from by decide +kernel]
    omega
  | ⟨1, _⟩ =>
    show win0_19.index t0_15 1 * win0_19.size 1 ≤ (i 1 : Nat)
      ∧ (i 1 : Nat) < win0_19.index t0_15 1 * win0_19.size 1 + win0_19.xsize (grid0.coords t0_15) 1
    rw [show win0_19.index t0_15 1 * win0_19.size 1 = 0 from by decide +kernel,
      show win0_19.xsize (grid0.coords t0_15) 1 = 256 from by decide +kernel]
    omega

/-- So the array ends holding what the last point leaves in the staging buffer. -/
private theorem arr19_eq (g : Vec Ideal S1x256 .f32) (hafter : D.after 19 t0_15 = g) : D.arrAt 19 cfg0.N = g :=
  D.arrAt_eq_of_cover 19 g (flushed19_eq D g hafter) cover19

/-- Window 20 has one block, the whole array, written back at the last point only. -/
private theorem flushed20_eq (g : Vec Ideal S1x128 .f32) (hafter : D.after 20 t0_15 = g) (t : Fin cfg0.N)
    (hf : (cfg0.win 20).flush t = true) :
    D.flushed 20 t = ((cfg0.win 20).blk t).view.read (Elt Ideal) g := by
  have hN : cfg0.N = 16 := N_0
  have h15 : t.val = 15 := by have := (flush0_20 t).mp hf; have := t.isLt; omega
  obtain rfl : t = t0_15 := Fin.ext h15
  show (cfg0.win 20).cut (grid0.coords t0_15) (D.after 20 t0_15) = _
  rw [hafter]
  have hz' : (fun a => win0_20.index t0_15 a * main_v15_2.ty.shape.size a) = fun _ => 0 :=
    funext fun a => by fin_cases a <;> decide
  exact (Memref.read_access_unit_zero (Elt Ideal) main_v15_2 hz' (fun a => by rw [congrFun hz' a]; simp) g).symm

private theorem cover20 (i : S1x128.Idx) :
    ∃ t : Fin cfg0.N, (cfg0.win 20).flush t = true ∧ i ∈ ((cfg0.win 20).blk t).view.set := by
  refine ⟨t0_15, (flush0_20 t0_15).mpr rfl, ?_⟩
  show i ∈ ((View.whole main_v15_2).slice (win0_20.rect t0_15)).set
  rw [View.set_slice_whole, Rect.mem_set_unit]
  intro a
  have h0 : (i 0 : Nat) < 1 := (i 0).isLt
  have h1 : (i 1 : Nat) < 128 := (i 1).isLt
  match a with
  | ⟨0, _⟩ =>
    show win0_20.index t0_15 0 * win0_20.size 0 ≤ (i 0 : Nat)
      ∧ (i 0 : Nat) < win0_20.index t0_15 0 * win0_20.size 0 + win0_20.xsize (grid0.coords t0_15) 0
    rw [show win0_20.index t0_15 0 * win0_20.size 0 = 0 from by decide +kernel,
      show win0_20.xsize (grid0.coords t0_15) 0 = 1 from by decide +kernel]
    omega
  | ⟨1, _⟩ =>
    show win0_20.index t0_15 1 * win0_20.size 1 ≤ (i 1 : Nat)
      ∧ (i 1 : Nat) < win0_20.index t0_15 1 * win0_20.size 1 + win0_20.xsize (grid0.coords t0_15) 1
    rw [show win0_20.index t0_15 1 * win0_20.size 1 = 0 from by decide +kernel,
      show win0_20.xsize (grid0.coords t0_15) 1 = 128 from by decide +kernel]
    omega

/-- So the array ends holding what the last point leaves in the staging buffer. -/
private theorem arr20_eq (g : Vec Ideal S1x128 .f32) (hafter : D.after 20 t0_15 = g) : D.arrAt 20 cfg0.N = g :=
  D.arrAt_eq_of_cover 20 g (flushed20_eq D g hafter) cover20

/-- Window 21 has one block, the whole array, written back at the last point only. -/
private theorem flushed21_eq (g : Vec Ideal S1x64 .f32) (hafter : D.after 21 t0_15 = g) (t : Fin cfg0.N)
    (hf : (cfg0.win 21).flush t = true) :
    D.flushed 21 t = ((cfg0.win 21).blk t).view.read (Elt Ideal) g := by
  have hN : cfg0.N = 16 := N_0
  have h15 : t.val = 15 := by have := (flush0_21 t).mp hf; have := t.isLt; omega
  obtain rfl : t = t0_15 := Fin.ext h15
  show (cfg0.win 21).cut (grid0.coords t0_15) (D.after 21 t0_15) = _
  rw [hafter]
  have hz' : (fun a => win0_21.index t0_15 a * main_v15_3.ty.shape.size a) = fun _ => 0 :=
    funext fun a => by fin_cases a <;> decide
  exact (Memref.read_access_unit_zero (Elt Ideal) main_v15_3 hz' (fun a => by rw [congrFun hz' a]; simp) g).symm

private theorem cover21 (i : S1x64.Idx) :
    ∃ t : Fin cfg0.N, (cfg0.win 21).flush t = true ∧ i ∈ ((cfg0.win 21).blk t).view.set := by
  refine ⟨t0_15, (flush0_21 t0_15).mpr rfl, ?_⟩
  show i ∈ ((View.whole main_v15_3).slice (win0_21.rect t0_15)).set
  rw [View.set_slice_whole, Rect.mem_set_unit]
  intro a
  have h0 : (i 0 : Nat) < 1 := (i 0).isLt
  have h1 : (i 1 : Nat) < 64 := (i 1).isLt
  match a with
  | ⟨0, _⟩ =>
    show win0_21.index t0_15 0 * win0_21.size 0 ≤ (i 0 : Nat)
      ∧ (i 0 : Nat) < win0_21.index t0_15 0 * win0_21.size 0 + win0_21.xsize (grid0.coords t0_15) 0
    rw [show win0_21.index t0_15 0 * win0_21.size 0 = 0 from by decide +kernel,
      show win0_21.xsize (grid0.coords t0_15) 0 = 1 from by decide +kernel]
    omega
  | ⟨1, _⟩ =>
    show win0_21.index t0_15 1 * win0_21.size 1 ≤ (i 1 : Nat)
      ∧ (i 1 : Nat) < win0_21.index t0_15 1 * win0_21.size 1 + win0_21.xsize (grid0.coords t0_15) 1
    rw [show win0_21.index t0_15 1 * win0_21.size 1 = 0 from by decide +kernel,
      show win0_21.xsize (grid0.coords t0_15) 1 = 64 from by decide +kernel]
    omega

/-- So the array ends holding what the last point leaves in the staging buffer. -/
private theorem arr21_eq (g : Vec Ideal S1x64 .f32) (hafter : D.after 21 t0_15 = g) : D.arrAt 21 cfg0.N = g :=
  D.arrAt_eq_of_cover 21 g (flushed21_eq D g hafter) cover21

end Generic1

/-! ## The run, read -/

section GenericRun

variable (m : (ℓ : Loc nD τ sig) → Buf (Elt Ideal) ℓ) (ρ : Dev nD → PrngReg)

/-- From the frame run: each of the four result buffers at what the host operations after the region leave in it, and
    the fifteen arguments unchanged. -/
private theorem run_of (dats : (p : Fin 1) → (c : Dev nD) → Dat τ (Elt Ideal) Unit ℕ (UR sig nD τ) ℕ (cfgs p) c)
    (hA : ∀ c w, (dats 0 c).A w = V m c (Pipeline.arrRef spec0 w))
    (Q16 : Dev nD → Vec Ideal S8192x1000 .f32) (Q17 : Dev nD → Vec Ideal S256 .f32)
    (Q18 : Dev nD → Vec Ideal S128 .f32) (Q19 : Dev nD → Vec Ideal S64 .f32)
    (h16 : ∀ c, (Pipeline.afterTail₀ cfgs dats 0 (V0 m) [hostOps1] c main_v16 : Vec Ideal S8192x1000 .f32) = Q16 c)
    (h17 : ∀ c, (Pipeline.afterTail₀ cfgs dats 0 (V0 m) [hostOps1] c main_v17 : Vec Ideal S256 .f32) = Q17 c)
    (h18 : ∀ c, (Pipeline.afterTail₀ cfgs dats 0 (V0 m) [hostOps1] c main_v18 : Vec Ideal S128 .f32) = Q18 c)
    (h19 : ∀ c, (Pipeline.afterTail₀ cfgs dats 0 (V0 m) [hostOps1] c main_v19 : Vec Ideal S64 .f32) = Q19 c)
    (h : θ_run defs (onTc (τ := τ) (main (F := Ideal))) (s₀ m ρ)
      (Pipeline.FramePost cfgs dats 0 (Pipeline.afterTail₀ cfgs dats 0 (V0 m) [hostOps1]))) :
    θ_run defs (onTc (τ := τ) (main (F := Ideal))) ⟨m, fun _ => 0, ρ⟩ (fun r => ∀ c : Dev nD,
      (r.2.mem ((c.tc : Thread nD τ).loc main_v16) : Vec Ideal S8192x1000 .f32) = Q16 c
      ∧ (r.2.mem ((c.tc : Thread nD τ).loc main_v17) : Vec Ideal S256 .f32) = Q17 c
      ∧ (r.2.mem ((c.tc : Thread nD τ).loc main_v18) : Vec Ideal S128 .f32) = Q18 c
      ∧ (r.2.mem ((c.tc : Thread nD τ).loc main_v19) : Vec Ideal S64 .f32) = Q19 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).2 main_v16 (Pipeline.mem_restRefs_of main_v16 (by decide) (by decide))).trans (h16 c),
      ((h c).2 main_v17 (Pipeline.mem_restRefs_of main_v17 (by decide) (by decide))).trans (h17 c),
      ((h c).2 main_v18 (Pipeline.mem_restRefs_of main_v18 (by decide) (by decide))).trans (h18 c),
      ((h c).2 main_v19 (Pipeline.mem_restRefs_of main_v19 (by decide) (by decide))).trans (h19 c),
      ((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 1).trans (((dats 0 c).arrAt_in 1 rfl _).trans ((hA c 1).trans (V_main_arg4 m c))),
      (((h c).2 main_arg5 (Pipeline.mem_restRefs_of main_arg5 (by decide) (by decide))).trans (W_main_arg5 m dats c)),
      ((h c).1 6).trans (((dats 0 c).arrAt_in 6 rfl _).trans ((hA c 6).trans (V_main_arg6 m c))),
      (((h c).2 main_arg7 (Pipeline.mem_restRefs_of main_arg7 (by decide) (by decide))).trans (W_main_arg7 m dats c)),
      ((h c).1 11).trans (((dats 0 c).arrAt_in 11 rfl _).trans ((hA c 11).trans (V_main_arg8 m c))),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      ((h c).1 4).trans (((dats 0 c).arrAt_in 4 rfl _).trans ((hA c 4).trans (V_main_arg12 m c))),
      ((h c).1 9).trans (((dats 0 c).arrAt_in 9 rfl _).trans ((hA c 9).trans (V_main_arg13 m c))),
      ((h c).1 14).trans (((dats 0 c).arrAt_in 14 rfl _).trans ((hA c 14).trans (V_main_arg14 m c)))⟩) h

end GenericRun

/-! ## The four result arrays of the region -/

section Arrays

variable (m : (ℓ : Loc nD τ sig) → Buf (Elt Ideal) ℓ) (c : Dev nD)

/-- The main output's array: row b, on the kept columns, is the last layer of row b's third layer. -/
theorem final18 (b : Fin 8192) (o : Fin 1000) (ho : o.val < 1024) :
    ((GenP.dats m 0 c).arrAt 18 cfg0.N : Vec Ideal S8192x1024 .f32) (ix2 b ⟨o.val, ho⟩)
      = lastRow (X3 m c b) (fW4 m c) (fB4 m c) o := by
  have hN : cfg0.N = 16 := N_0
  have hb : b.val < 8192 := b.isLt
  obtain ⟨t, ht⟩ : ∃ t : Fin cfg0.N, t.val = b.val / 512 := ⟨⟨b.val / 512, by omega⟩, rfl⟩
  obtain ⟨r, hr⟩ : ∃ r : Fin 512, r.val = b.val % 512 := ⟨⟨b.val % 512, Nat.mod_lt _ (by decide)⟩, rfl⟩
  have hrow : row t r = b := Fin.ext (by show 512 * t.val + r.val = b.val; omega)
  refine (congrFun (arr18_eq (GenP.dats m 0 c) (fun n h => (GenP.outsAt0 m c n h).1) (GenP.after0_18 m c))
    (ix2 b ⟨o.val, ho⟩)).trans ?_
  refine (glue_at (fun n h => (GenP.outsAt0 m c n h).1) t (ix2 r ⟨o.val, ho⟩) (ix2 b ⟨o.val, ho⟩) ?_ rfl).trans ?_
  · show b.val = 512 * t.val + r.val
    omega
  · exact (out18_at m c t r o ho).trans (congrArg (fun b => lastRow (X3 m c b) (fW4 m c) (fB4 m c) o) hrow)

/-- The first mask's array: the mask of the finished sums of layer 1. -/
theorem final19 (j : Fin 256) :
    ((GenP.dats m 0 c).arrAt 19 cfg0.N : Vec Ideal S1x256 .f32) (ix2 0 j)
      = maskOf (fun j : Fin 256 => (w1 - w1 * Ideal.div (chain (dSq1 m c) t0_15.val t0_15.isLt) wN1) * sumH1 m c j
          + w1 * chain (fun t => dSd1 m c t j) t0_15.val t0_15.isLt) j :=
  (congrFun (arr19_eq (GenP.dats m 0 c) _ (GenP.after0_19 m c t0_15)) (ix2 0 j)).trans
    (hm0_at m c t0_15 (by decide) (by decide) j)

/-- The second mask's array. -/
theorem final20 (j : Fin 128) :
    ((GenP.dats m 0 c).arrAt 20 cfg0.N : Vec Ideal S1x128 .f32) (ix2 0 j)
      = maskOf (fun j : Fin 128 => (w1 - w1 * Ideal.div (chain (dSq2 m c) t0_15.val t0_15.isLt) wN2) * sumH2 m c j
          + w1 * chain (fun t => dSd2 m c t j) t0_15.val t0_15.isLt) j :=
  (congrFun (arr20_eq (GenP.dats m 0 c) _ (GenP.after0_20 m c t0_15)) (ix2 0 j)).trans
    (hm1_at m c t0_15 (by decide) (by decide) j)

/-- The third mask's array. -/
theorem final21 (j : Fin 64) :
    ((GenP.dats m 0 c).arrAt 21 cfg0.N : Vec Ideal S1x64 .f32) (ix2 0 j)
      = maskOf (fun j : Fin 64 => (w1 - w1 * Ideal.div (chain (dSq3 m c) t0_15.val t0_15.isLt) wN3) * sumH3 m c j
          + w1 * chain (fun t => dSd3 m c t j) t0_15.val t0_15.isLt) j :=
  (congrFun (arr21_eq (GenP.dats m 0 c) _ (GenP.after0_21 m c t0_15)) (ix2 0 j)).trans
    (hm2_at m c t0_15 (by decide) (by decide) j)

/-! ## The four results of the program, as explicit functions -/

/-- The sliced main output: entry (b, o) is the last layer of row b's third layer at o. -/
def R16 : Vec Ideal S8192x1000 .f32 := fun i =>
  lastRow (X3 m c ⟨(i 0).val, idx2_lt0 i⟩) (fW4 m c) (fB4 m c) ⟨(i 1).val, idx2_lt1 i⟩

/-- The three flattened masks. -/
def R17 : Vec Ideal S256 .f32 := fun i =>
  maskOf (fun j : Fin 256 => (w1 - w1 * Ideal.div (chain (dSq1 m c) t0_15.val t0_15.isLt) wN1) * sumH1 m c j
          + w1 * chain (fun t => dSd1 m c t j) t0_15.val t0_15.isLt) ⟨(i 0).val, (i 0).isLt⟩
def R18 : Vec Ideal S128 .f32 := fun i =>
  maskOf (fun j : Fin 128 => (w1 - w1 * Ideal.div (chain (dSq2 m c) t0_15.val t0_15.isLt) wN2) * sumH2 m c j
          + w1 * chain (fun t => dSd2 m c t j) t0_15.val t0_15.isLt) ⟨(i 0).val, (i 0).isLt⟩
def R19 : Vec Ideal S64 .f32 := fun i =>
  maskOf (fun j : Fin 64 => (w1 - w1 * Ideal.div (chain (dSq3 m c) t0_15.val t0_15.isLt) wN3) * sumH3 m c j
          + w1 * chain (fun t => dSd3 m c t j) t0_15.val t0_15.isLt) ⟨(i 0).val, (i 0).isLt⟩

theorem R16_apply (b : Fin 8192) (o : Fin 1000) :
    R16 m c (ix2 b o) = lastRow (X3 m c b) (fW4 m c) (fB4 m c) o := rfl
theorem R17_apply (j : Fin 256) :
    R17 m c (ix1 j) = maskOf (fun j : Fin 256 => (w1 - w1 * Ideal.div (chain (dSq1 m c) t0_15.val t0_15.isLt) wN1) * sumH1 m c j
          + w1 * chain (fun t => dSd1 m c t j) t0_15.val t0_15.isLt) j := rfl
theorem R18_apply (j : Fin 128) :
    R18 m c (ix1 j) = maskOf (fun j : Fin 128 => (w1 - w1 * Ideal.div (chain (dSq2 m c) t0_15.val t0_15.isLt) wN2) * sumH2 m c j
          + w1 * chain (fun t => dSd2 m c t j) t0_15.val t0_15.isLt) j := rfl
theorem R19_apply (j : Fin 64) :
    R19 m c (ix1 j) = maskOf (fun j : Fin 64 => (w1 - w1 * Ideal.div (chain (dSq3 m c) t0_15.val t0_15.isLt) wN3) * sumH3 m c j
          + w1 * chain (fun t => dSd3 m c t j) t0_15.val t0_15.isLt) j := rfl

/-- What the host operations after the region leave in the four result buffers. -/
private theorem v16_eq :
    (Pipeline.afterTail₀ cfgs (GenP.dats m) 0 (V0 m) [hostOps1] c main_v16 : Vec Ideal S8192x1000 .f32) = R16 m c := by
  funext i
  obtain ⟨b, o, rfl⟩ : ∃ (b : Fin 8192) (o : Fin 1000), i = ix2 b o :=
    ⟨⟨(i 0).val, idx2_lt0 i⟩, ⟨(i 1).val, idx2_lt1 i⟩, by funext d; match d with | ⟨0, _⟩ => rfl | ⟨1, _⟩ => rfl⟩
  have ho : o.val < 1024 := Nat.lt_trans o.isLt (by decide)
  exact (tail_v16 m (GenP.dats m) c b o ho).trans ((final18 m c b o ho).trans (R16_apply m c b o).symm)

private theorem v17_eq :
    (Pipeline.afterTail₀ cfgs (GenP.dats m) 0 (V0 m) [hostOps1] c main_v17 : Vec Ideal S256 .f32) = R17 m c := by
  funext i
  obtain ⟨j, rfl⟩ : ∃ j : Fin 256, i = ix1 j := ⟨⟨(i 0).val, (i 0).isLt⟩, by funext d; match d with | ⟨0, _⟩ => rfl⟩
  exact (tail_v17 m (GenP.dats m) c j).trans ((final19 m c j).trans (R17_apply m c j).symm)

private theorem v18_eq :
    (Pipeline.afterTail₀ cfgs (GenP.dats m) 0 (V0 m) [hostOps1] c main_v18 : Vec Ideal S128 .f32) = R18 m c := by
  funext i
  obtain ⟨j, rfl⟩ : ∃ j : Fin 128, i = ix1 j := ⟨⟨(i 0).val, (i 0).isLt⟩, by funext d; match d with | ⟨0, _⟩ => rfl⟩
  exact (tail_v18 m (GenP.dats m) c j).trans ((final20 m c j).trans (R18_apply m c j).symm)

private theorem v19_eq :
    (Pipeline.afterTail₀ cfgs (GenP.dats m) 0 (V0 m) [hostOps1] c main_v19 : Vec Ideal S64 .f32) = R19 m c := by
  funext i
  obtain ⟨j, rfl⟩ : ∃ j : Fin 64, i = ix1 j := ⟨⟨(i 0).val, (i 0).isLt⟩, by funext d; match d with | ⟨0, _⟩ => rfl⟩
  exact (tail_v19 m (GenP.dats m) c j).trans ((final21 m c j).trans (R19_apply m c j).symm)

end Arrays

/-! ## The value run -/

/-- For any ideal values, from any memory with zero counters: every weakly fair execution of the program terminates
    with the four result buffers at the four functions above and the fifteen arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v16) : Vec Ideal S8192x1000 .f32) = R16 m c
      ∧ (r.2.mem ((c.tc : Thread nD τ).loc main_v17) : Vec Ideal S256 .f32) = R17 m c
      ∧ (r.2.mem ((c.tc : Thread nD τ).loc main_v18) : Vec Ideal S128 .f32) = R18 m c
      ∧ (r.2.mem ((c.tc : Thread nD τ).loc main_v19) : Vec Ideal S64 .f32) = R19 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  run_of m ρ (GenP.dats m) (GenP.A_eq m) (R16 m) (R17 m) (R18 m) (R19 m) (v16_eq m) (v17_eq m) (v18_eq m) (v19_eq m)
    (GenP.run_main m ρ)

end Cert.KernelIdeal.KFinal

end
-- ==== Proof.KSums.lean ====
/-
  The six carried sums at the last grid point.  After the sixteenth point each running sum is the chain of the sixteen
  tiles' shares; a tile's share is a sum over its 512 rows, and sixteen tiles of 512 rows are the 8192 rows, so each
  chain is the corresponding sum over every row of the batch.
-/
import proofs.«172171_j13907104104967_2_alg».proof.Proof.KInv
import Mathlib.Algebra.BigOperators.Fin

set_option maxRecDepth 16384

noncomputable section

open Idealize.ShloMosaic Idealize.ShloMosaic.TcCoe Idealize.ShloMosaic.ValueIdx Idealize.SL.Sem

namespace Cert.KernelIdeal.KSums

open Cert.KernelIdeal Cert.KernelIdeal.Gen Cert.KernelIdeal.KTile Cert.KernelIdeal.KInv Cert.Hebb

/-- The chain up to n is the sum of the first n + 1 shares. -/
theorem chain_eq_sum (g : Fin cfg0.N → EReal) : ∀ (n : ℕ) (h : n < cfg0.N),
    chain g n h = ∑ i : Fin (n + 1), g ⟨i.val, by have := i.isLt; omega⟩
  | 0, h => by
    rw [Fin.sum_univ_one]
    rfl
  | n + 1, h => by
    rw [Fin.sum_univ_castSucc]
    show chain g n (Nat.lt_of_succ_lt h) + g ⟨n + 1, h⟩ = _
    rw [chain_eq_sum g n (Nat.lt_of_succ_lt h)]
    rfl

/-- The chain over all sixteen points is the sum of the sixteen shares. -/
theorem chain_all (g : Fin cfg0.N → EReal) (h : 15 < cfg0.N) :
    chain g 15 h = ∑ t : Fin 16, g ⟨t.val, by have := t.isLt; have := N16; omega⟩ :=
  chain_eq_sum g 15 h

/-- Summing a row statistic tile by tile, then over the sixteen tiles, sums it over all the rows. -/
theorem tiles_all (f : Fin 8192 → EReal) (h : 15 < cfg0.N) :
    chain (fun t => ∑ r : Fin 512, f (row t r)) 15 h = ∑ b : Fin 8192, f b := by
  rw [chain_all]
  exact sum_tiles f

variable (m : (ℓ : Loc nD τ sig) → Buf (Elt Ideal) ℓ) (c : Dev nD)

/-- Layer 1: the finished sum of squares. -/
theorem sq1_all (h : 15 < cfg0.N) : chain (dSq1 m c) 15 h = sqAll (fX m c) (fH1 m c) :=
  tiles_all (fun b => sqRow (fX m c b) (fH1 m c)) h

/-- Layer 1: the finished sum of z_j times the unit row's entry sum. -/
theorem sd1_all (h : 15 < cfg0.N) (j : Fin 256) :
    chain (fun t => dSd1 m c t j) 15 h = sdAll (fX m c) (fH1 m c) j :=
  tiles_all (fun b => zRow (fX m c b) (fH1 m c) j * sRow (fX m c b)) h

/-- Layer 2: the finished sum of squares. -/
theorem sq2_all (h : 15 < cfg0.N) : chain (dSq2 m c) 15 h = sqAll (X1 m c) (fH2 m c) :=
  tiles_all (fun b => sqRow (X1 m c b) (fH2 m c)) h

/-- Layer 2: the finished sum of z_j times the unit row's entry sum. -/
theorem sd2_all (h : 15 < cfg0.N) (j : Fin 128) :
    chain (fun t => dSd2 m c t j) 15 h = sdAll (X1 m c) (fH2 m c) j :=
  tiles_all (fun b => zRow (X1 m c b) (fH2 m c) j * sRow (X1 m c b)) h

/-- Layer 3: the finished sum of squares. -/
theorem sq3_all (h : 15 < cfg0.N) : chain (dSq3 m c) 15 h = sqAll (X2 m c) (fH3 m c) :=
  tiles_all (fun b => sqRow (X2 m c b) (fH3 m c)) h

/-- Layer 3: the finished sum of z_j times the unit row's entry sum. -/
theorem sd3_all (h : 15 < cfg0.N) (j : Fin 64) :
    chain (fun t => dSd3 m c t j) 15 h = sdAll (X2 m c) (fH3 m c) j :=
  tiles_all (fun b => zRow (X2 m c b) (fH3 m c) j * sRow (X2 m c b)) h

end Cert.KernelIdeal.KSums

end
-- ==== Proof.RefHm0.lean ====
/-
  The reference's first mask, entry by entry: the thresholded, min-max normalised score of the input's
  rows against the first table, in the reference's own form of the score.

  Each row of the input is scaled to unit length, projected on the table's rows, and the projection scaled
  to unit length again; theta is the mean of the squares of the result; the score of table row j is the sum
  over k of  H_jk + 1 * ((sum_b z_bj * u_bk) - theta * H_jk);  the mask is 0 where the score, shifted by its
  minimum and divided by (max - min) + eps, is below one half, and 1 elsewhere.
-/
import proofs.«172171_j13907104104967_2_alg».proof.Proof.Gen.ReferenceIdeal.Read
import proofs.«172171_j13907104104967_2_alg».proof.Proof.HebbSpec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Mathlib.Order.CompleteLattice.Finset

noncomputable section

open Idealize.ShloMosaic Idealize.ShloMosaic.TcCoe Idealize.ShloMosaic.ValueIdx

namespace Cert.ReferenceIdeal.RefHm0

open Cert.ReferenceIdeal Cert.ReferenceIdeal.Read Cert.Hebb

/-- The input as its rows. -/
abbrev xRows (x0 : (⟨S8192x1024, .f32⟩ : BufTy).Contents (Elt Ideal)) : Fin 8192 → Fin 1024 → EReal :=
  fun b k => x0 (ix2 b k)

/-- The first table as its rows. -/
abbrev hRows (x12 : (⟨S256x1024, .f32⟩ : BufTy).Contents (Elt Ideal)) : Fin 256 → Fin 1024 → EReal :=
  fun j k => x12 (ix2 j k)

/-! ## Where each operation reads its operands, by coordinates -/

/-- Row b's sum of squares reads entry (b, k). -/
theorem at_normsq_x (b : Fin 8192) (k : Fin 1024) : idx_main_call0_v1 (ix1 b) k = ix2 b k :=
  funext fun a => Fin.ext (by match a with | ⟨0, _⟩ => rfl | ⟨1, _⟩ => rfl)

/-- The norm column spread over the row: entry (b, k) reads (b, 0). -/
theorem at_norm_x_bcast (b : Fin 8192) (k : Fin 1024) : idx_main_v1 (ix2 b k) = ix2 b (0 : Fin 1) :=
  funext fun a => Fin.ext (by match a with | ⟨0, _⟩ => rfl | ⟨1, _⟩ => rfl)

/-- The norm column's entry (b, 0) reads entry b of the norms. -/
theorem at_norm_x_col (b : Fin 8192) : idx_main_call0_v2 (ix2 b (0 : Fin 1)) = ix1 b :=
  funext fun a => Fin.ext (by match a with | ⟨0, _⟩ => rfl)

/-- The projection's entry (b, j) reads the unit row at (b, k) … -/
theorem at_proj_l (b : Fin 8192) (j : Fin 256) (k : Fin 1024) : lidx_main_v4 (ix2 b j) k = ix2 b k :=
  funext fun a => Fin.ext (by match a with | ⟨0, _⟩ => rfl | ⟨1, _⟩ => rfl)

/-- … and the transposed table at (k, j) … -/
theorem at_proj_r (b : Fin 8192) (j : Fin 256) (k : Fin 1024) : ridx_main_v4 (ix2 b j) k = ix2 k j :=
  funext fun a => Fin.ext (by match a with | ⟨0, _⟩ => rfl | ⟨1, _⟩ => rfl)

/-- … which is the table at (j, k). -/
theorem at_tbl_T (k : Fin 1024) (j : Fin 256) : idx_main_v3 (ix2 k j) = ix2 j k :=
  funext fun a => Fin.ext (by match a with | ⟨0, _⟩ => rfl | ⟨1, _⟩ => rfl)

/-- Row b's sum of squares of the projection reads entry (b, j). -/
theorem at_normsq_y (b : Fin 8192) (j : Fin 256) : idx_main_call1_v1 (ix1 b) j = ix2 b j :=
  funext fun a => Fin.ext (by match a with | ⟨0, _⟩ => rfl | ⟨1, _⟩ => rfl)

/-- The projection's norm column spread over the row: entry (b, j) reads (b, 0). -/
theorem at_norm_y_bcast (b : Fin 8192) (j : Fin 256) : idx_main_v6 (ix2 b j) = ix2 b (0 : Fin 1) :=
  funext fun a => Fin.ext (by match a with | ⟨0, _⟩ => rfl | ⟨1, _⟩ => rfl)

/-- That column's entry (b, 0) reads entry b of the norms. -/
theorem at_norm_y_col (b : Fin 8192) : idx_main_call1_v2 (ix2 b (0 : Fin 1)) = ix1 b :=
  funext fun a => Fin.ext (by match a with | ⟨0, _⟩ => rfl)

/-- The contraction over the batch: entry (j, k) reads z at (b, j) … -/
theorem at_corr_l (j : Fin 256) (k : Fin 1024) (b : Fin 8192) : lidx_main_v11 (ix2 j k) b = ix2 b j :=
  funext fun a => Fin.ext (by match a with | ⟨0, _⟩ => rfl | ⟨1, _⟩ => rfl)

/-- … and the unit row at (b, k). -/
theorem at_corr_r (j : Fin 256) (k : Fin 1024) (b : Fin 8192) : ridx_main_v11 (ix2 j k) b = ix2 b k :=
  funext fun a => Fin.ext (by match a with | ⟨0, _⟩ => rfl | ⟨1, _⟩ => rfl)

/-- Row j's sum of the updated table reads entry (j, k). -/
theorem at_score (j : Fin 256) (k : Fin 1024) : idx_main_v18 (ix1 j) k = ix2 j k :=
  funext fun a => Fin.ext (by match a with | ⟨0, _⟩ => rfl | ⟨1, _⟩ => rfl)

/-! ## The statistics, stage by stage -/

/-- The squared length of input row b. -/
theorem normsq_x (x0 : (⟨S8192x1024, .f32⟩ : BufTy).Contents (Elt Ideal)) (b : Fin 8192) :
    val_main_call0_v1 (F := Ideal) x0 (ix1 b) = ∑ k : Fin 1024, x0 (ix2 b k) * x0 (ix2 b k) := by
  rw [val_main_call0_v1_apply]
  simp only [val_main_call0_v0_apply, val_main_call0_cst_apply, Ideal.mulf_def, Ideal.ofBits_def,
    Ideal.ofBits_zero_f32, zero_add, at_normsq_x]

/-- u: input row b scaled to unit length, at k. -/
theorem unit_at (x0 : (⟨S8192x1024, .f32⟩ : BufTy).Contents (Elt Ideal)) (b : Fin 8192) (k : Fin 1024) :
    val_main_v2 (F := Ideal) x0 (ix2 b k) = unitRow (xRows x0 b) k := by
  rw [val_main_v2_apply, val_main_v1_apply, val_main_v0_apply, val_main_call0_v2_apply, at_norm_x_bcast,
    at_norm_x_col, normsq_x, Ideal.hostDivf_def, Ideal.hostUnary_sqrt_def]
  rfl

/-- y: the unit row projected on table row j. -/
theorem proj_at (x0 : (⟨S8192x1024, .f32⟩ : BufTy).Contents (Elt Ideal))
    (x12 : (⟨S256x1024, .f32⟩ : BufTy).Contents (Elt Ideal)) (b : Fin 8192) (j : Fin 256) :
    val_main_v4 (F := Ideal) x0 x12 (ix2 b j) = projRow (xRows x0 b) (hRows x12) j := by
  rw [val_main_v4_apply]
  simp only [at_proj_l, at_proj_r, val_main_v3_apply, at_tbl_T, unit_at]
  rfl

/-- The squared length of the projection of row b. -/
theorem normsq_y (x0 : (⟨S8192x1024, .f32⟩ : BufTy).Contents (Elt Ideal))
    (x12 : (⟨S256x1024, .f32⟩ : BufTy).Contents (Elt Ideal)) (b : Fin 8192) :
    val_main_call1_v1 (F := Ideal) x0 x12 (ix1 b)
      = ∑ j : Fin 256, projRow (xRows x0 b) (hRows x12) j * projRow (xRows x0 b) (hRows x12) j := by
  rw [val_main_call1_v1_apply]
  simp only [val_main_call1_v0_apply, val_main_call1_cst_apply, Ideal.mulf_def, Ideal.ofBits_def,
    Ideal.ofBits_zero_f32, zero_add, at_normsq_y, proj_at]

/-- z: the projection scaled to unit length, at j. -/
theorem z_at (x0 : (⟨S8192x1024, .f32⟩ : BufTy).Contents (Elt Ideal))
    (x12 : (⟨S256x1024, .f32⟩ : BufTy).Contents (Elt Ideal)) (b : Fin 8192) (j : Fin 256) :
    val_main_v7 (F := Ideal) x0 x12 (ix2 b j) = zRow (xRows x0 b) (hRows x12) j := by
  rw [val_main_v7_apply, val_main_v6_apply, val_main_v5_apply, val_main_call1_v2_apply, at_norm_y_bcast,
    at_norm_y_col, normsq_y, proj_at, Ideal.hostDivf_def, Ideal.hostUnary_sqrt_def]
  rfl

/-- theta: the sum of the squares of z over all rows and entries, divided by their number. -/
theorem theta_at (x0 : (⟨S8192x1024, .f32⟩ : BufTy).Contents (Elt Ideal))
    (x12 : (⟨S256x1024, .f32⟩ : BufTy).Contents (Elt Ideal)) (i : S_.Idx) :
    val_main_v10 (F := Ideal) x0 x12 i = Ideal.div (sqAll (xRows x0) (hRows x12)) wN1 := by
  rw [val_main_v10_apply, val_main_v9_apply, sum_idx2]
  simp only [val_main_v8_apply, z_at, val_main_cst_apply, val_main_cst_0_apply, Ideal.mulf_def, Ideal.ofBits_def,
    Ideal.ofBits_zero_f32, zero_add, Ideal.hostDivf_def]
  rfl

/-- E: the sum over the rows of z_bj * u_bk. -/
theorem corr_at (x0 : (⟨S8192x1024, .f32⟩ : BufTy).Contents (Elt Ideal))
    (x12 : (⟨S256x1024, .f32⟩ : BufTy).Contents (Elt Ideal)) (j : Fin 256) (k : Fin 1024) :
    val_main_v11 (F := Ideal) x0 x12 (ix2 j k)
      = ∑ b : Fin 8192, zRow (xRows x0 b) (hRows x12) j * unitRow (xRows x0 b) k := by
  rw [val_main_v11_apply]
  simp only [at_corr_l, at_corr_r, z_at, unit_at]

/-- The updated table H + 1 * (E - theta * H), at (j, k). -/
theorem upd_at (x0 : (⟨S8192x1024, .f32⟩ : BufTy).Contents (Elt Ideal))
    (x12 : (⟨S256x1024, .f32⟩ : BufTy).Contents (Elt Ideal)) (j : Fin 256) (k : Fin 1024) :
    val_main_v17 (F := Ideal) x0 x12 (ix2 j k)
      = hRows x12 j k + w1 * ((∑ b : Fin 8192, zRow (xRows x0 b) (hRows x12) j * unitRow (xRows x0 b) k)
          - Ideal.div (sqAll (xRows x0) (hRows x12)) wN1 * hRows x12 j k) := by
  rw [val_main_v17_apply, val_main_v16_apply, val_main_v15_apply, val_main_cst_1_apply, val_main_v14_apply,
    val_main_v13_apply, val_main_v12_apply, theta_at, corr_at]
  rfl

/-- The score of table row j: the row sum of the updated table. -/
theorem score_at (x0 : (⟨S8192x1024, .f32⟩ : BufTy).Contents (Elt Ideal))
    (x12 : (⟨S256x1024, .f32⟩ : BufTy).Contents (Elt Ideal)) (j : Fin 256) :
    val_main_v18 (F := Ideal) x0 x12 (ix1 j) = scoreR (xRows x0) (hRows x12) wN1 j := by
  rw [val_main_v18_apply]
  simp only [at_score, upd_at, val_main_cst_2_apply, Ideal.ofBits_def, Ideal.ofBits_zero_f32, zero_add]
  rfl

/-! ## The minimum and the maximum of the scores -/

/-- The word of plus infinity is the top of the extended reals … -/
theorem top_word : Ideal.ofBits .f32 0x7F800000#32 = (⊤ : EReal) := by simp [Ideal.ofBits, Ideal.ieee]

/-- … and the word of minus infinity the bottom. -/
theorem bot_word : Ideal.ofBits .f32 0xFF800000#32 = (⊥ : EReal) := by simp [Ideal.ofBits, Ideal.ieee]

/-- An infimum over the rank-one indices is the infimum over their one coordinate. -/
theorem inf_idx1 (x : S256.Idx → EReal) : Finset.univ.inf x = Finset.univ.inf (fun k : Fin 256 => x (ix1 k)) := by
  apply le_antisymm
  · exact Finset.le_inf fun k _ => Finset.inf_le (Finset.mem_univ _)
  · exact Finset.le_inf fun i _ =>
      le_of_le_of_eq (Finset.inf_le (f := fun k : Fin 256 => x (ix1 k)) (Finset.mem_univ (i 0)))
        (congrArg x (eq_ix1 i).symm)

/-- A supremum over the rank-one indices is the supremum over their one coordinate. -/
theorem sup_idx1 (x : S256.Idx → EReal) : Finset.univ.sup x = Finset.univ.sup (fun k : Fin 256 => x (ix1 k)) := by
  apply le_antisymm
  · exact Finset.sup_le fun i _ =>
      le_of_eq_of_le (congrArg x (eq_ix1 i))
        (Finset.le_sup (f := fun k : Fin 256 => x (ix1 k)) (Finset.mem_univ (i 0)))
  · exact Finset.sup_le fun k _ => Finset.le_sup (f := x) (Finset.mem_univ _)

/-- Reducing every axis with a minimum from plus infinity gives the infimum of the entries: every index
    drops to the one index of the scalar result, and the fold of min from the top is the infimum. -/
theorem reduce_min_all (x : S256.Idx → EReal) (init : S_.Idx → EReal) (h' : S256.ReducesTo [0] S_)
    (hu : 0 < S_.numel) (i : S_.Idx) (hinit : init (Shape.Idx.first hu) = Ideal.ofBits .f32 0x7F800000#32) :
    Host.reduce (FloatOps.minimumf (F := Ideal) (φ := .f32)) x init h' hu i
      = Finset.univ.inf (fun k : Fin 256 => x (ix1 k)) := by
  rw [Host.reduce_eq_fold, Finset.filter_true_of_mem fun i _ => funext fun b => b.elim0, hinit, top_word,
    ← inf_idx1]
  rfl

/-- Reducing every axis with a maximum from minus infinity gives the supremum of the entries. -/
theorem reduce_max_all (x : S256.Idx → EReal) (init : S_.Idx → EReal) (h' : S256.ReducesTo [0] S_)
    (hu : 0 < S_.numel) (i : S_.Idx) (hinit : init (Shape.Idx.first hu) = Ideal.ofBits .f32 0xFF800000#32) :
    Host.reduce (FloatOps.maximumf (F := Ideal) (φ := .f32)) x init h' hu i
      = Finset.univ.sup (fun k : Fin 256 => x (ix1 k)) := by
  rw [Host.reduce_eq_fold, Finset.filter_true_of_mem fun i _ => funext fun b => b.elim0, hinit, bot_word,
    ← sup_idx1]
  rfl

/-- The least score. -/
theorem min_at (x0 : (⟨S8192x1024, .f32⟩ : BufTy).Contents (Elt Ideal))
    (x12 : (⟨S256x1024, .f32⟩ : BufTy).Contents (Elt Ideal)) (i : S_.Idx) :
    val_main_v19 (F := Ideal) x0 x12 i = Finset.univ.inf (scoreR (xRows x0) (hRows x12) wN1) :=
  (reduce_min_all (val_main_v18 (F := Ideal) x0 x12) (val_main_cst_3 (F := Ideal)) Gen.reducesTo_S256_S_d0 Gen.h_S_ i rfl).trans
    (congrArg (Finset.inf Finset.univ) (funext fun j => score_at x0 x12 j))

/-- The greatest score. -/
theorem max_at (x0 : (⟨S8192x1024, .f32⟩ : BufTy).Contents (Elt Ideal))
    (x12 : (⟨S256x1024, .f32⟩ : BufTy).Contents (Elt Ideal)) (i : S_.Idx) :
    val_main_v22 (F := Ideal) x0 x12 i = Finset.univ.sup (scoreR (xRows x0) (hRows x12) wN1) :=
  (reduce_max_all (val_main_v18 (F := Ideal) x0 x12) (val_main_cst_4 (F := Ideal)) Gen.reducesTo_S256_S_d0 Gen.h_S_ i rfl).trans
    (congrArg (Finset.sup Finset.univ) (funext fun j => score_at x0 x12 j))

/-- The least score again, as the range's lower end. -/
theorem min'_at (x0 : (⟨S8192x1024, .f32⟩ : BufTy).Contents (Elt Ideal))
    (x12 : (⟨S256x1024, .f32⟩ : BufTy).Contents (Elt Ideal)) (i : S_.Idx) :
    val_main_v23 (F := Ideal) x0 x12 i = Finset.univ.inf (scoreR (xRows x0) (hRows x12) wN1) :=
  (reduce_min_all (val_main_v18 (F := Ideal) x0 x12) (val_main_cst_5 (F := Ideal)) Gen.reducesTo_S256_S_d0 Gen.h_S_ i rfl).trans
    (congrArg (Finset.inf Finset.univ) (funext fun j => score_at x0 x12 j))

/-! ## The threshold -/

/-- Selecting on "a is below b" is the choice by that comparison. -/
theorem select_lt (a b u v : EReal) :
    Scalar.select (FloatOps.cmpf (F := Ideal) (φ := .f32) .olt a b) u v = if a < b then u else v := by
  by_cases h : a < b
  · have hc : FloatOps.cmpf (F := Ideal) (φ := .f32) .olt a b = 1#1 := by
      show BitVec.ofBool (decide (a < b)) = 1#1
      rw [decide_eq_true h]; rfl
    rw [hc, select_one, if_pos h]
  · have hc : FloatOps.cmpf (F := Ideal) (φ := .f32) .olt a b = 0#1 := by
      show BitVec.ofBool (decide (a < b)) = 0#1
      rw [decide_eq_false h]; rfl
    rw [hc, select_zero, if_neg h]

theorem hm0_apply (x0 : (⟨S8192x1024, .f32⟩ : BufTy).Contents (Elt Ideal)) (x12 : (⟨S256x1024, .f32⟩ : BufTy).Contents (Elt Ideal)) (j : Fin 256) :
    val_main_v31 (F := Ideal) x0 x12 (ix1 j)
      = maskOf (scoreR (fun (b : Fin 8192) (k : Fin 1024) => x0 (ix2 b k)) (fun (j : Fin 256) (k : Fin 1024) => x12 (ix2 j k)) wN1) j := by
  rw [val_main_v31_apply, val_main_v30_apply, val_main_v29_apply]
  refine (select_lt _ _ _ _).trans ?_
  rw [val_main_v27_apply, val_main_v21_apply, val_main_v20_apply, val_main_v26_apply, val_main_v25_apply,
    val_main_v24_apply, val_main_v28_apply, val_main_call2_v0_apply, val_main_call2_v1_apply, score_at, min_at,
    max_at, min'_at]
  rfl

end Cert.ReferenceIdeal.RefHm0

end
-- ==== Proof.RefHm1.lean ====
/-
  The reference's second mask, entry by entry: the score of the first layer's output rows against the
  second table.
-/
import proofs.«172171_j13907104104967_2_alg».proof.Proof.Gen.ReferenceIdeal.Read
import proofs.«172171_j13907104104967_2_alg».proof.Proof.HebbSpec
import Idealize.ShloMosaic.Lib.Pipeline.Value
import Idealize.ShloMosaic.Lib.ValueIdx
import Idealize.ShloMosaic.Lib.ValueLayout
import Idealize.ShloMosaic.PureOps.Ideal.Laws
import Mathlib.Order.CompleteLattice.Finset

noncomputable section

open Idealize.ShloMosaic Idealize.ShloMosaic.TcCoe Idealize.ShloMosaic.ValueIdx

namespace Cert.ReferenceIdeal.RefHm1

open Cert.ReferenceIdeal Cert.ReferenceIdeal.Read Cert.Hebb

/-- The first layer's output, row by row. -/
theorem x1_apply (x0 : (⟨S8192x1024, .f32⟩ : BufTy).Contents (Elt Ideal)) (x1 : (⟨S256, .f32⟩ : BufTy).Contents (Elt Ideal)) (x4 : (⟨S256x1024, .f32⟩ : BufTy).Contents (Elt Ideal)) (x5 : (⟨S256, .f32⟩ : BufTy).Contents (Elt Ideal)) (b : Fin 8192) (j : Fin 256) :
    val_main_v40 (F := Ideal) x0 x1 x4 x5 (ix2 b j) = (fun b : Fin 8192 => layerRow (fun k : Fin 1024 => x0 (ix2 b k)) (fun (j : Fin 256) (k : Fin 1024) => x4 (ix2 j k)) (fun j : Fin 256 => x5 (ix1 j)) (fun j : Fin 256 => x1 (ix1 j))) b j := by
  have el : ∀ k : Fin 1024, lidx_main_v33 (ix2 b j) k = ix2 b k := fun k =>
    funext fun a => Fin.ext (by match a with | ⟨0, _⟩ => rfl | ⟨1, _⟩ => rfl)
  have er : ∀ k : Fin 1024, idx_main_v32 (ridx_main_v33 (ix2 b j) k) = ix2 j k := fun k =>
    funext fun a => Fin.ext (by match a with | ⟨0, _⟩ => rfl | ⟨1, _⟩ => rfl)
  have eb : idx_main_v34 (idx_main_v35 (ix2 b j)) = ix1 j :=
    funext fun a => Fin.ext (by match a with | ⟨0, _⟩ => rfl)
  have em : idx_main_v38 (idx_main_v39 (ix2 b j)) = ix1 j :=
    funext fun a => Fin.ext (by match a with | ⟨0, _⟩ => rfl)
  rw [val_main_v40_apply, val_main_v37_apply, val_main_v36_apply, val_main_v33_apply, val_main_v35_apply,
    val_main_v34_apply, val_main_call3_v0_apply, val_main_call3_cst_apply, val_main_v39_apply, val_main_v38_apply,
    eb, em]
  simp only [val_main_v32_apply, el, er]
  rfl

section Chain

variable (x0 : (⟨S8192x1024, .f32⟩ : BufTy).Contents (Elt Ideal)) (x1 : (⟨S256, .f32⟩ : BufTy).Contents (Elt Ideal)) (x4 : (⟨S256x1024, .f32⟩ : BufTy).Contents (Elt Ideal)) (x5 : (⟨S256, .f32⟩ : BufTy).Contents (Elt Ideal)) (x13 : (⟨S128x256, .f32⟩ : BufTy).Contents (Elt Ideal))
  (a : Fin 8192 → Fin 256 → EReal) (H : Fin 128 → Fin 256 → EReal)

/-- A row of the first layer's output over its Euclidean norm. -/
theorem u_apply (ha : ∀ (b : Fin 8192) (k : Fin 256), val_main_v40 (F := Ideal) x0 x1 x4 x5 (ix2 b k) = a b k)
    (b : Fin 8192) (k : Fin 256) :
    val_main_v43 (F := Ideal) x0 x1 x4 x5 (ix2 b k) = unitRow (a b) k := by
  have e : ∀ k' : Fin 256, idx_main_call4_v1 (idx_main_call4_v2 (idx_main_v42 (ix2 b k))) k' = ix2 b k' := fun k' =>
    funext fun c => Fin.ext (by match c with | ⟨0, _⟩ => rfl | ⟨1, _⟩ => rfl)
  rw [val_main_v43_apply, val_main_v42_apply, val_main_v41_apply, val_main_call4_v2_apply, val_main_call4_v1_apply,
    val_main_call4_cst_apply]
  simp only [val_main_call4_v0_apply, e, ha]
  unfold unitRow
  simp only [Ideal.hostDivf_def, Ideal.hostUnary_sqrt_def, Ideal.mulf_def, Ideal.ofBits_def, Ideal.ofBits_zero_f32, zero_add]

/-- The unit row against the table's rows. -/
theorem y_apply (ha : ∀ (b : Fin 8192) (k : Fin 256), val_main_v40 (F := Ideal) x0 x1 x4 x5 (ix2 b k) = a b k)
    (hH : ∀ (j : Fin 128) (k : Fin 256), x13 (ix2 j k) = H j k) (b : Fin 8192) (j : Fin 128) :
    val_main_v45 (F := Ideal) x0 x1 x4 x5 x13 (ix2 b j) = projRow (a b) H j := by
  have el : ∀ k : Fin 256, lidx_main_v45 (ix2 b j) k = ix2 b k := fun k =>
    funext fun c => Fin.ext (by match c with | ⟨0, _⟩ => rfl | ⟨1, _⟩ => rfl)
  have er : ∀ k : Fin 256, idx_main_v44 (ridx_main_v45 (ix2 b j) k) = ix2 j k := fun k =>
    funext fun c => Fin.ext (by match c with | ⟨0, _⟩ => rfl | ⟨1, _⟩ => rfl)
  rw [val_main_v45_apply]
  simp only [val_main_v44_apply, el, er, u_apply x0 x1 x4 x5 a ha, hH]
  rfl

/-- The projection over its Euclidean norm. -/
theorem z_apply (ha : ∀ (b : Fin 8192) (k : Fin 256), val_main_v40 (F := Ideal) x0 x1 x4 x5 (ix2 b k) = a b k)
    (hH : ∀ (j : Fin 128) (k : Fin 256), x13 (ix2 j k) = H j k) (b : Fin 8192) (j : Fin 128) :
    val_main_v48 (F := Ideal) x0 x1 x4 x5 x13 (ix2 b j) = zRow (a b) H j := by
  have e : ∀ j' : Fin 128, idx_main_call5_v1 (idx_main_call5_v2 (idx_main_v47 (ix2 b j))) j' = ix2 b j' := fun j' =>
    funext fun c => Fin.ext (by match c with | ⟨0, _⟩ => rfl | ⟨1, _⟩ => rfl)
  rw [val_main_v48_apply, val_main_v47_apply, val_main_v46_apply, val_main_call5_v2_apply, val_main_call5_v1_apply,
    val_main_call5_cst_apply]
  simp only [val_main_call5_v0_apply, e, y_apply x0 x1 x4 x5 x13 a H ha hH]
  unfold zRow unitRow
  simp only [Ideal.hostDivf_def, Ideal.hostUnary_sqrt_def, Ideal.mulf_def, Ideal.ofBits_def, Ideal.ofBits_zero_f32, zero_add]

/-- The sum of the squares of every entry of z. -/
theorem sq_apply (ha : ∀ (b : Fin 8192) (k : Fin 256), val_main_v40 (F := Ideal) x0 x1 x4 x5 (ix2 b k) = a b k)
    (hH : ∀ (j : Fin 128) (k : Fin 256), x13 (ix2 j k) = H j k) (i : S_.Idx) :
    val_main_v50 (F := Ideal) x0 x1 x4 x5 x13 i = sqAll a H := by
  rw [val_main_v50_apply, val_main_cst_10_apply, sum_idx2]
  simp only [val_main_v49_apply, z_apply x0 x1 x4 x5 x13 a H ha hH, Ideal.mulf_def, Ideal.ofBits_def,
    Ideal.ofBits_zero_f32, zero_add]
  rfl

/-- z transposed against u, summed over the rows. -/
theorem m_apply (ha : ∀ (b : Fin 8192) (k : Fin 256), val_main_v40 (F := Ideal) x0 x1 x4 x5 (ix2 b k) = a b k)
    (hH : ∀ (j : Fin 128) (k : Fin 256), x13 (ix2 j k) = H j k) (j : Fin 128) (k : Fin 256) :
    val_main_v52 (F := Ideal) x0 x1 x4 x5 x13 (ix2 j k) = ∑ b : Fin 8192, zRow (a b) H j * unitRow (a b) k := by
  have el : ∀ b : Fin 8192, lidx_main_v52 (ix2 j k) b = ix2 b j := fun b =>
    funext fun c => Fin.ext (by match c with | ⟨0, _⟩ => rfl | ⟨1, _⟩ => rfl)
  have er : ∀ b : Fin 8192, ridx_main_v52 (ix2 j k) b = ix2 b k := fun b =>
    funext fun c => Fin.ext (by match c with | ⟨0, _⟩ => rfl | ⟨1, _⟩ => rfl)
  rw [val_main_v52_apply]
  simp only [el, er, z_apply x0 x1 x4 x5 x13 a H ha hH, u_apply x0 x1 x4 x5 a ha]

/-- The updated table, entry by entry. -/
theorem w_apply (ha : ∀ (b : Fin 8192) (k : Fin 256), val_main_v40 (F := Ideal) x0 x1 x4 x5 (ix2 b k) = a b k)
    (hH : ∀ (j : Fin 128) (k : Fin 256), x13 (ix2 j k) = H j k) (j : Fin 128) (k : Fin 256) :
    val_main_v58 (F := Ideal) x0 x1 x4 x5 x13 (ix2 j k)
      = H j k + w1 * ((∑ b : Fin 8192, zRow (a b) H j * unitRow (a b) k) - Ideal.div (sqAll a H) wN2 * H j k) := by
  rw [val_main_v58_apply, val_main_v57_apply, val_main_v56_apply, val_main_cst_12_apply, val_main_v55_apply,
    val_main_v54_apply, val_main_v53_apply, val_main_v51_apply, val_main_cst_11_apply,
    m_apply x0 x1 x4 x5 x13 a H ha hH, sq_apply x0 x1 x4 x5 x13 a H ha hH, hH]
  rfl

/-- The score: the updated table's row sums. -/
theorem score_apply (ha : ∀ (b : Fin 8192) (k : Fin 256), val_main_v40 (F := Ideal) x0 x1 x4 x5 (ix2 b k) = a b k)
    (hH : ∀ (j : Fin 128) (k : Fin 256), x13 (ix2 j k) = H j k) (j : Fin 128) :
    val_main_v59 (F := Ideal) x0 x1 x4 x5 x13 (ix1 j) = scoreR a H wN2 j := by
  have e : ∀ k : Fin 256, idx_main_v59 (ix1 j) k = ix2 j k := fun k =>
    funext fun c => Fin.ext (by match c with | ⟨0, _⟩ => rfl | ⟨1, _⟩ => rfl)
  rw [val_main_v59_apply, val_main_cst_13_apply]
  simp only [e, w_apply x0 x1 x4 x5 x13 a H ha hH, Ideal.ofBits_def, Ideal.ofBits_zero_f32, zero_add]
  rfl

end Chain

/-- From +∞ the minimum over the one axis is the infimum of the entries. -/
theorem hostMin_apply (x : (⟨S128, .f32⟩ : BufTy).Contents (Elt Ideal)) (init : (⟨S_, .f32⟩ : BufTy).Contents (Elt Ideal))
    (hinit : init (Shape.Idx.first Gen.h_S_) = ⊤) (s : Fin 128 → EReal) (hx : ∀ j : Fin 128, x (ix1 j) = s j) (i : S_.Idx) :
    Host.reduce (FloatOps.minimumf (F := Ideal) (φ := .f32)) x init Gen.reducesTo_S128_S_d0 Gen.h_S_ i = Finset.univ.inf s := by
  rw [Host.reduce_eq_fold, Finset.filter_true_of_mem (fun i' _ => funext fun b => b.elim0), hinit]
  show Finset.univ.inf x = Finset.univ.inf s
  apply le_antisymm
  · exact Finset.le_inf fun j _ => (Finset.inf_le (Finset.mem_univ (ix1 j))).trans (hx j).le
  · refine Finset.le_inf fun i' _ => ?_
    have e : x i' = s (i' 0) := (congrArg x (eq_ix1 (n := 128) i')).trans (hx (i' 0))
    exact (Finset.inf_le (Finset.mem_univ (i' 0))).trans e.ge

/-- From −∞ the maximum over the one axis is the supremum of the entries. -/
theorem hostMax_apply (x : (⟨S128, .f32⟩ : BufTy).Contents (Elt Ideal)) (init : (⟨S_, .f32⟩ : BufTy).Contents (Elt Ideal))
    (hinit : init (Shape.Idx.first Gen.h_S_) = ⊥) (s : Fin 128 → EReal) (hx : ∀ j : Fin 128, x (ix1 j) = s j) (i : S_.Idx) :
    Host.reduce (FloatOps.maximumf (F := Ideal) (φ := .f32)) x init Gen.reducesTo_S128_S_d0 Gen.h_S_ i = Finset.univ.sup s := by
  rw [Host.reduce_eq_fold, Finset.filter_true_of_mem (fun i' _ => funext fun b => b.elim0), hinit]
  show Finset.univ.sup x = Finset.univ.sup s
  apply le_antisymm
  · refine Finset.sup_le fun i' _ => ?_
    have e : x i' = s (i' 0) := (congrArg x (eq_ix1 (n := 128) i')).trans (hx (i' 0))
    exact e.le.trans (Finset.le_sup (Finset.mem_univ (i' 0)))
  · exact Finset.sup_le fun j _ => (hx j).ge.trans (Finset.le_sup (Finset.mem_univ (ix1 j)))

/-- The word 0x7F800000 is +∞. -/
theorem posInf_word : Ideal.ofBits .f32 0x7F800000#32 = ⊤ := by simp [Ideal.ofBits, Ideal.ieee]

/-- The word 0xFF800000 is −∞. -/
theorem negInf_word : Ideal.ofBits .f32 0xFF800000#32 = ⊥ := by simp [Ideal.ofBits, Ideal.ieee]

/-- A select on an ordered less-than is the choice by the order. -/
theorem select_lt (A B p q : EReal) :
    Scalar.select (FloatOps.cmpf (F := Ideal) (φ := .f32) .olt A B) p q = if A < B then p else q := by
  rw [Ideal.cmpf_def]
  by_cases h : A < B <;> simp [Ideal.cmp, Scalar.select, h]

section Mask

variable (x0 : (⟨S8192x1024, .f32⟩ : BufTy).Contents (Elt Ideal)) (x1 : (⟨S256, .f32⟩ : BufTy).Contents (Elt Ideal)) (x4 : (⟨S256x1024, .f32⟩ : BufTy).Contents (Elt Ideal)) (x5 : (⟨S256, .f32⟩ : BufTy).Contents (Elt Ideal)) (x13 : (⟨S128x256, .f32⟩ : BufTy).Contents (Elt Ideal))
  (a : Fin 8192 → Fin 256 → EReal) (H : Fin 128 → Fin 256 → EReal)

/-- The thresholded, min-max normalised score. -/
theorem mask_apply (ha : ∀ (b : Fin 8192) (k : Fin 256), val_main_v40 (F := Ideal) x0 x1 x4 x5 (ix2 b k) = a b k)
    (hH : ∀ (j : Fin 128) (k : Fin 256), x13 (ix2 j k) = H j k) (j : Fin 128) :
    val_main_v72 (F := Ideal) x0 x1 x4 x5 x13 (ix1 j) = maskOf (scoreR a H wN2) j := by
  have hs := score_apply x0 x1 x4 x5 x13 a H ha hH
  have hmin : ∀ i : S_.Idx, val_main_v60 (F := Ideal) x0 x1 x4 x5 x13 i = Finset.univ.inf (scoreR a H wN2) := fun i =>
    hostMin_apply _ _ posInf_word _ hs i
  have hmin' : ∀ i : S_.Idx, val_main_v64 (F := Ideal) x0 x1 x4 x5 x13 i = Finset.univ.inf (scoreR a H wN2) := fun i =>
    hostMin_apply _ _ posInf_word _ hs i
  have hmax : ∀ i : S_.Idx, val_main_v63 (F := Ideal) x0 x1 x4 x5 x13 i = Finset.univ.sup (scoreR a H wN2) := fun i =>
    hostMax_apply _ _ negInf_word _ hs i
  rw [val_main_v72_apply, val_main_v71_apply, val_main_v70_apply, val_main_v68_apply, val_main_v62_apply,
    val_main_v61_apply, val_main_v67_apply, val_main_v66_apply, val_main_v65_apply, val_main_v69_apply,
    val_main_cst_18_apply, val_main_cst_17_apply, val_main_call6_v0_apply, val_main_call6_v1_apply,
    val_main_cst_19_apply, val_main_cst_20_apply, hs, hmin, hmin', hmax, select_lt]
  rfl

end Mask

theorem hm1_apply (x0 : (⟨S8192x1024, .f32⟩ : BufTy).Contents (Elt Ideal)) (x1 : (⟨S256, .f32⟩ : BufTy).Contents (Elt Ideal)) (x4 : (⟨S256x1024, .f32⟩ : BufTy).Contents (Elt Ideal)) (x5 : (⟨S256, .f32⟩ : BufTy).Contents (Elt Ideal)) (x13 : (⟨S128x256, .f32⟩ : BufTy).Contents (Elt Ideal)) (j : Fin 128) :
    val_main_v72 (F := Ideal) x0 x1 x4 x5 x13 (ix1 j)
      = maskOf (scoreR (fun b : Fin 8192 => layerRow (fun k : Fin 1024 => x0 (ix2 b k)) (fun (j : Fin 256) (k : Fin 1024) => x4 (ix2 j k)) (fun j : Fin 256 => x5 (ix1 j)) (fun j : Fin 256 => x1 (ix1 j))) (fun (j : Fin 128) (k : Fin 256) => x13 (ix2 j k)) wN2) j :=
  mask_apply x0 x1 x4 x5 x13 _ _ (x1_apply x0 x1 x4 x5) (fun _ _ => rfl) j

end Cert.ReferenceIdeal.RefHm1

end
-- ==== Proof.RefHm2.lean ====
/-
  The reference's third mask, entry by entry: the score of the second layer's output rows against the
  third table.
-/
import proofs.«172171_j13907104104967_2_alg».proof.Proof.Gen.ReferenceIdeal.Read
import proofs.«172171_j13907104104967_2_alg».proof.Proof.HebbSpec
import Idealize.ShloMosaic.Lib.Pipeline.Value
import Idealize.ShloMosaic.Lib.ValueIdx
import Idealize.ShloMosaic.Lib.ValueLayout
import Idealize.ShloMosaic.PureOps.Ideal.Laws
import Mathlib.Order.CompleteLattice.Finset

noncomputable section

open Idealize.ShloMosaic Idealize.ShloMosaic.TcCoe Idealize.ShloMosaic.ValueIdx

namespace Cert.ReferenceIdeal.RefHm2

open Cert.ReferenceIdeal Cert.ReferenceIdeal.Read Cert.Hebb

/-! ### The first layer's rows -/

theorem lidx33 (b : Fin 8192) (j : Fin 256) (k : Fin 1024) : lidx_main_v33 (ix2 b j) k = ix2 b k :=
  funext fun a => Fin.ext (by match a with | ⟨0, _⟩ => rfl | ⟨1, _⟩ => rfl)

theorem ridx33 (b : Fin 8192) (j : Fin 256) (k : Fin 1024) : idx_main_v32 (ridx_main_v33 (ix2 b j) k) = ix2 j k :=
  funext fun a => Fin.ext (by match a with | ⟨0, _⟩ => rfl | ⟨1, _⟩ => rfl)

theorem bidx35 (b : Fin 8192) (j : Fin 256) : idx_main_v34 (idx_main_v35 (ix2 b j)) = ix1 j :=
  funext fun a => Fin.ext (by match a with | ⟨0, _⟩ => rfl)

theorem bidx39 (b : Fin 8192) (j : Fin 256) : idx_main_v38 (idx_main_v39 (ix2 b j)) = ix1 j :=
  funext fun a => Fin.ext (by match a with | ⟨0, _⟩ => rfl)

/-- The first layer's output, row by row. -/
theorem x1_apply (x0 : (⟨S8192x1024, .f32⟩ : BufTy).Contents (Elt Ideal)) (x1 : (⟨S256, .f32⟩ : BufTy).Contents (Elt Ideal)) (x4 : (⟨S256x1024, .f32⟩ : BufTy).Contents (Elt Ideal)) (x5 : (⟨S256, .f32⟩ : BufTy).Contents (Elt Ideal)) (b : Fin 8192) (j : Fin 256) :
    val_main_v40 (F := Ideal) x0 x1 x4 x5 (ix2 b j) = layerRow (fun k : Fin 1024 => x0 (ix2 b k)) (fun (j : Fin 256) (k : Fin 1024) => x4 (ix2 j k)) (fun j : Fin 256 => x5 (ix1 j)) (fun j : Fin 256 => x1 (ix1 j)) j := by
  rw [val_main_v40_apply, val_main_v37_apply, val_main_v36_apply, val_main_v33_apply, val_main_v35_apply, val_main_v34_apply,
    val_main_call3_v0_apply, val_main_call3_cst_apply, val_main_v39_apply, val_main_v38_apply]
  simp only [val_main_v32_apply, lidx33, ridx33, bidx35, bidx39, Ideal.mulf_def, Ideal.maximumf_def, Ideal.addf_def, Ideal.ofBits_def]
  rfl

/-! ### The second layer's rows -/

theorem lidx74 (b : Fin 8192) (j : Fin 128) (k : Fin 256) : lidx_main_v74 (ix2 b j) k = ix2 b k :=
  funext fun a => Fin.ext (by match a with | ⟨0, _⟩ => rfl | ⟨1, _⟩ => rfl)

theorem ridx74 (b : Fin 8192) (j : Fin 128) (k : Fin 256) : idx_main_v73 (ridx_main_v74 (ix2 b j) k) = ix2 j k :=
  funext fun a => Fin.ext (by match a with | ⟨0, _⟩ => rfl | ⟨1, _⟩ => rfl)

theorem bidx76 (b : Fin 8192) (j : Fin 128) : idx_main_v75 (idx_main_v76 (ix2 b j)) = ix1 j :=
  funext fun a => Fin.ext (by match a with | ⟨0, _⟩ => rfl)

theorem bidx80 (b : Fin 8192) (j : Fin 128) : idx_main_v79 (idx_main_v80 (ix2 b j)) = ix1 j :=
  funext fun a => Fin.ext (by match a with | ⟨0, _⟩ => rfl)

/-- The second layer's output, row by row. -/
theorem x2_apply (x0 : (⟨S8192x1024, .f32⟩ : BufTy).Contents (Elt Ideal)) (x1 : (⟨S256, .f32⟩ : BufTy).Contents (Elt Ideal)) (x2 : (⟨S128, .f32⟩ : BufTy).Contents (Elt Ideal)) (x4 : (⟨S256x1024, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (b : Fin 8192) (j : Fin 128) :
    val_main_v81 (F := Ideal) x0 x1 x2 x4 x5 x6 x7 (ix2 b j) = (fun b : Fin 8192 => layerRow ((fun b : Fin 8192 => layerRow (fun k : Fin 1024 => x0 (ix2 b k)) (fun (j : Fin 256) (k : Fin 1024) => x4 (ix2 j k)) (fun j : Fin 256 => x5 (ix1 j)) (fun j : Fin 256 => x1 (ix1 j))) b) (fun (j : Fin 128) (k : Fin 256) => x6 (ix2 j k)) (fun j : Fin 128 => x7 (ix1 j)) (fun j : Fin 128 => x2 (ix1 j))) b j := by
  rw [val_main_v81_apply, val_main_v78_apply, val_main_v77_apply, val_main_v74_apply, val_main_v76_apply, val_main_v75_apply,
    val_main_call7_v0_apply, val_main_call7_cst_apply, val_main_v80_apply, val_main_v79_apply]
  simp only [val_main_v73_apply, lidx74, ridx74, bidx76, bidx80, x1_apply, Ideal.mulf_def, Ideal.maximumf_def, Ideal.addf_def,
    Ideal.ofBits_def]
  rfl

/-! ### The Hebbian chain over the second layer's rows -/

theorem nidx8 (b : Fin 8192) (k k' : Fin 128) : idx_main_call8_v1 (idx_main_call8_v2 (idx_main_v83 (ix2 b k))) k' = ix2 b k' :=
  funext fun a => Fin.ext (by match a with | ⟨0, _⟩ => rfl | ⟨1, _⟩ => rfl)

theorem lidx86 (b : Fin 8192) (j : Fin 64) (k : Fin 128) : lidx_main_v86 (ix2 b j) k = ix2 b k :=
  funext fun a => Fin.ext (by match a with | ⟨0, _⟩ => rfl | ⟨1, _⟩ => rfl)

theorem ridx86 (b : Fin 8192) (j : Fin 64) (k : Fin 128) : idx_main_v85 (ridx_main_v86 (ix2 b j) k) = ix2 j k :=
  funext fun a => Fin.ext (by match a with | ⟨0, _⟩ => rfl | ⟨1, _⟩ => rfl)

theorem nidx9 (b : Fin 8192) (j j' : Fin 64) : idx_main_call9_v1 (idx_main_call9_v2 (idx_main_v88 (ix2 b j))) j' = ix2 b j' :=
  funext fun a => Fin.ext (by match a with | ⟨0, _⟩ => rfl | ⟨1, _⟩ => rfl)

theorem lidx93 (j : Fin 64) (k : Fin 128) (b : Fin 8192) : lidx_main_v93 (ix2 j k) b = ix2 b j :=
  funext fun a => Fin.ext (by match a with | ⟨0, _⟩ => rfl | ⟨1, _⟩ => rfl)

theorem ridx93 (j : Fin 64) (k : Fin 128) (b : Fin 8192) : ridx_main_v93 (ix2 j k) b = ix2 b k :=
  funext fun a => Fin.ext (by match a with | ⟨0, _⟩ => rfl | ⟨1, _⟩ => rfl)

theorem idx100 (j : Fin 64) (k : Fin 128) : idx_main_v100 (ix1 j) k = ix2 j k :=
  funext fun a => Fin.ext (by match a with | ⟨0, _⟩ => rfl | ⟨1, _⟩ => rfl)

section Chain

variable (x0 : (⟨S8192x1024, .f32⟩ : BufTy).Contents (Elt Ideal)) (x1 : (⟨S256, .f32⟩ : BufTy).Contents (Elt Ideal)) (x2 : (⟨S128, .f32⟩ : BufTy).Contents (Elt Ideal)) (x4 : (⟨S256x1024, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x14 : (⟨S64x128, .f32⟩ : BufTy).Contents (Elt Ideal))

/-- The rows of the second layer's output, as one family. -/
def rowsOf : Fin 8192 → Fin 128 → EReal := fun b k => val_main_v81 (F := Ideal) x0 x1 x2 x4 x5 x6 x7 (ix2 b k)

theorem rows_def (b : Fin 8192) (k : Fin 128) :
    val_main_v81 (F := Ideal) x0 x1 x2 x4 x5 x6 x7 (ix2 b k) = rowsOf x0 x1 x2 x4 x5 x6 x7 b k := rfl

local notation "A" => rowsOf x0 x1 x2 x4 x5 x6 x7
local notation "H" => (fun (j : Fin 64) (k : Fin 128) => x14 (ix2 j k))

/-- A row over its norm. -/
theorem unit_apply (b : Fin 8192) (k : Fin 128) :
    val_main_v84 (F := Ideal) x0 x1 x2 x4 x5 x6 x7 (ix2 b k) = unitRow (A b) k := by
  rw [val_main_v84_apply, val_main_v83_apply, val_main_v82_apply, val_main_call8_v2_apply, val_main_call8_v1_apply,
    val_main_call8_cst_apply]
  simp only [val_main_call8_v0_apply, nidx8, rows_def, Ideal.hostDivf_def, Ideal.hostUnary_sqrt_def, Ideal.mulf_def,
    Ideal.ofBits_def, Ideal.ofBits_zero_f32, zero_add]
  rfl

/-- The unit row against the table. -/
theorem proj_apply (b : Fin 8192) (j : Fin 64) :
    val_main_v86 (F := Ideal) x0 x1 x2 x4 x5 x6 x7 x14 (ix2 b j) = projRow (A b) H j := by
  rw [val_main_v86_apply]
  simp only [val_main_v85_apply, lidx86, ridx86, unit_apply]
  rfl

/-- The projection over its norm. -/
theorem z_apply (b : Fin 8192) (j : Fin 64) :
    val_main_v89 (F := Ideal) x0 x1 x2 x4 x5 x6 x7 x14 (ix2 b j) = zRow (A b) H j := by
  rw [val_main_v89_apply, val_main_v88_apply, val_main_v87_apply, val_main_call9_v2_apply, val_main_call9_v1_apply,
    val_main_call9_cst_apply]
  simp only [val_main_call9_v0_apply, nidx9, proj_apply, Ideal.hostDivf_def, Ideal.hostUnary_sqrt_def, Ideal.mulf_def,
    Ideal.ofBits_def, Ideal.ofBits_zero_f32, zero_add]
  rfl

/-- The sum of all squares of z. -/
theorem sq_apply (i : S_.Idx) :
    val_main_v91 (F := Ideal) x0 x1 x2 x4 x5 x6 x7 x14 i = sqAll A H := by
  rw [val_main_v91_apply, val_main_cst_21_apply, sum_idx2]
  simp only [val_main_v90_apply, z_apply, Ideal.mulf_def, Ideal.ofBits_def, Ideal.ofBits_zero_f32, zero_add]
  rfl

/-- z against the unit rows, summed over the rows. -/
theorem zu_apply (j : Fin 64) (k : Fin 128) :
    val_main_v93 (F := Ideal) x0 x1 x2 x4 x5 x6 x7 x14 (ix2 j k) = ∑ b : Fin 8192, zRow (A b) H j * unitRow (A b) k := by
  rw [val_main_v93_apply]
  simp only [lidx93, ridx93, z_apply, unit_apply]

/-- One entry of the updated table. -/
theorem upd_apply (j : Fin 64) (k : Fin 128) :
    val_main_v99 (F := Ideal) x0 x1 x2 x4 x5 x6 x7 x14 (ix2 j k)
      = x14 (ix2 j k) + w1 * ((∑ b : Fin 8192, zRow (A b) H j * unitRow (A b) k) - Ideal.div (sqAll A H) wN3 * x14 (ix2 j k)) := by
  rw [val_main_v99_apply, val_main_v98_apply, val_main_v97_apply, val_main_cst_23_apply, val_main_v96_apply, zu_apply,
    val_main_v95_apply, val_main_v94_apply, val_main_v92_apply, sq_apply, val_main_cst_22_apply]
  rfl

/-- The score of one unit of the third table. -/
theorem score_apply (j : Fin 64) :
    val_main_v100 (F := Ideal) x0 x1 x2 x4 x5 x6 x7 x14 (ix1 j) = scoreR A H wN3 j := by
  rw [val_main_v100_apply, val_main_cst_24_apply]
  simp only [idx100, upd_apply, Ideal.ofBits_def, Ideal.ofBits_zero_f32, zero_add]
  rfl

end Chain

/-! ### The least and the greatest score, and the threshold -/

/-- An infimum over the one-axis index set is the infimum over the axis. -/
theorem inf_idx64 (y : S64.Idx → EReal) : Finset.univ.inf y = Finset.univ.inf (fun j : Fin 64 => y (ix1 j)) := by
  apply le_antisymm
  · exact Finset.le_inf fun j _ => Finset.inf_le (Finset.mem_univ _)
  · refine Finset.le_inf fun i _ => ?_
    rw [eq_ix1 i]
    exact Finset.inf_le (f := fun j : Fin 64 => y (ix1 j)) (Finset.mem_univ (i 0))

/-- A supremum over the one-axis index set is the supremum over the axis. -/
theorem sup_idx64 (y : S64.Idx → EReal) : Finset.univ.sup y = Finset.univ.sup (fun j : Fin 64 => y (ix1 j)) := by
  apply le_antisymm
  · refine Finset.sup_le fun i _ => ?_
    rw [eq_ix1 i]
    exact Finset.le_sup (f := fun j : Fin 64 => y (ix1 j)) (Finset.mem_univ (i 0))
  · exact Finset.sup_le fun j _ => Finset.le_sup (Finset.mem_univ _)

/-- The minimum, from +inf, over the one axis is the infimum. -/
theorem reduce_min64 (y : (⟨S64, .f32⟩ : BufTy).Contents (Elt Ideal)) (i : S_.Idx) :
    Host.reduce (FloatOps.minimumf (F := Ideal) (φ := .f32)) y (constant (F := Ideal) S_ .f32 0x7F800000#32) Gen.reducesTo_S64_S_d0 Gen.h_S_ i
      = Finset.univ.inf (fun j : Fin 64 => y (ix1 j)) := by
  rw [Host.reduce_eq_fold, Finset.filter_true_of_mem fun i _ => funext fun b => b.elim0]
  have hb : (constant (F := Ideal) S_ .f32 0x7F800000#32) (Shape.Idx.first Gen.h_S_) = (⊤ : EReal) := by
    show Ideal.ofBits .f32 0x7F800000#32 = ⊤
    simp [Ideal.ofBits, Ideal.ieee]
  rw [hb]
  exact inf_idx64 y

/-- The maximum, from -inf, over the one axis is the supremum. -/
theorem reduce_max64 (y : (⟨S64, .f32⟩ : BufTy).Contents (Elt Ideal)) (i : S_.Idx) :
    Host.reduce (FloatOps.maximumf (F := Ideal) (φ := .f32)) y (constant (F := Ideal) S_ .f32 0xFF800000#32) Gen.reducesTo_S64_S_d0 Gen.h_S_ i
      = Finset.univ.sup (fun j : Fin 64 => y (ix1 j)) := by
  rw [Host.reduce_eq_fold, Finset.filter_true_of_mem fun i _ => funext fun b => b.elim0]
  have hb : (constant (F := Ideal) S_ .f32 0xFF800000#32) (Shape.Idx.first Gen.h_S_) = (⊥ : EReal) := by
    show Ideal.ofBits .f32 0xFF800000#32 = ⊥
    simp [Ideal.ofBits, Ideal.ieee]
  rw [hb]
  exact sup_idx64 y

/-- A select on "less than" is the if. -/
theorem select_lt (x y a b : EReal) :
    Scalar.select (FloatOps.cmpf (F := Ideal) (φ := .f32) .olt x y) a b = if x < y then a else b := by
  by_cases h : x < y
  · have hc : FloatOps.cmpf (F := Ideal) (φ := .f32) .olt x y = 1#1 := by
      show BitVec.ofBool (decide (x < y)) = 1#1
      rw [decide_eq_true h]; rfl
    rw [hc, select_one, if_pos h]
  · have hc : FloatOps.cmpf (F := Ideal) (φ := .f32) .olt x y = 0#1 := by
      show BitVec.ofBool (decide (x < y)) = 0#1
      rw [decide_eq_false h]; rfl
    rw [hc, select_zero, if_neg h]

section Mask

variable (x0 : (⟨S8192x1024, .f32⟩ : BufTy).Contents (Elt Ideal)) (x1 : (⟨S256, .f32⟩ : BufTy).Contents (Elt Ideal)) (x2 : (⟨S128, .f32⟩ : BufTy).Contents (Elt Ideal)) (x4 : (⟨S256x1024, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x14 : (⟨S64x128, .f32⟩ : BufTy).Contents (Elt Ideal))

local notation "A" => rowsOf x0 x1 x2 x4 x5 x6 x7
local notation "H" => (fun (j : Fin 64) (k : Fin 128) => x14 (ix2 j k))

theorem min101 (i : S_.Idx) : val_main_v101 (F := Ideal) x0 x1 x2 x4 x5 x6 x7 x14 i = Finset.univ.inf (scoreR A H wN3) := by
  unfold val_main_v101 val_main_cst_25
  rw [reduce_min64]
  simp only [score_apply]

theorem min105 (i : S_.Idx) : val_main_v105 (F := Ideal) x0 x1 x2 x4 x5 x6 x7 x14 i = Finset.univ.inf (scoreR A H wN3) := by
  unfold val_main_v105 val_main_cst_27
  rw [reduce_min64]
  simp only [score_apply]

theorem max104 (i : S_.Idx) : val_main_v104 (F := Ideal) x0 x1 x2 x4 x5 x6 x7 x14 i = Finset.univ.sup (scoreR A H wN3) := by
  unfold val_main_v104 val_main_cst_26
  rw [reduce_max64]
  simp only [score_apply]

/-- The third mask, over the family of the second layer's rows. -/
theorem mask_apply (j : Fin 64) :
    val_main_v113 (F := Ideal) x0 x1 x2 x4 x5 x6 x7 x14 (ix1 j) = maskOf (scoreR A H wN3) j := by
  rw [val_main_v113_apply, val_main_v112_apply, val_main_v111_apply, val_main_v109_apply, val_main_v103_apply, val_main_v102_apply,
    val_main_v108_apply, val_main_v107_apply, val_main_v106_apply, val_main_v110_apply, val_main_cst_29_apply, val_main_cst_28_apply,
    val_main_call10_v0_apply, val_main_call10_v1_apply, val_main_cst_30_apply, val_main_cst_31_apply, min101, max104, min105,
    score_apply]
  simp only [Ideal.hostDivf_def, Ideal.subf_def, Ideal.addf_def, Ideal.ofBits_def]
  rw [select_lt]
  rfl

end Mask

theorem hm2_apply (x0 : (⟨S8192x1024, .f32⟩ : BufTy).Contents (Elt Ideal)) (x1 : (⟨S256, .f32⟩ : BufTy).Contents (Elt Ideal)) (x2 : (⟨S128, .f32⟩ : BufTy).Contents (Elt Ideal)) (x4 : (⟨S256x1024, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x14 : (⟨S64x128, .f32⟩ : BufTy).Contents (Elt Ideal)) (j : Fin 64) :
    val_main_v113 (F := Ideal) x0 x1 x2 x4 x5 x6 x7 x14 (ix1 j)
      = maskOf (scoreR (fun b : Fin 8192 => layerRow ((fun b : Fin 8192 => layerRow (fun k : Fin 1024 => x0 (ix2 b k)) (fun (j : Fin 256) (k : Fin 1024) => x4 (ix2 j k)) (fun j : Fin 256 => x5 (ix1 j)) (fun j : Fin 256 => x1 (ix1 j))) b) (fun (j : Fin 128) (k : Fin 256) => x6 (ix2 j k)) (fun j : Fin 128 => x7 (ix1 j)) (fun j : Fin 128 => x2 (ix1 j))) (fun (j : Fin 64) (k : Fin 128) => x14 (ix2 j k)) wN3) j := by
  have hA : rowsOf x0 x1 x2 x4 x5 x6 x7 = (fun b : Fin 8192 => layerRow ((fun b : Fin 8192 => layerRow (fun k : Fin 1024 => x0 (ix2 b k)) (fun (j : Fin 256) (k : Fin 1024) => x4 (ix2 j k)) (fun j : Fin 256 => x5 (ix1 j)) (fun j : Fin 256 => x1 (ix1 j))) b) (fun (j : Fin 128) (k : Fin 256) => x6 (ix2 j k)) (fun j : Fin 128 => x7 (ix1 j)) (fun j : Fin 128 => x2 (ix1 j))) :=
    funext fun b => funext fun k => x2_apply x0 x1 x2 x4 x5 x6 x7 b k
  rw [← hA]
  exact mask_apply x0 x1 x2 x4 x5 x6 x7 x14 j

end Cert.ReferenceIdeal.RefHm2

end
-- ==== Proof.RefOut.lean ====
/-
  The reference's main output, entry by entry: four linear layers, the first three masked.

  Each layer is read at [b, j] from its input taken as an opaque family of rows: the contraction runs over the
  input's row b against row j of the weight table (the program contracts against the table's transpose, which
  is the same sum), the bias and the mask are read at j, and the rectifier compares with the zero word.  The
  output is the four readings composed.
-/
import proofs.«172171_j13907104104967_2_alg».proof.Proof.Gen.ReferenceIdeal.Read
import proofs.«172171_j13907104104967_2_alg».proof.Proof.HebbSpec
import Idealize.ShloMosaic.Lib.Pipeline.Value
import Idealize.ShloMosaic.Lib.ValueIdx
import Idealize.ShloMosaic.Lib.ValueLayout
import Idealize.ShloMosaic.PureOps.Ideal.Laws
import Mathlib.Order.CompleteLattice.Finset

noncomputable section

open Idealize.ShloMosaic Idealize.ShloMosaic.TcCoe Idealize.ShloMosaic.ValueIdx

namespace Cert.ReferenceIdeal.RefOut

open Cert.ReferenceIdeal Cert.ReferenceIdeal.Read Cert.Hebb

/-- The first masked layer at [b, j]: max (x_b . W1_j + b1_j, 0) * m1_j. -/
theorem layer1_apply (x0 : (⟨S8192x1024, .f32⟩ : BufTy).Contents (Elt Ideal)) (x1 : (⟨S256, .f32⟩ : BufTy).Contents (Elt Ideal)) (x4 : (⟨S256x1024, .f32⟩ : BufTy).Contents (Elt Ideal)) (x5 : (⟨S256, .f32⟩ : BufTy).Contents (Elt Ideal)) (b : Fin 8192) (j : Fin 256) :
    val_main_v40 (F := Ideal) x0 x1 x4 x5 (ix2 b j)
      = layerRow (fun k : Fin 1024 => x0 (ix2 b k)) (fun (j : Fin 256) (k : Fin 1024) => x4 (ix2 j k))
          (fun j : Fin 256 => x5 (ix1 j)) (fun j : Fin 256 => x1 (ix1 j)) j := by
  have el : ∀ k : Fin 1024, lidx_main_v33 (ix2 b j) k = ix2 b k := fun k =>
    funext fun a => Fin.ext (by match a with | ⟨0, _⟩ => rfl | ⟨1, _⟩ => rfl)
  have er : ∀ k : Fin 1024, idx_main_v32 (ridx_main_v33 (ix2 b j) k) = ix2 j k := fun k =>
    funext fun a => Fin.ext (by match a with | ⟨0, _⟩ => rfl | ⟨1, _⟩ => rfl)
  have eb : idx_main_v34 (idx_main_v35 (ix2 b j)) = ix1 j :=
    funext fun a => Fin.ext (by match a with | ⟨0, _⟩ => rfl)
  have em : idx_main_v38 (idx_main_v39 (ix2 b j)) = ix1 j :=
    funext fun a => Fin.ext (by match a with | ⟨0, _⟩ => rfl)
  rw [val_main_v40_apply, val_main_v37_apply, val_main_v36_apply, val_main_v33_apply, val_main_v35_apply, val_main_v34_apply,
    val_main_call3_v0_apply, val_main_call3_cst_apply, val_main_v39_apply, val_main_v38_apply, eb, em]
  simp only [val_main_v32_apply, el, er, Ideal.mulf_def, Ideal.addf_def, Ideal.maximumf_def, Ideal.ofBits_def]
  rfl

/-- The second masked layer at [b, j], from the first layer's output as an opaque family. -/
theorem layer2_apply (x0 : (⟨S8192x1024, .f32⟩ : BufTy).Contents (Elt Ideal)) (x1 : (⟨S256, .f32⟩ : BufTy).Contents (Elt Ideal)) (x2 : (⟨S128, .f32⟩ : BufTy).Contents (Elt Ideal)) (x4 : (⟨S256x1024, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (b : Fin 8192) (j : Fin 128) :
    val_main_v81 (F := Ideal) x0 x1 x2 x4 x5 x6 x7 (ix2 b j)
      = layerRow (fun k : Fin 256 => val_main_v40 (F := Ideal) x0 x1 x4 x5 (ix2 b k)) (fun (j : Fin 128) (k : Fin 256) => x6 (ix2 j k))
          (fun j : Fin 128 => x7 (ix1 j)) (fun j : Fin 128 => x2 (ix1 j)) j := by
  have el : ∀ k : Fin 256, lidx_main_v74 (ix2 b j) k = ix2 b k := fun k =>
    funext fun a => Fin.ext (by match a with | ⟨0, _⟩ => rfl | ⟨1, _⟩ => rfl)
  have er : ∀ k : Fin 256, idx_main_v73 (ridx_main_v74 (ix2 b j) k) = ix2 j k := fun k =>
    funext fun a => Fin.ext (by match a with | ⟨0, _⟩ => rfl | ⟨1, _⟩ => rfl)
  have eb : idx_main_v75 (idx_main_v76 (ix2 b j)) = ix1 j :=
    funext fun a => Fin.ext (by match a with | ⟨0, _⟩ => rfl)
  have em : idx_main_v79 (idx_main_v80 (ix2 b j)) = ix1 j :=
    funext fun a => Fin.ext (by match a with | ⟨0, _⟩ => rfl)
  rw [val_main_v81_apply, val_main_v78_apply, val_main_v77_apply, val_main_v74_apply, val_main_v76_apply, val_main_v75_apply,
    val_main_call7_v0_apply, val_main_call7_cst_apply, val_main_v80_apply, val_main_v79_apply, eb, em]
  simp only [val_main_v73_apply, el, er, Ideal.mulf_def, Ideal.addf_def, Ideal.maximumf_def, Ideal.ofBits_def]
  rfl

/-- The third masked layer at [b, j], from the second layer's output as an opaque family. -/
theorem layer3_apply (x0 : (⟨S8192x1024, .f32⟩ : BufTy).Contents (Elt Ideal)) (x1 : (⟨S256, .f32⟩ : BufTy).Contents (Elt Ideal)) (x2 : (⟨S128, .f32⟩ : BufTy).Contents (Elt Ideal)) (x3 : (⟨S64, .f32⟩ : BufTy).Contents (Elt Ideal)) (x4 : (⟨S256x1024, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (b : Fin 8192) (j : Fin 64) :
    val_main_v122 (F := Ideal) x0 x1 x2 x3 x4 x5 x6 x7 x8 x9 (ix2 b j)
      = layerRow (fun k : Fin 128 => val_main_v81 (F := Ideal) x0 x1 x2 x4 x5 x6 x7 (ix2 b k)) (fun (j : Fin 64) (k : Fin 128) => x8 (ix2 j k))
          (fun j : Fin 64 => x9 (ix1 j)) (fun j : Fin 64 => x3 (ix1 j)) j := by
  have el : ∀ k : Fin 128, lidx_main_v115 (ix2 b j) k = ix2 b k := fun k =>
    funext fun a => Fin.ext (by match a with | ⟨0, _⟩ => rfl | ⟨1, _⟩ => rfl)
  have er : ∀ k : Fin 128, idx_main_v114 (ridx_main_v115 (ix2 b j) k) = ix2 j k := fun k =>
    funext fun a => Fin.ext (by match a with | ⟨0, _⟩ => rfl | ⟨1, _⟩ => rfl)
  have eb : idx_main_v116 (idx_main_v117 (ix2 b j)) = ix1 j :=
    funext fun a => Fin.ext (by match a with | ⟨0, _⟩ => rfl)
  have em : idx_main_v120 (idx_main_v121 (ix2 b j)) = ix1 j :=
    funext fun a => Fin.ext (by match a with | ⟨0, _⟩ => rfl)
  rw [val_main_v122_apply, val_main_v119_apply, val_main_v118_apply, val_main_v115_apply, val_main_v117_apply, val_main_v116_apply,
    val_main_call11_v0_apply, val_main_call11_cst_apply, val_main_v121_apply, val_main_v120_apply, eb, em]
  simp only [val_main_v114_apply, el, er, Ideal.mulf_def, Ideal.addf_def, Ideal.maximumf_def, Ideal.ofBits_def]
  rfl

/-- The last layer at [b, o], from the third layer's output as an opaque family: max (a_b . W4_o + b4_o, 0). -/
theorem last_apply (x0 : (⟨S8192x1024, .f32⟩ : BufTy).Contents (Elt Ideal)) (x1 : (⟨S256, .f32⟩ : BufTy).Contents (Elt Ideal)) (x2 : (⟨S128, .f32⟩ : BufTy).Contents (Elt Ideal)) (x3 : (⟨S64, .f32⟩ : BufTy).Contents (Elt Ideal)) (x4 : (⟨S256x1024, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S1000x64, .f32⟩ : BufTy).Contents (Elt Ideal)) (x11 : (⟨S1000, .f32⟩ : BufTy).Contents (Elt Ideal)) (b : Fin 8192) (o : Fin 1000) :
    val_main_v128 (F := Ideal) x0 x1 x2 x3 x4 x5 x6 x7 x8 x9 x10 x11 (ix2 b o)
      = lastRow (fun k : Fin 64 => val_main_v122 (F := Ideal) x0 x1 x2 x3 x4 x5 x6 x7 x8 x9 (ix2 b k))
          (fun (o : Fin 1000) (k : Fin 64) => x10 (ix2 o k)) (fun o : Fin 1000 => x11 (ix1 o)) o := by
  have el : ∀ k : Fin 64, lidx_main_v124 (ix2 b o) k = ix2 b k := fun k =>
    funext fun a => Fin.ext (by match a with | ⟨0, _⟩ => rfl | ⟨1, _⟩ => rfl)
  have er : ∀ k : Fin 64, idx_main_v123 (ridx_main_v124 (ix2 b o) k) = ix2 o k := fun k =>
    funext fun a => Fin.ext (by match a with | ⟨0, _⟩ => rfl | ⟨1, _⟩ => rfl)
  have eb : idx_main_v125 (idx_main_v126 (ix2 b o)) = ix1 o :=
    funext fun a => Fin.ext (by match a with | ⟨0, _⟩ => rfl)
  rw [val_main_v128_apply, val_main_v127_apply, val_main_v124_apply, val_main_v126_apply, val_main_v125_apply,
    val_main_call12_v0_apply, val_main_call12_cst_apply, eb]
  simp only [val_main_v123_apply, el, er, Ideal.mulf_def, Ideal.addf_def, Ideal.maximumf_def, Ideal.ofBits_def]
  rfl

/-- The main output at [b, o]: the four layers composed, row b of the input through each in turn. -/
theorem out_apply (x0 : (⟨S8192x1024, .f32⟩ : BufTy).Contents (Elt Ideal)) (x1 : (⟨S256, .f32⟩ : BufTy).Contents (Elt Ideal)) (x2 : (⟨S128, .f32⟩ : BufTy).Contents (Elt Ideal)) (x3 : (⟨S64, .f32⟩ : BufTy).Contents (Elt Ideal)) (x4 : (⟨S256x1024, .f32⟩ : BufTy).Contents (Elt Ideal)) (x5 : (⟨S256, .f32⟩ : BufTy).Contents (Elt Ideal)) (x6 : (⟨S128x256, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S1000x64, .f32⟩ : BufTy).Contents (Elt Ideal)) (x11 : (⟨S1000, .f32⟩ : BufTy).Contents (Elt Ideal)) (b : Fin 8192) (o : Fin 1000) :
    val_main_v128 (F := Ideal) x0 x1 x2 x3 x4 x5 x6 x7 x8 x9 x10 x11 (ix2 b o)
      = lastRow ((fun b : Fin 8192 => layerRow ((fun b : Fin 8192 => layerRow ((fun b : Fin 8192 => layerRow (fun k : Fin 1024 => x0 (ix2 b k)) (fun (j : Fin 256) (k : Fin 1024) => x4 (ix2 j k)) (fun j : Fin 256 => x5 (ix1 j)) (fun j : Fin 256 => x1 (ix1 j))) b) (fun (j : Fin 128) (k : Fin 256) => x6 (ix2 j k)) (fun j : Fin 128 => x7 (ix1 j)) (fun j : Fin 128 => x2 (ix1 j))) b) (fun (j : Fin 64) (k : Fin 128) => x8 (ix2 j k)) (fun j : Fin 64 => x9 (ix1 j)) (fun j : Fin 64 => x3 (ix1 j))) b) (fun (o : Fin 1000) (k : Fin 64) => x10 (ix2 o k)) (fun o : Fin 1000 => x11 (ix1 o)) o := by
  rw [last_apply]
  simp only [layer3_apply, layer2_apply, layer1_apply]

end Cert.ReferenceIdeal.RefOut

end
-- ==== Proof.PreDecode.lean ====
/-
  What the precondition says, read at the extended reals: every entry of every input is a real number, and in each
  of the three Hebbian layers every input row and every projected row has a nonzero (hence positive) norm, so that no
  division of the two programs is by zero.
-/
import proofs.«172171_j13907104104967_2_alg».proof.Pre_finite_inputs
import proofs.«172171_j13907104104967_2_alg».proof.Proof.Gen.Pre_finite_inputs
import proofs.«172171_j13907104104967_2_alg».proof.Proof.HebbAlgebra
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

open Idealize.ShloMosaic Idealize.ShloMosaic.TcCoe Idealize.ShloMosaic.ValueIdx

namespace Cert.PreDecode

open Cert.Hebb

/-- The domain the precondition states, over the fifteen input arrays. -/
structure Dom (x : FVec Ideal Cert.Pre_finite_inputs.S8192x1024 .f32) (m0 : FVec Ideal Cert.Pre_finite_inputs.S256 .f32) (m1 : FVec Ideal Cert.Pre_finite_inputs.S128 .f32) (m2 : FVec Ideal Cert.Pre_finite_inputs.S64 .f32) (W1 : FVec Ideal Cert.Pre_finite_inputs.S256x1024 .f32) (b1 : FVec Ideal Cert.Pre_finite_inputs.S256 .f32) (W2 : FVec Ideal Cert.Pre_finite_inputs.S128x256 .f32) (b2 : FVec Ideal Cert.Pre_finite_inputs.S128 .f32) (W3 : FVec Ideal Cert.Pre_finite_inputs.S64x128 .f32) (b3 : FVec Ideal Cert.Pre_finite_inputs.S64 .f32) (W4 : FVec Ideal Cert.Pre_finite_inputs.S1000x64 .f32) (b4 : FVec Ideal Cert.Pre_finite_inputs.S1000 .f32) (H1 : FVec Ideal Cert.Pre_finite_inputs.S256x1024 .f32) (H2 : FVec Ideal Cert.Pre_finite_inputs.S128x256 .f32) (H3 : FVec Ideal Cert.Pre_finite_inputs.S64x128 .f32) : Prop where
  fx : ∀ i, Fin' (x i)
  fm0 : ∀ i, Fin' (m0 i)
  fm1 : ∀ i, Fin' (m1 i)
  fm2 : ∀ i, Fin' (m2 i)
  fW1 : ∀ i, Fin' (W1 i)
  fb1 : ∀ i, Fin' (b1 i)
  fW2 : ∀ i, Fin' (W2 i)
  fb2 : ∀ i, Fin' (b2 i)
  fW3 : ∀ i, Fin' (W3 i)
  fb3 : ∀ i, Fin' (b3 i)
  fW4 : ∀ i, Fin' (W4 i)
  fb4 : ∀ i, Fin' (b4 i)
  fH1 : ∀ i, Fin' (H1 i)
  fH2 : ∀ i, Fin' (H2 i)
  fH3 : ∀ i, Fin' (H3 i)
  /-- layer 1: the input rows, and their projections on H1's rows, have positive norm -/
  n1 : ∀ b : Fin 8192, w0 < Ideal.sqrt (∑ k : Fin 1024, (fun (b : Fin 8192) (k : Fin 1024) => x (ix2 b k)) b k * (fun (b : Fin 8192) (k : Fin 1024) => x (ix2 b k)) b k)
  p1 : ∀ b : Fin 8192, w0 < Ideal.sqrt (∑ j : Fin 256, projRow ((fun (b : Fin 8192) (k : Fin 1024) => x (ix2 b k)) b) (fun (j : Fin 256) (k : Fin 1024) => H1 (ix2 j k)) j * projRow ((fun (b : Fin 8192) (k : Fin 1024) => x (ix2 b k)) b) (fun (j : Fin 256) (k : Fin 1024) => H1 (ix2 j k)) j)
  /-- layer 2: the first layer's output rows, and their projections on H2's rows -/
  n2 : ∀ b : Fin 8192, w0 < Ideal.sqrt (∑ k : Fin 256, (fun b : Fin 8192 => layerRow (fun k : Fin 1024 => x (ix2 b k)) (fun (j : Fin 256) (k : Fin 1024) => W1 (ix2 j k)) (fun j : Fin 256 => b1 (ix1 j)) (fun j : Fin 256 => m0 (ix1 j))) b k * (fun b : Fin 8192 => layerRow (fun k : Fin 1024 => x (ix2 b k)) (fun (j : Fin 256) (k : Fin 1024) => W1 (ix2 j k)) (fun j : Fin 256 => b1 (ix1 j)) (fun j : Fin 256 => m0 (ix1 j))) b k)
  p2 : ∀ b : Fin 8192, w0 < Ideal.sqrt (∑ j : Fin 128, projRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => H2 (ix2 j k)) j * projRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => H2 (ix2 j k)) j)
  /-- layer 3: the second layer's output rows, and their projections on H3's rows -/
  n3 : ∀ b : Fin 8192, w0 < Ideal.sqrt (∑ k : Fin 128, (fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) b k * (fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) b k)
  p3 : ∀ b : Fin 8192, w0 < Ideal.sqrt (∑ j : Fin 64, projRow ((fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) b) (fun (j : Fin 64) (k : Fin 128) => H3 (ix2 j k)) j * projRow ((fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) b) (fun (j : Fin 64) (k : Fin 128) => H3 (ix2 j k)) j)

open Cert.Pre_finite_inputs Cert.Pre_finite_inputs.Facts

instance : Subsingleton S_.Idx := ⟨fun a b => funext fun d => d.elim0⟩

/-- The word of +inf is the top of the extended reals. -/
theorem inf_word : Ideal.ofBits .f32 0x7F800000#32 = ⊤ := by simp [Ideal.ofBits, Ideal.ieee]

/-- |x| < +inf says that x is a real number. -/
theorem fin_of_abs_lt (x : EReal)
    (h : FloatOps.cmpf (F := Ideal) (φ := .f32) .olt (FloatOps.hostAbsf (F := Ideal) (φ := .f32) x) (Ideal.ofBits .f32 0x7F800000#32) = 1#1) :
    Fin' x := by
  rw [inf_word] at h
  change BitVec.ofBool (decide (max x (-x) < ⊤)) = 1#1 at h
  rw [StableHlo.Predicate.ofBool_eq_one_iff, decide_eq_true_eq] at h
  constructor
  · rintro rfl; simp at h
  · rintro rfl; simp at h

/-- all (|a| < +inf): every entry of a is a real number. -/
theorem fin_of_all {S : Shape} {axes : List (Fin S.rank)} (a : FVec Ideal S .f32)
    (hb : S_.BroadcastsInDim S (![] : Fin 0 → Fin S.rank)) (hr : S.ReducesTo axes S_) (hu : 0 < S_.numel) (init : IVec S_ 1)
    (e : Host.reduce IntOp.andi (cmpf .olt (Host.absf a) (broadcastInDim S ![] hb (constant (F := Ideal) S_ .f32 0x7F800000#32))) init hr hu ix0 = 1#1)
    (i : S.Idx) : Fin' (a i) :=
  fin_of_abs_lt (a i) (Host.reduce_andi_all _ init hr hu ix0 e i)

/-- all (n > 0) over a column: every entry of n is above zero. -/
theorem pos_of_all (n : FVec Ideal S8192x1 .f32) (init : IVec S_ 1)
    (e : Host.reduce IntOp.andi (cmpf .ogt n (broadcastInDim S8192x1 ![] bcast_S_S8192x1 (constant (F := Ideal) S_ .f32 0x00000000#32))) init reducesTo_S8192x1_S_d0_1 h_S_ ix0 = 1#1)
    (b : Fin 8192) : w0 < n (ix2 b 0) := by
  have h1 := Host.reduce_andi_all _ init reducesTo_S8192x1_S_d0_1 h_S_ ix0 e (ix2 b 0)
  change BitVec.ofBool (decide (Ideal.ofBits .f32 0x00000000#32 < n (ix2 b 0))) = 1#1 at h1
  rw [StableHlo.Predicate.ofBool_eq_one_iff, decide_eq_true_eq] at h1
  exact h1

/-- A vector kept as a column reads, at row b, the vector at b. -/
theorem col_apply (v : FVec Ideal S8192 .f32) (b : Fin 8192) :
    broadcastInDim S8192x1 ![0] bcast_S8192_S8192x1_0 v (ix2 b 0) = v (ix1 b) :=
  broadcastInDim_apply _ bcast_S8192_S8192x1_0 v (ix2 b 0) (ix1 b) (fun a => match a with
    | ⟨0, _⟩ => by show b.val = if (8192 : Nat) = 1 then 0 else b.val; rw [if_neg (by decide)])

/-- The Euclidean norm of a row. -/
def sqn {K : Nat} (v : Fin K → EReal) : EReal := Ideal.sqrt (∑ k, v k * v k)

/-- The host's sum along the rows of an [8192, 1024] array, from the zero word: at row b, the sum of the row. -/
theorem rsum_apply_1024 (y : FVec Ideal S8192x1024 .f32) (b : Fin 8192) :
    (Host.reduceAdd y (constant (F := Ideal) S_ .f32 0x00000000#32) reducesTo_S8192x1024_S8192_d1 h_S_) (ix1 b) = ∑ k : Fin 1024, y (ix2 b k) := by
  simp only [Host.reduceAdd, Ideal.hostReduceAdd_def]
  rw [Ideal.hostReduceAdd_single reducesTo_S8192x1024_S8192_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The precondition's norm of the rows of an [8192, 1024] array: at row b, the root of the sum of the row's squares. -/
theorem nrm_apply_1024 (a : FVec Ideal S8192x1024 .f32) (b : Fin 8192) :
    (Host.sqrt (broadcastInDim S8192x1 ![0] bcast_S8192_S8192x1_0 (Host.reduceAdd (mulf a a) (constant (F := Ideal) S_ .f32 0x00000000#32) reducesTo_S8192x1024_S8192_d1 h_S_))) (ix2 b 0) = Ideal.sqrt (∑ k : Fin 1024, a (ix2 b k) * a (ix2 b k)) := by
  show Ideal.sqrt (broadcastInDim S8192x1 ![0] bcast_S8192_S8192x1_0 (Host.reduceAdd (mulf a a) (constant (F := Ideal) S_ .f32 0x00000000#32) reducesTo_S8192x1024_S8192_d1 h_S_) (ix2 b 0)) = _
  rw [col_apply, rsum_apply_1024]
  rfl

/-- A column laid along the rows of an [8192, 1024] array reads, at (b, k), the column at b. -/
theorem rowb_apply_1024 (n : FVec Ideal S8192x1 .f32) (b : Fin 8192) (k : Fin 1024) :
    broadcastInDim S8192x1024 ![0, 1] bcast_S8192x1_S8192x1024_0_1 n (ix2 b k) = n (ix2 b 0) :=
  broadcastInDim_apply _ bcast_S8192x1_S8192x1024_0_1 n (ix2 b k) (ix2 b 0) (fun a => match a with
    | ⟨0, _⟩ => by show b.val = if (8192 : Nat) = 1 then 0 else b.val; rw [if_neg (by decide)]
    | ⟨1, _⟩ => by show 0 = if (1 : Nat) = 1 then 0 else k.val; rw [if_pos rfl])

/-- The precondition's a / |a| of an [8192, 1024] array is, row by row, the unit row. -/
theorem unit_apply_1024 (a : FVec Ideal S8192x1024 .f32) (b : Fin 8192) (k : Fin 1024) :
    (Host.divf a (broadcastInDim S8192x1024 ![0, 1] bcast_S8192x1_S8192x1024_0_1 (Host.sqrt (broadcastInDim S8192x1 ![0] bcast_S8192_S8192x1_0 (Host.reduceAdd (mulf a a) (constant (F := Ideal) S_ .f32 0x00000000#32) reducesTo_S8192x1024_S8192_d1 h_S_))))) (ix2 b k)
      = unitRow (fun k : Fin 1024 => a (ix2 b k)) k := by
  show Ideal.div (a (ix2 b k)) (broadcastInDim S8192x1024 ![0, 1] bcast_S8192x1_S8192x1024_0_1 (Host.sqrt (broadcastInDim S8192x1 ![0] bcast_S8192_S8192x1_0 (Host.reduceAdd (mulf a a) (constant (F := Ideal) S_ .f32 0x00000000#32) reducesTo_S8192x1024_S8192_d1 h_S_))) (ix2 b k)) = _
  rw [rowb_apply_1024, nrm_apply_1024]
  rfl

theorem nrm_row_1024 (a : FVec Ideal S8192x1024 .f32) (b : Fin 8192) :
    (Host.sqrt (broadcastInDim S8192x1 ![0] bcast_S8192_S8192x1_0 (Host.reduceAdd (mulf a a) (constant (F := Ideal) S_ .f32 0x00000000#32) reducesTo_S8192x1024_S8192_d1 h_S_))) (ix2 b 0) = sqn (fun k : Fin 1024 => a (ix2 b k)) := nrm_apply_1024 a b

/-- The host's sum along the rows of an [8192, 256] array, from the zero word: at row b, the sum of the row. -/
theorem rsum_apply_256 (y : FVec Ideal S8192x256 .f32) (b : Fin 8192) :
    (Host.reduceAdd y (constant (F := Ideal) S_ .f32 0x00000000#32) reducesTo_S8192x256_S8192_d1 h_S_) (ix1 b) = ∑ k : Fin 256, y (ix2 b k) := by
  simp only [Host.reduceAdd, Ideal.hostReduceAdd_def]
  rw [Ideal.hostReduceAdd_single reducesTo_S8192x256_S8192_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The precondition's norm of the rows of an [8192, 256] array: at row b, the root of the sum of the row's squares. -/
theorem nrm_apply_256 (a : FVec Ideal S8192x256 .f32) (b : Fin 8192) :
    (Host.sqrt (broadcastInDim S8192x1 ![0] bcast_S8192_S8192x1_0 (Host.reduceAdd (mulf a a) (constant (F := Ideal) S_ .f32 0x00000000#32) reducesTo_S8192x256_S8192_d1 h_S_))) (ix2 b 0) = Ideal.sqrt (∑ k : Fin 256, a (ix2 b k) * a (ix2 b k)) := by
  show Ideal.sqrt (broadcastInDim S8192x1 ![0] bcast_S8192_S8192x1_0 (Host.reduceAdd (mulf a a) (constant (F := Ideal) S_ .f32 0x00000000#32) reducesTo_S8192x256_S8192_d1 h_S_) (ix2 b 0)) = _
  rw [col_apply, rsum_apply_256]
  rfl

/-- A column laid along the rows of an [8192, 256] array reads, at (b, k), the column at b. -/
theorem rowb_apply_256 (n : FVec Ideal S8192x1 .f32) (b : Fin 8192) (k : Fin 256) :
    broadcastInDim S8192x256 ![0, 1] bcast_S8192x1_S8192x256_0_1 n (ix2 b k) = n (ix2 b 0) :=
  broadcastInDim_apply _ bcast_S8192x1_S8192x256_0_1 n (ix2 b k) (ix2 b 0) (fun a => match a with
    | ⟨0, _⟩ => by show b.val = if (8192 : Nat) = 1 then 0 else b.val; rw [if_neg (by decide)]
    | ⟨1, _⟩ => by show 0 = if (1 : Nat) = 1 then 0 else k.val; rw [if_pos rfl])

/-- The precondition's a / |a| of an [8192, 256] array is, row by row, the unit row. -/
theorem unit_apply_256 (a : FVec Ideal S8192x256 .f32) (b : Fin 8192) (k : Fin 256) :
    (Host.divf a (broadcastInDim S8192x256 ![0, 1] bcast_S8192x1_S8192x256_0_1 (Host.sqrt (broadcastInDim S8192x1 ![0] bcast_S8192_S8192x1_0 (Host.reduceAdd (mulf a a) (constant (F := Ideal) S_ .f32 0x00000000#32) reducesTo_S8192x256_S8192_d1 h_S_))))) (ix2 b k)
      = unitRow (fun k : Fin 256 => a (ix2 b k)) k := by
  show Ideal.div (a (ix2 b k)) (broadcastInDim S8192x256 ![0, 1] bcast_S8192x1_S8192x256_0_1 (Host.sqrt (broadcastInDim S8192x1 ![0] bcast_S8192_S8192x1_0 (Host.reduceAdd (mulf a a) (constant (F := Ideal) S_ .f32 0x00000000#32) reducesTo_S8192x256_S8192_d1 h_S_))) (ix2 b k)) = _
  rw [rowb_apply_256, nrm_apply_256]
  rfl

theorem nrm_row_256 (a : FVec Ideal S8192x256 .f32) (b : Fin 8192) :
    (Host.sqrt (broadcastInDim S8192x1 ![0] bcast_S8192_S8192x1_0 (Host.reduceAdd (mulf a a) (constant (F := Ideal) S_ .f32 0x00000000#32) reducesTo_S8192x256_S8192_d1 h_S_))) (ix2 b 0) = sqn (fun k : Fin 256 => a (ix2 b k)) := nrm_apply_256 a b

/-- The host's sum along the rows of an [8192, 128] array, from the zero word: at row b, the sum of the row. -/
theorem rsum_apply_128 (y : FVec Ideal S8192x128 .f32) (b : Fin 8192) :
    (Host.reduceAdd y (constant (F := Ideal) S_ .f32 0x00000000#32) reducesTo_S8192x128_S8192_d1 h_S_) (ix1 b) = ∑ k : Fin 128, y (ix2 b k) := by
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The precondition's norm of the rows of an [8192, 128] array: at row b, the root of the sum of the row's squares. -/
theorem nrm_apply_128 (a : FVec Ideal S8192x128 .f32) (b : Fin 8192) :
    (Host.sqrt (broadcastInDim S8192x1 ![0] bcast_S8192_S8192x1_0 (Host.reduceAdd (mulf a a) (constant (F := Ideal) S_ .f32 0x00000000#32) reducesTo_S8192x128_S8192_d1 h_S_))) (ix2 b 0) = Ideal.sqrt (∑ k : Fin 128, a (ix2 b k) * a (ix2 b k)) := by
  show Ideal.sqrt (broadcastInDim S8192x1 ![0] bcast_S8192_S8192x1_0 (Host.reduceAdd (mulf a a) (constant (F := Ideal) S_ .f32 0x00000000#32) reducesTo_S8192x128_S8192_d1 h_S_) (ix2 b 0)) = _
  rw [col_apply, rsum_apply_128]
  rfl

/-- A column laid along the rows of an [8192, 128] array reads, at (b, k), the column at b. -/
theorem rowb_apply_128 (n : FVec Ideal S8192x1 .f32) (b : Fin 8192) (k : Fin 128) :
    broadcastInDim S8192x128 ![0, 1] bcast_S8192x1_S8192x128_0_1 n (ix2 b k) = n (ix2 b 0) :=
  broadcastInDim_apply _ bcast_S8192x1_S8192x128_0_1 n (ix2 b k) (ix2 b 0) (fun a => match a with
    | ⟨0, _⟩ => by show b.val = if (8192 : Nat) = 1 then 0 else b.val; rw [if_neg (by decide)]
    | ⟨1, _⟩ => by show 0 = if (1 : Nat) = 1 then 0 else k.val; rw [if_pos rfl])

/-- The precondition's a / |a| of an [8192, 128] array is, row by row, the unit row. -/
theorem unit_apply_128 (a : FVec Ideal S8192x128 .f32) (b : Fin 8192) (k : Fin 128) :
    (Host.divf a (broadcastInDim S8192x128 ![0, 1] bcast_S8192x1_S8192x128_0_1 (Host.sqrt (broadcastInDim S8192x1 ![0] bcast_S8192_S8192x1_0 (Host.reduceAdd (mulf a a) (constant (F := Ideal) S_ .f32 0x00000000#32) reducesTo_S8192x128_S8192_d1 h_S_))))) (ix2 b k)
      = unitRow (fun k : Fin 128 => a (ix2 b k)) k := by
  show Ideal.div (a (ix2 b k)) (broadcastInDim S8192x128 ![0, 1] bcast_S8192x1_S8192x128_0_1 (Host.sqrt (broadcastInDim S8192x1 ![0] bcast_S8192_S8192x1_0 (Host.reduceAdd (mulf a a) (constant (F := Ideal) S_ .f32 0x00000000#32) reducesTo_S8192x128_S8192_d1 h_S_))) (ix2 b k)) = _
  rw [rowb_apply_128, nrm_apply_128]
  rfl

theorem nrm_row_128 (a : FVec Ideal S8192x128 .f32) (b : Fin 8192) :
    (Host.sqrt (broadcastInDim S8192x1 ![0] bcast_S8192_S8192x1_0 (Host.reduceAdd (mulf a a) (constant (F := Ideal) S_ .f32 0x00000000#32) reducesTo_S8192x128_S8192_d1 h_S_))) (ix2 b 0) = sqn (fun k : Fin 128 => a (ix2 b k)) := nrm_apply_128 a b

/-- The host's sum along the rows of an [8192, 64] array, from the zero word: at row b, the sum of the row. -/
theorem rsum_apply_64 (y : FVec Ideal S8192x64 .f32) (b : Fin 8192) :
    (Host.reduceAdd y (constant (F := Ideal) S_ .f32 0x00000000#32) reducesTo_S8192x64_S8192_d1 h_S_) (ix1 b) = ∑ k : Fin 64, y (ix2 b k) := by
  simp only [Host.reduceAdd, Ideal.hostReduceAdd_def]
  rw [Ideal.hostReduceAdd_single reducesTo_S8192x64_S8192_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The precondition's norm of the rows of an [8192, 64] array: at row b, the root of the sum of the row's squares. -/
theorem nrm_apply_64 (a : FVec Ideal S8192x64 .f32) (b : Fin 8192) :
    (Host.sqrt (broadcastInDim S8192x1 ![0] bcast_S8192_S8192x1_0 (Host.reduceAdd (mulf a a) (constant (F := Ideal) S_ .f32 0x00000000#32) reducesTo_S8192x64_S8192_d1 h_S_))) (ix2 b 0) = Ideal.sqrt (∑ k : Fin 64, a (ix2 b k) * a (ix2 b k)) := by
  show Ideal.sqrt (broadcastInDim S8192x1 ![0] bcast_S8192_S8192x1_0 (Host.reduceAdd (mulf a a) (constant (F := Ideal) S_ .f32 0x00000000#32) reducesTo_S8192x64_S8192_d1 h_S_) (ix2 b 0)) = _
  rw [col_apply, rsum_apply_64]
  rfl

theorem nrm_row_64 (a : FVec Ideal S8192x64 .f32) (b : Fin 8192) :
    (Host.sqrt (broadcastInDim S8192x1 ![0] bcast_S8192_S8192x1_0 (Host.reduceAdd (mulf a a) (constant (F := Ideal) S_ .f32 0x00000000#32) reducesTo_S8192x64_S8192_d1 h_S_))) (ix2 b 0) = sqn (fun k : Fin 64 => a (ix2 b k)) := nrm_apply_64 a b

/-- The transposed [256, 1024] table reads, at (k, j), the table at (j, k). -/
theorem tr_apply_256x1024 (H : FVec Ideal S256x1024 .f32) (k : Fin 1024) (j : Fin 256) :
    transpose S1024x256 [1, 0] H transposes_S256x1024_S1024x256_1_0 (ix2 k j) = H (ix2 j k) :=
  transpose_apply [1, 0] H transposes_S256x1024_S1024x256_1_0 (ix2 k j) (ix2 j k) (fun b => match b with
    | ⟨0, _⟩ => rfl
    | ⟨1, _⟩ => rfl)

theorem lhs_1024x256_0 (i : S8192x256.Idx) (q : dot_S8192x1024_S1024x256_S8192x256_1_0_0_1_n_n.contr.Idx) :
    (dot_S8192x1024_S1024x256_S8192x256_1_0_0_1_n_n.lhsIdx i q 0).val = (i 0).val := by
  unfold DotDims.lhsIdx
  rw [dif_neg (show ¬(0 : Fin S8192x1024.rank) ∈ dot_S8192x1024_S1024x256_S8192x256_1_0_0_1_n_n.lhsBatch by decide), dif_pos (show (0 : Fin S8192x1024.rank) ∈ dot_S8192x1024_S1024x256_S8192x256_1_0_0_1_n_n.lhsNonContracting by decide)]
  rfl
theorem lhs_1024x256_1 (i : S8192x256.Idx) (q : dot_S8192x1024_S1024x256_S8192x256_1_0_0_1_n_n.contr.Idx) :
    (dot_S8192x1024_S1024x256_S8192x256_1_0_0_1_n_n.lhsIdx i q 1).val = (q ⟨0, by decide⟩).val :=
  dot_S8192x1024_S1024x256_S8192x256_1_0_0_1_n_n.lhsIdx_val_of_single rfl i q
theorem rhs_1024x256_0 (i : S8192x256.Idx) (q : dot_S8192x1024_S1024x256_S8192x256_1_0_0_1_n_n.contr.Idx) :
    (dot_S8192x1024_S1024x256_S8192x256_1_0_0_1_n_n.rhsIdx i q 0).val = (q ⟨0, by decide⟩).val :=
  dot_S8192x1024_S1024x256_S8192x256_1_0_0_1_n_n.rhsIdx_val_of_single rfl i q
theorem rhs_1024x256_1 (i : S8192x256.Idx) (q : dot_S8192x1024_S1024x256_S8192x256_1_0_0_1_n_n.contr.Idx) :
    (dot_S8192x1024_S1024x256_S8192x256_1_0_0_1_n_n.rhsIdx i q 1).val = (i 1).val := by
  unfold DotDims.rhsIdx
  rw [dif_neg (show ¬(1 : Fin S1024x256.rank) ∈ dot_S8192x1024_S1024x256_S8192x256_1_0_0_1_n_n.rhsBatch by decide), dif_pos (show (1 : Fin S1024x256.rank) ∈ dot_S8192x1024_S1024x256_S8192x256_1_0_0_1_n_n.rhsNonContracting by decide)]
  rfl

/-- The host's product of an [8192, 1024] array with a [1024, 256] array: at (b, j), the sum over k of l (b, k) * r (k, j). -/
theorem dot_apply_1024x256 (l : FVec Ideal S8192x1024 .f32) (r : FVec Ideal S1024x256 .f32) (b : Fin 8192) (j : Fin 256) :
    (Host.dotGeneral dot_S8192x1024_S1024x256_S8192x256_1_0_0_1_n_n none l r) (ix2 b j) = ∑ k : Fin 1024, l (ix2 b k) * r (ix2 k j) := by
  simp only [Host.dotGeneral]
  rw [Ideal.dotGeneral_apply, ← Equiv.sum_comp (ValueIdx.contrEquiv1 dot_S8192x1024_S1024x256_S8192x256_1_0_0_1_n_n 1024 rfl rfl).symm]
  refine Finset.sum_congr rfl fun k _ => ?_
  have hk := ValueIdx.contrEquiv1_symm_val dot_S8192x1024_S1024x256_S8192x256_1_0_0_1_n_n 1024 rfl rfl k
  have el : dot_S8192x1024_S1024x256_S8192x256_1_0_0_1_n_n.lhsIdx (ix2 b j) ((ValueIdx.contrEquiv1 dot_S8192x1024_S1024x256_S8192x256_1_0_0_1_n_n 1024 rfl rfl).symm k) = ix2 b k := funext fun a => Fin.ext (by
    match a with
    | ⟨0, _⟩ => exact lhs_1024x256_0 _ _
    | ⟨1, _⟩ => exact (lhs_1024x256_1 _ _).trans hk)
  have er : dot_S8192x1024_S1024x256_S8192x256_1_0_0_1_n_n.rhsIdx (ix2 b j) ((ValueIdx.contrEquiv1 dot_S8192x1024_S1024x256_S8192x256_1_0_0_1_n_n 1024 rfl rfl).symm k) = ix2 k j := funext fun a => Fin.ext (by
    match a with
    | ⟨0, _⟩ => exact (rhs_1024x256_0 _ _).trans hk
    | ⟨1, _⟩ => exact rhs_1024x256_1 _ _)
  rw [el, er]

/-- The precondition's (a / |a|) @ H.T is, row by row, the projection of the unit row on the table's rows. -/
theorem proj_apply_1024x256 (a : FVec Ideal S8192x1024 .f32) (H : FVec Ideal S256x1024 .f32) (b : Fin 8192) (j : Fin 256) :
    (Host.dotGeneral dot_S8192x1024_S1024x256_S8192x256_1_0_0_1_n_n none (Host.divf a (broadcastInDim S8192x1024 ![0, 1] bcast_S8192x1_S8192x1024_0_1 (Host.sqrt (broadcastInDim S8192x1 ![0] bcast_S8192_S8192x1_0 (Host.reduceAdd (mulf a a) (constant (F := Ideal) S_ .f32 0x00000000#32) reducesTo_S8192x1024_S8192_d1 h_S_)))))
        (transpose S1024x256 [1, 0] H transposes_S256x1024_S1024x256_1_0)) (ix2 b j)
      = projRow (fun k : Fin 1024 => a (ix2 b k)) (fun (j : Fin 256) (k : Fin 1024) => H (ix2 j k)) j := by
  rw [dot_apply_1024x256]
  refine Finset.sum_congr rfl fun k _ => ?_
  rw [unit_apply_1024, tr_apply_256x1024]

theorem proj_row_1024x256 (a : FVec Ideal S8192x1024 .f32) (H : FVec Ideal S256x1024 .f32) (b : Fin 8192) :
    (fun j : Fin 256 => (Host.dotGeneral dot_S8192x1024_S1024x256_S8192x256_1_0_0_1_n_n none (Host.divf a (broadcastInDim S8192x1024 ![0, 1] bcast_S8192x1_S8192x1024_0_1 (Host.sqrt (broadcastInDim S8192x1 ![0] bcast_S8192_S8192x1_0 (Host.reduceAdd (mulf a a) (constant (F := Ideal) S_ .f32 0x00000000#32) reducesTo_S8192x1024_S8192_d1 h_S_))))) (transpose S1024x256 [1, 0] H transposes_S256x1024_S1024x256_1_0)) (ix2 b j))
      = projRow (fun k : Fin 1024 => a (ix2 b k)) (fun (j : Fin 256) (k : Fin 1024) => H (ix2 j k)) :=
  funext fun j => proj_apply_1024x256 a H b j

/-- The transposed [128, 256] table reads, at (k, j), the table at (j, k). -/
theorem tr_apply_128x256 (H : FVec Ideal S128x256 .f32) (k : Fin 256) (j : Fin 128) :
    transpose S256x128 [1, 0] H transposes_S128x256_S256x128_1_0 (ix2 k j) = H (ix2 j k) :=
  transpose_apply [1, 0] H transposes_S128x256_S256x128_1_0 (ix2 k j) (ix2 j k) (fun b => match b with
    | ⟨0, _⟩ => rfl
    | ⟨1, _⟩ => rfl)

theorem lhs_256x128_0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem lhs_256x128_1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
theorem rhs_256x128_0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
theorem rhs_256x128_1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-- The host's product of an [8192, 256] array with a [256, 128] array: at (b, j), the sum over k of l (b, k) * r (k, j). -/
theorem dot_apply_256x128 (l : FVec Ideal S8192x256 .f32) (r : FVec Ideal S256x128 .f32) (b : Fin 8192) (j : Fin 128) :
    (Host.dotGeneral dot_S8192x256_S256x128_S8192x128_1_0_0_1_n_n none l r) (ix2 b j) = ∑ k : Fin 256, l (ix2 b k) * r (ix2 k j) := by
  simp only [Host.dotGeneral]
  rw [Ideal.dotGeneral_apply, ← Equiv.sum_comp (ValueIdx.contrEquiv1 dot_S8192x256_S256x128_S8192x128_1_0_0_1_n_n 256 rfl rfl).symm]
  refine Finset.sum_congr rfl fun k _ => ?_
  have hk := ValueIdx.contrEquiv1_symm_val dot_S8192x256_S256x128_S8192x128_1_0_0_1_n_n 256 rfl rfl k
  have el : dot_S8192x256_S256x128_S8192x128_1_0_0_1_n_n.lhsIdx (ix2 b j) ((ValueIdx.contrEquiv1 dot_S8192x256_S256x128_S8192x128_1_0_0_1_n_n 256 rfl rfl).symm k) = ix2 b k := funext fun a => Fin.ext (by
    match a with
    | ⟨0, _⟩ => exact lhs_256x128_0 _ _
    | ⟨1, _⟩ => exact (lhs_256x128_1 _ _).trans hk)
  have er : dot_S8192x256_S256x128_S8192x128_1_0_0_1_n_n.rhsIdx (ix2 b j) ((ValueIdx.contrEquiv1 dot_S8192x256_S256x128_S8192x128_1_0_0_1_n_n 256 rfl rfl).symm k) = ix2 k j := funext fun a => Fin.ext (by
    match a with
    | ⟨0, _⟩ => exact (rhs_256x128_0 _ _).trans hk
    | ⟨1, _⟩ => exact rhs_256x128_1 _ _)
  rw [el, er]

/-- The precondition's (a / |a|) @ H.T is, row by row, the projection of the unit row on the table's rows. -/
theorem proj_apply_256x128 (a : FVec Ideal S8192x256 .f32) (H : FVec Ideal S128x256 .f32) (b : Fin 8192) (j : Fin 128) :
    (Host.dotGeneral dot_S8192x256_S256x128_S8192x128_1_0_0_1_n_n none (Host.divf a (broadcastInDim S8192x256 ![0, 1] bcast_S8192x1_S8192x256_0_1 (Host.sqrt (broadcastInDim S8192x1 ![0] bcast_S8192_S8192x1_0 (Host.reduceAdd (mulf a a) (constant (F := Ideal) S_ .f32 0x00000000#32) reducesTo_S8192x256_S8192_d1 h_S_)))))
        (transpose S256x128 [1, 0] H transposes_S128x256_S256x128_1_0)) (ix2 b j)
      = projRow (fun k : Fin 256 => a (ix2 b k)) (fun (j : Fin 128) (k : Fin 256) => H (ix2 j k)) j := by
  rw [dot_apply_256x128]
  refine Finset.sum_congr rfl fun k _ => ?_
  rw [unit_apply_256, tr_apply_128x256]

theorem proj_row_256x128 (a : FVec Ideal S8192x256 .f32) (H : FVec Ideal S128x256 .f32) (b : Fin 8192) :
    (fun j : Fin 128 => (Host.dotGeneral dot_S8192x256_S256x128_S8192x128_1_0_0_1_n_n none (Host.divf a (broadcastInDim S8192x256 ![0, 1] bcast_S8192x1_S8192x256_0_1 (Host.sqrt (broadcastInDim S8192x1 ![0] bcast_S8192_S8192x1_0 (Host.reduceAdd (mulf a a) (constant (F := Ideal) S_ .f32 0x00000000#32) reducesTo_S8192x256_S8192_d1 h_S_))))) (transpose S256x128 [1, 0] H transposes_S128x256_S256x128_1_0)) (ix2 b j))
      = projRow (fun k : Fin 256 => a (ix2 b k)) (fun (j : Fin 128) (k : Fin 256) => H (ix2 j k)) :=
  funext fun j => proj_apply_256x128 a H b j

/-- The transposed [64, 128] table reads, at (k, j), the table at (j, k). -/
theorem tr_apply_64x128 (H : FVec Ideal S64x128 .f32) (k : Fin 128) (j : Fin 64) :
    transpose S128x64 [1, 0] H transposes_S64x128_S128x64_1_0 (ix2 k j) = H (ix2 j k) :=
  transpose_apply [1, 0] H transposes_S64x128_S128x64_1_0 (ix2 k j) (ix2 j k) (fun b => match b with
    | ⟨0, _⟩ => rfl
    | ⟨1, _⟩ => rfl)

theorem lhs_128x64_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs_128x64_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhs_128x64_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhs_128x64_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The host's product of an [8192, 128] array with a [128, 64] array: at (b, j), the sum over k of l (b, k) * r (k, j). -/
theorem dot_apply_128x64 (l : FVec Ideal S8192x128 .f32) (r : FVec Ideal S128x64 .f32) (b : Fin 8192) (j : Fin 64) :
    (Host.dotGeneral dot_S8192x128_S128x64_S8192x64_1_0_0_1_n_n none l r) (ix2 b j) = ∑ k : Fin 128, l (ix2 b k) * r (ix2 k j) := by
  simp only [Host.dotGeneral]
  rw [Ideal.dotGeneral_apply, ← Equiv.sum_comp (ValueIdx.contrEquiv1 dot_S8192x128_S128x64_S8192x64_1_0_0_1_n_n 128 rfl rfl).symm]
  refine Finset.sum_congr rfl fun k _ => ?_
  have hk := ValueIdx.contrEquiv1_symm_val dot_S8192x128_S128x64_S8192x64_1_0_0_1_n_n 128 rfl rfl k
  have el : dot_S8192x128_S128x64_S8192x64_1_0_0_1_n_n.lhsIdx (ix2 b j) ((ValueIdx.contrEquiv1 dot_S8192x128_S128x64_S8192x64_1_0_0_1_n_n 128 rfl rfl).symm k) = ix2 b k := funext fun a => Fin.ext (by
    match a with
    | ⟨0, _⟩ => exact lhs_128x64_0 _ _
    | ⟨1, _⟩ => exact (lhs_128x64_1 _ _).trans hk)
  have er : dot_S8192x128_S128x64_S8192x64_1_0_0_1_n_n.rhsIdx (ix2 b j) ((ValueIdx.contrEquiv1 dot_S8192x128_S128x64_S8192x64_1_0_0_1_n_n 128 rfl rfl).symm k) = ix2 k j := funext fun a => Fin.ext (by
    match a with
    | ⟨0, _⟩ => exact (rhs_128x64_0 _ _).trans hk
    | ⟨1, _⟩ => exact rhs_128x64_1 _ _)
  rw [el, er]

/-- The precondition's (a / |a|) @ H.T is, row by row, the projection of the unit row on the table's rows. -/
theorem proj_apply_128x64 (a : FVec Ideal S8192x128 .f32) (H : FVec Ideal S64x128 .f32) (b : Fin 8192) (j : Fin 64) :
    (Host.dotGeneral dot_S8192x128_S128x64_S8192x64_1_0_0_1_n_n none (Host.divf a (broadcastInDim S8192x128 ![0, 1] bcast_S8192x1_S8192x128_0_1 (Host.sqrt (broadcastInDim S8192x1 ![0] bcast_S8192_S8192x1_0 (Host.reduceAdd (mulf a a) (constant (F := Ideal) S_ .f32 0x00000000#32) reducesTo_S8192x128_S8192_d1 h_S_)))))
        (transpose S128x64 [1, 0] H transposes_S64x128_S128x64_1_0)) (ix2 b j)
      = projRow (fun k : Fin 128 => a (ix2 b k)) (fun (j : Fin 64) (k : Fin 128) => H (ix2 j k)) j := by
  rw [dot_apply_128x64]
  refine Finset.sum_congr rfl fun k _ => ?_
  rw [unit_apply_128, tr_apply_64x128]

theorem proj_row_128x64 (a : FVec Ideal S8192x128 .f32) (H : FVec Ideal S64x128 .f32) (b : Fin 8192) :
    (fun j : Fin 64 => (Host.dotGeneral dot_S8192x128_S128x64_S8192x64_1_0_0_1_n_n none (Host.divf a (broadcastInDim S8192x128 ![0, 1] bcast_S8192x1_S8192x128_0_1 (Host.sqrt (broadcastInDim S8192x1 ![0] bcast_S8192_S8192x1_0 (Host.reduceAdd (mulf a a) (constant (F := Ideal) S_ .f32 0x00000000#32) reducesTo_S8192x128_S8192_d1 h_S_))))) (transpose S128x64 [1, 0] H transposes_S64x128_S128x64_1_0)) (ix2 b j))
      = projRow (fun k : Fin 128 => a (ix2 b k)) (fun (j : Fin 64) (k : Fin 128) => H (ix2 j k)) :=
  funext fun j => proj_apply_128x64 a H b j

/-- A [256] vector laid along the columns of an [8192, 256] array reads, at (b, j), the vector at j. -/
theorem vecb_apply_256 (v : FVec Ideal S256 .f32) (b : Fin 8192) (j : Fin 256) :
    broadcastInDim S8192x256 ![0, 1] bcast_S1x256_S8192x256_0_1 (broadcastInDim S1x256 ![1] bcast_S256_S1x256_1 v) (ix2 b j) = v (ix1 j) := by
  rw [broadcastInDim_apply _ bcast_S1x256_S8192x256_0_1 _ (ix2 b j) (ix2 (0 : Fin 1) j) (fun a => match a with
    | ⟨0, _⟩ => by show 0 = if (1 : Nat) = 1 then 0 else b.val; rw [if_pos rfl]
    | ⟨1, _⟩ => by show j.val = if (256 : Nat) = 1 then 0 else j.val; rw [if_neg (by decide)])]
  exact broadcastInDim_apply _ bcast_S256_S1x256_1 v (ix2 (0 : Fin 1) j) (ix1 j) (fun a => match a with
    | ⟨0, _⟩ => by show j.val = if (256 : Nat) = 1 then 0 else j.val; rw [if_neg (by decide)])

/-- The precondition's max (a @ W.T + b, 0) * m is, row by row, the layer's row. -/
theorem lay_apply_1024x256 (a : FVec Ideal S8192x1024 .f32) (W : FVec Ideal S256x1024 .f32) (bb m : FVec Ideal S256 .f32) (r : Fin 8192) (j : Fin 256) :
    (mulf (maximumf (addf (Host.dotGeneral dot_S8192x1024_S1024x256_S8192x256_1_0_0_1_n_n none a (transpose S1024x256 [1, 0] W transposes_S256x1024_S1024x256_1_0)) (broadcastInDim S8192x256 ![0, 1] bcast_S1x256_S8192x256_0_1 (broadcastInDim S1x256 ![1] bcast_S256_S1x256_1 bb))) (broadcastInDim S8192x256 ![] bcast_S_S8192x256 (constant (F := Ideal) S_ .f32 0x00000000#32))) (broadcastInDim S8192x256 ![0, 1] bcast_S1x256_S8192x256_0_1 (broadcastInDim S1x256 ![1] bcast_S256_S1x256_1 m))) (ix2 r j)
      = layerRow (fun k : Fin 1024 => a (ix2 r k)) (fun (j : Fin 256) (k : Fin 1024) => W (ix2 j k)) (fun j : Fin 256 => bb (ix1 j)) (fun j : Fin 256 => m (ix1 j)) j := by
  show max ((Host.dotGeneral dot_S8192x1024_S1024x256_S8192x256_1_0_0_1_n_n none a (transpose S1024x256 [1, 0] W transposes_S256x1024_S1024x256_1_0)) (ix2 r j)
        + (broadcastInDim S8192x256 ![0, 1] bcast_S1x256_S8192x256_0_1 (broadcastInDim S1x256 ![1] bcast_S256_S1x256_1 bb)) (ix2 r j))
      (Ideal.ofBits .f32 0x00000000#32)
      * (broadcastInDim S8192x256 ![0, 1] bcast_S1x256_S8192x256_0_1 (broadcastInDim S1x256 ![1] bcast_S256_S1x256_1 m)) (ix2 r j) = _
  rw [dot_apply_1024x256, vecb_apply_256, vecb_apply_256]
  unfold layerRow
  refine congrArg (fun s => max (s + bb (ix1 j)) w0 * m (ix1 j)) (Finset.sum_congr rfl fun k _ => ?_)
  rw [tr_apply_256x1024]

theorem lay_row_1024x256 (a : FVec Ideal S8192x1024 .f32) (W : FVec Ideal S256x1024 .f32) (bb m : FVec Ideal S256 .f32) (r : Fin 8192) :
    (fun j : Fin 256 => (mulf (maximumf (addf (Host.dotGeneral dot_S8192x1024_S1024x256_S8192x256_1_0_0_1_n_n none a (transpose S1024x256 [1, 0] W transposes_S256x1024_S1024x256_1_0)) (broadcastInDim S8192x256 ![0, 1] bcast_S1x256_S8192x256_0_1 (broadcastInDim S1x256 ![1] bcast_S256_S1x256_1 bb))) (broadcastInDim S8192x256 ![] bcast_S_S8192x256 (constant (F := Ideal) S_ .f32 0x00000000#32))) (broadcastInDim S8192x256 ![0, 1] bcast_S1x256_S8192x256_0_1 (broadcastInDim S1x256 ![1] bcast_S256_S1x256_1 m))) (ix2 r j))
      = layerRow (fun k : Fin 1024 => a (ix2 r k)) (fun (j : Fin 256) (k : Fin 1024) => W (ix2 j k)) (fun j : Fin 256 => bb (ix1 j)) (fun j : Fin 256 => m (ix1 j)) :=
  funext fun j => lay_apply_1024x256 a W bb m r j

/-- A [128] vector laid along the columns of an [8192, 128] array reads, at (b, j), the vector at j. -/
theorem vecb_apply_128 (v : FVec Ideal S128 .f32) (b : Fin 8192) (j : Fin 128) :
    broadcastInDim S8192x128 ![0, 1] bcast_S1x128_S8192x128_0_1 (broadcastInDim S1x128 ![1] bcast_S128_S1x128_1 v) (ix2 b j) = v (ix1 j) := by
  rw [broadcastInDim_apply _ bcast_S1x128_S8192x128_0_1 _ (ix2 b j) (ix2 (0 : Fin 1) j) (fun a => match a with
    | ⟨0, _⟩ => by show 0 = if (1 : Nat) = 1 then 0 else b.val; rw [if_pos rfl]
    | ⟨1, _⟩ => by show j.val = if (128 : Nat) = 1 then 0 else j.val; rw [if_neg (by decide)])]
  exact broadcastInDim_apply _ bcast_S128_S1x128_1 v (ix2 (0 : Fin 1) j) (ix1 j) (fun a => match a with
    | ⟨0, _⟩ => by show j.val = if (128 : Nat) = 1 then 0 else j.val; rw [if_neg (by decide)])

/-- The precondition's max (a @ W.T + b, 0) * m is, row by row, the layer's row. -/
theorem lay_apply_256x128 (a : FVec Ideal S8192x256 .f32) (W : FVec Ideal S128x256 .f32) (bb m : FVec Ideal S128 .f32) (r : Fin 8192) (j : Fin 128) :
    (mulf (maximumf (addf (Host.dotGeneral dot_S8192x256_S256x128_S8192x128_1_0_0_1_n_n none a (transpose S256x128 [1, 0] W transposes_S128x256_S256x128_1_0)) (broadcastInDim S8192x128 ![0, 1] bcast_S1x128_S8192x128_0_1 (broadcastInDim S1x128 ![1] bcast_S128_S1x128_1 bb))) (broadcastInDim S8192x128 ![] bcast_S_S8192x128 (constant (F := Ideal) S_ .f32 0x00000000#32))) (broadcastInDim S8192x128 ![0, 1] bcast_S1x128_S8192x128_0_1 (broadcastInDim S1x128 ![1] bcast_S128_S1x128_1 m))) (ix2 r j)
      = layerRow (fun k : Fin 256 => a (ix2 r k)) (fun (j : Fin 128) (k : Fin 256) => W (ix2 j k)) (fun j : Fin 128 => bb (ix1 j)) (fun j : Fin 128 => m (ix1 j)) j := by
  show max ((Host.dotGeneral dot_S8192x256_S256x128_S8192x128_1_0_0_1_n_n none a (transpose S256x128 [1, 0] W transposes_S128x256_S256x128_1_0)) (ix2 r j)
        + (broadcastInDim S8192x128 ![0, 1] bcast_S1x128_S8192x128_0_1 (broadcastInDim S1x128 ![1] bcast_S128_S1x128_1 bb)) (ix2 r j))
      (Ideal.ofBits .f32 0x00000000#32)
      * (broadcastInDim S8192x128 ![0, 1] bcast_S1x128_S8192x128_0_1 (broadcastInDim S1x128 ![1] bcast_S128_S1x128_1 m)) (ix2 r j) = _
  rw [dot_apply_256x128, vecb_apply_128, vecb_apply_128]
  unfold layerRow
  refine congrArg (fun s => max (s + bb (ix1 j)) w0 * m (ix1 j)) (Finset.sum_congr rfl fun k _ => ?_)
  rw [tr_apply_128x256]

theorem lay_row_256x128 (a : FVec Ideal S8192x256 .f32) (W : FVec Ideal S128x256 .f32) (bb m : FVec Ideal S128 .f32) (r : Fin 8192) :
    (fun j : Fin 128 => (mulf (maximumf (addf (Host.dotGeneral dot_S8192x256_S256x128_S8192x128_1_0_0_1_n_n none a (transpose S256x128 [1, 0] W transposes_S128x256_S256x128_1_0)) (broadcastInDim S8192x128 ![0, 1] bcast_S1x128_S8192x128_0_1 (broadcastInDim S1x128 ![1] bcast_S128_S1x128_1 bb))) (broadcastInDim S8192x128 ![] bcast_S_S8192x128 (constant (F := Ideal) S_ .f32 0x00000000#32))) (broadcastInDim S8192x128 ![0, 1] bcast_S1x128_S8192x128_0_1 (broadcastInDim S1x128 ![1] bcast_S128_S1x128_1 m))) (ix2 r j))
      = layerRow (fun k : Fin 256 => a (ix2 r k)) (fun (j : Fin 128) (k : Fin 256) => W (ix2 j k)) (fun j : Fin 128 => bb (ix1 j)) (fun j : Fin 128 => m (ix1 j)) :=
  funext fun j => lay_apply_256x128 a W bb m r j

variable [Cert.Pre_finite_inputs.Facts]

/-- The printed predicate, all ones, gives the domain. -/
theorem dom_of_pre (x : FVec Ideal Cert.Pre_finite_inputs.S8192x1024 .f32) (m0 : FVec Ideal Cert.Pre_finite_inputs.S256 .f32) (m1 : FVec Ideal Cert.Pre_finite_inputs.S128 .f32) (m2 : FVec Ideal Cert.Pre_finite_inputs.S64 .f32) (W1 : FVec Ideal Cert.Pre_finite_inputs.S256x1024 .f32) (b1 : FVec Ideal Cert.Pre_finite_inputs.S256 .f32) (W2 : FVec Ideal Cert.Pre_finite_inputs.S128x256 .f32) (b2 : FVec Ideal Cert.Pre_finite_inputs.S128 .f32) (W3 : FVec Ideal Cert.Pre_finite_inputs.S64x128 .f32) (b3 : FVec Ideal Cert.Pre_finite_inputs.S64 .f32) (W4 : FVec Ideal Cert.Pre_finite_inputs.S1000x64 .f32) (b4 : FVec Ideal Cert.Pre_finite_inputs.S1000 .f32) (H1 : FVec Ideal Cert.Pre_finite_inputs.S256x1024 .f32) (H2 : FVec Ideal Cert.Pre_finite_inputs.S128x256 .f32) (H3 : FVec Ideal Cert.Pre_finite_inputs.S64x128 .f32)
    (h : Cert.Pre_finite_inputs.fn (F := Ideal) x m0 m1 m2 W1 b1 W2 b2 W3 b3 W4 b4 H1 H2 H3 = fun _ => 1#1) :
    Dom x m0 m1 m2 W1 b1 W2 b2 W3 b3 W4 b4 H1 H2 H3 := by
  have h0 := congrFun h ValueIdx.ix0
  dsimp only [fn, fn_part1, fn_part2, fn_part3, fn_part4, fn_part5, fn_part6, fn_part7, fn_part8, andi] at h0
  simp only [IntOp.andi_eq_one] at h0
  obtain ⟨⟨⟨⟨⟨⟨⟨⟨⟨⟨⟨⟨⟨⟨⟨⟨⟨c23, c27⟩, c32⟩, c37⟩, c42⟩, c47⟩, c52⟩, c57⟩, c62⟩, c67⟩, c72⟩, c77⟩, c82⟩, c87⟩, c92⟩, c104, c111⟩, c124, c131⟩, c144, c151⟩ := h0
  -- the rows of the first and of the second layer's output
  have r2 : ∀ b : Fin 8192, (fun k : Fin 256 => (mulf (maximumf (addf (Host.dotGeneral dot_S8192x1024_S1024x256_S8192x256_1_0_0_1_n_n none x (transpose S1024x256 [1, 0] W1 transposes_S256x1024_S1024x256_1_0)) (broadcastInDim S8192x256 ![0, 1] bcast_S1x256_S8192x256_0_1 (broadcastInDim S1x256 ![1] bcast_S256_S1x256_1 b1))) (broadcastInDim S8192x256 ![] bcast_S_S8192x256 (constant (F := Ideal) S_ .f32 0x00000000#32))) (broadcastInDim S8192x256 ![0, 1] bcast_S1x256_S8192x256_0_1 (broadcastInDim S1x256 ![1] bcast_S256_S1x256_1 m0))) (ix2 b k)) = (layerRow (fun k : Fin 1024 => x (ix2 b k)) (fun (j : Fin 256) (k : Fin 1024) => W1 (ix2 j k)) (fun j : Fin 256 => b1 (ix1 j)) (fun j : Fin 256 => m0 (ix1 j))) :=
    fun b => lay_row_1024x256 x W1 b1 m0 b
  have r3 : ∀ b : Fin 8192, (fun k : Fin 128 => (mulf (maximumf (addf (Host.dotGeneral dot_S8192x256_S256x128_S8192x128_1_0_0_1_n_n none (mulf (maximumf (addf (Host.dotGeneral dot_S8192x1024_S1024x256_S8192x256_1_0_0_1_n_n none x (transpose S1024x256 [1, 0] W1 transposes_S256x1024_S1024x256_1_0)) (broadcastInDim S8192x256 ![0, 1] bcast_S1x256_S8192x256_0_1 (broadcastInDim S1x256 ![1] bcast_S256_S1x256_1 b1))) (broadcastInDim S8192x256 ![] bcast_S_S8192x256 (constant (F := Ideal) S_ .f32 0x00000000#32))) (broadcastInDim S8192x256 ![0, 1] bcast_S1x256_S8192x256_0_1 (broadcastInDim S1x256 ![1] bcast_S256_S1x256_1 m0))) (transpose S256x128 [1, 0] W2 transposes_S128x256_S256x128_1_0)) (broadcastInDim S8192x128 ![0, 1] bcast_S1x128_S8192x128_0_1 (broadcastInDim S1x128 ![1] bcast_S128_S1x128_1 b2))) (broadcastInDim S8192x128 ![] bcast_S_S8192x128 (constant (F := Ideal) S_ .f32 0x00000000#32))) (broadcastInDim S8192x128 ![0, 1] bcast_S1x128_S8192x128_0_1 (broadcastInDim S1x128 ![1] bcast_S128_S1x128_1 m1))) (ix2 b k)) = (layerRow (layerRow (fun k : Fin 1024 => x (ix2 b k)) (fun (j : Fin 256) (k : Fin 1024) => W1 (ix2 j k)) (fun j : Fin 256 => b1 (ix1 j)) (fun j : Fin 256 => m0 (ix1 j))) (fun (j : Fin 128) (k : Fin 256) => W2 (ix2 j k)) (fun j : Fin 128 => b2 (ix1 j)) (fun j : Fin 128 => m1 (ix1 j))) :=
    fun b => (lay_row_256x128 _ W2 b2 m1 b).trans (congrArg (fun v => layerRow v (fun (j : Fin 128) (k : Fin 256) => W2 (ix2 j k)) (fun j : Fin 128 => b2 (ix1 j)) (fun j : Fin 128 => m1 (ix1 j))) (r2 b))
  -- layer 1: the rows of x and their projections on the rows of H1
  have hn1 : ∀ b : Fin 8192, w0 < sqn (fun k : Fin 1024 => x (ix2 b k)) := fun b => by
    have e := pos_of_all _ _ c104 b
    rw [nrm_row_1024] at e
    exact e
  have hp1 : ∀ b : Fin 8192, w0 < sqn (projRow (fun k : Fin 1024 => x (ix2 b k)) (fun (j : Fin 256) (k : Fin 1024) => H1 (ix2 j k))) := fun b => by
    have e := pos_of_all _ _ c111 b
    rw [nrm_row_256, proj_row_1024x256] at e
    exact e
  -- layer 2: the rows of the first layer's output and their projections on the rows of H2
  have hn2 : ∀ b : Fin 8192, w0 < sqn (layerRow (fun k : Fin 1024 => x (ix2 b k)) (fun (j : Fin 256) (k : Fin 1024) => W1 (ix2 j k)) (fun j : Fin 256 => b1 (ix1 j)) (fun j : Fin 256 => m0 (ix1 j))) := fun b => by
    have e := pos_of_all _ _ c124 b
    rw [nrm_row_256, r2 b] at e
    exact e
  have hp2 : ∀ b : Fin 8192, w0 < sqn (projRow (layerRow (fun k : Fin 1024 => x (ix2 b k)) (fun (j : Fin 256) (k : Fin 1024) => W1 (ix2 j k)) (fun j : Fin 256 => b1 (ix1 j)) (fun j : Fin 256 => m0 (ix1 j))) (fun (j : Fin 128) (k : Fin 256) => H2 (ix2 j k))) := fun b => by
    have e := pos_of_all _ _ c131 b
    rw [nrm_row_128, proj_row_256x128, r2 b] at e
    exact e
  -- layer 3: the rows of the second layer's output and their projections on the rows of H3
  have hn3 : ∀ b : Fin 8192, w0 < sqn (layerRow (layerRow (fun k : Fin 1024 => x (ix2 b k)) (fun (j : Fin 256) (k : Fin 1024) => W1 (ix2 j k)) (fun j : Fin 256 => b1 (ix1 j)) (fun j : Fin 256 => m0 (ix1 j))) (fun (j : Fin 128) (k : Fin 256) => W2 (ix2 j k)) (fun j : Fin 128 => b2 (ix1 j)) (fun j : Fin 128 => m1 (ix1 j))) := fun b => by
    have e := pos_of_all _ _ c144 b
    rw [nrm_row_128, r3 b] at e
    exact e
  have hp3 : ∀ b : Fin 8192, w0 < sqn (projRow (layerRow (layerRow (fun k : Fin 1024 => x (ix2 b k)) (fun (j : Fin 256) (k : Fin 1024) => W1 (ix2 j k)) (fun j : Fin 256 => b1 (ix1 j)) (fun j : Fin 256 => m0 (ix1 j))) (fun (j : Fin 128) (k : Fin 256) => W2 (ix2 j k)) (fun j : Fin 128 => b2 (ix1 j)) (fun j : Fin 128 => m1 (ix1 j))) (fun (j : Fin 64) (k : Fin 128) => H3 (ix2 j k))) := fun b => by
    have e := pos_of_all _ _ c151 b
    rw [nrm_row_64, proj_row_128x64, r3 b] at e
    exact e
  exact ⟨fin_of_all x _ _ _ _ c23, fin_of_all m0 _ _ _ _ c27, fin_of_all m1 _ _ _ _ c32, fin_of_all m2 _ _ _ _ c37,
    fin_of_all W1 _ _ _ _ c42, fin_of_all b1 _ _ _ _ c47, fin_of_all W2 _ _ _ _ c52, fin_of_all b2 _ _ _ _ c57,
    fin_of_all W3 _ _ _ _ c62, fin_of_all b3 _ _ _ _ c67, fin_of_all W4 _ _ _ _ c72, fin_of_all b4 _ _ _ _ c77,
    fin_of_all H1 _ _ _ _ c82, fin_of_all H2 _ _ _ _ c87, fin_of_all H3 _ _ _ _ c92, hn1, hp1, hn2, hp2, hn3, hp3⟩

end Cert.PreDecode

end
-- ==== Proof.HebbDom.lean ====
/-
  From the domain the precondition states to the three score identities.  In each Hebbian layer the input rows are
  real with a positive norm, so the unit rows are real; their projections on the table's rows are then real, and have
  a positive norm, so the unit projections are real; the table is real and the row count is a nonzero real: the two
  forms of the score agree.
-/
import proofs.«172171_j13907104104967_2_alg».proof.Proof.PreDecode
import proofs.«172171_j13907104104967_2_alg».proof.Proof.HebbAlgebra

noncomputable section

open Idealize.ShloMosaic Idealize.ShloMosaic.TcCoe Idealize.ShloMosaic.ValueIdx

namespace Cert.PreDecode

open Cert.Hebb

/-- The rows of the first layer's output are real. -/
theorem fin_rows1 (x : FVec Ideal Cert.Pre_finite_inputs.S8192x1024 .f32) (m0 : FVec Ideal Cert.Pre_finite_inputs.S256 .f32) (m1 : FVec Ideal Cert.Pre_finite_inputs.S128 .f32) (m2 : FVec Ideal Cert.Pre_finite_inputs.S64 .f32) (W1 : FVec Ideal Cert.Pre_finite_inputs.S256x1024 .f32) (b1 : FVec Ideal Cert.Pre_finite_inputs.S256 .f32) (W2 : FVec Ideal Cert.Pre_finite_inputs.S128x256 .f32) (b2 : FVec Ideal Cert.Pre_finite_inputs.S128 .f32) (W3 : FVec Ideal Cert.Pre_finite_inputs.S64x128 .f32) (b3 : FVec Ideal Cert.Pre_finite_inputs.S64 .f32) (W4 : FVec Ideal Cert.Pre_finite_inputs.S1000x64 .f32) (b4 : FVec Ideal Cert.Pre_finite_inputs.S1000 .f32) (H1 : FVec Ideal Cert.Pre_finite_inputs.S256x1024 .f32) (H2 : FVec Ideal Cert.Pre_finite_inputs.S128x256 .f32) (H3 : FVec Ideal Cert.Pre_finite_inputs.S64x128 .f32) (d : Dom x m0 m1 m2 W1 b1 W2 b2 W3 b3 W4 b4 H1 H2 H3) (b : Fin 8192) (k : Fin 256) :
    Fin' ((fun b : Fin 8192 => layerRow (fun k : Fin 1024 => x (ix2 b k)) (fun (j : Fin 256) (k : Fin 1024) => W1 (ix2 j k)) (fun j : Fin 256 => b1 (ix1 j)) (fun j : Fin 256 => m0 (ix1 j))) b k) :=
  fin_layerRow _ _ _ _ (fun k => d.fx (ix2 b k)) (fun j k => d.fW1 (ix2 j k)) (fun j => d.fb1 (ix1 j)) (fun j => d.fm0 (ix1 j)) k

/-- The rows of the second layer's output are real. -/
theorem fin_rows2 (x : FVec Ideal Cert.Pre_finite_inputs.S8192x1024 .f32) (m0 : FVec Ideal Cert.Pre_finite_inputs.S256 .f32) (m1 : FVec Ideal Cert.Pre_finite_inputs.S128 .f32) (m2 : FVec Ideal Cert.Pre_finite_inputs.S64 .f32) (W1 : FVec Ideal Cert.Pre_finite_inputs.S256x1024 .f32) (b1 : FVec Ideal Cert.Pre_finite_inputs.S256 .f32) (W2 : FVec Ideal Cert.Pre_finite_inputs.S128x256 .f32) (b2 : FVec Ideal Cert.Pre_finite_inputs.S128 .f32) (W3 : FVec Ideal Cert.Pre_finite_inputs.S64x128 .f32) (b3 : FVec Ideal Cert.Pre_finite_inputs.S64 .f32) (W4 : FVec Ideal Cert.Pre_finite_inputs.S1000x64 .f32) (b4 : FVec Ideal Cert.Pre_finite_inputs.S1000 .f32) (H1 : FVec Ideal Cert.Pre_finite_inputs.S256x1024 .f32) (H2 : FVec Ideal Cert.Pre_finite_inputs.S128x256 .f32) (H3 : FVec Ideal Cert.Pre_finite_inputs.S64x128 .f32) (d : Dom x m0 m1 m2 W1 b1 W2 b2 W3 b3 W4 b4 H1 H2 H3) (b : Fin 8192) (k : Fin 128) :
    Fin' ((fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) b k) :=
  fin_layerRow _ _ _ _ (fun k => fin_rows1 x m0 m1 m2 W1 b1 W2 b2 W3 b3 W4 b4 H1 H2 H3 d b k) (fun j k => d.fW2 (ix2 j k)) (fun j => d.fb2 (ix1 j)) (fun j => d.fm1 (ix1 j)) k

/-- Layer 1: the two forms of the score agree. -/
theorem score1 (x : FVec Ideal Cert.Pre_finite_inputs.S8192x1024 .f32) (m0 : FVec Ideal Cert.Pre_finite_inputs.S256 .f32) (m1 : FVec Ideal Cert.Pre_finite_inputs.S128 .f32) (m2 : FVec Ideal Cert.Pre_finite_inputs.S64 .f32) (W1 : FVec Ideal Cert.Pre_finite_inputs.S256x1024 .f32) (b1 : FVec Ideal Cert.Pre_finite_inputs.S256 .f32) (W2 : FVec Ideal Cert.Pre_finite_inputs.S128x256 .f32) (b2 : FVec Ideal Cert.Pre_finite_inputs.S128 .f32) (W3 : FVec Ideal Cert.Pre_finite_inputs.S64x128 .f32) (b3 : FVec Ideal Cert.Pre_finite_inputs.S64 .f32) (W4 : FVec Ideal Cert.Pre_finite_inputs.S1000x64 .f32) (b4 : FVec Ideal Cert.Pre_finite_inputs.S1000 .f32) (H1 : FVec Ideal Cert.Pre_finite_inputs.S256x1024 .f32) (H2 : FVec Ideal Cert.Pre_finite_inputs.S128x256 .f32) (H3 : FVec Ideal Cert.Pre_finite_inputs.S64x128 .f32) (d : Dom x m0 m1 m2 W1 b1 W2 b2 W3 b3 W4 b4 H1 H2 H3) :
    scoreK (sqAll (fun (b : Fin 8192) (k : Fin 1024) => x (ix2 b k)) (fun (j : Fin 256) (k : Fin 1024) => H1 (ix2 j k))) (sdAll (fun (b : Fin 8192) (k : Fin 1024) => x (ix2 b k)) (fun (j : Fin 256) (k : Fin 1024) => H1 (ix2 j k))) (fun (j : Fin 256) (k : Fin 1024) => H1 (ix2 j k)) wN1 = scoreR (fun (b : Fin 8192) (k : Fin 1024) => x (ix2 b k)) (fun (j : Fin 256) (k : Fin 1024) => H1 (ix2 j k)) wN1 := by
  have hH : ∀ (j : Fin 256) (k : Fin 1024), Fin' ((fun (j : Fin 256) (k : Fin 1024) => H1 (ix2 j k)) j k) := fun j k => d.fH1 (ix2 j k)
  have hu : ∀ (b : Fin 8192) (k : Fin 1024), Fin' (unitRow ((fun (b : Fin 8192) (k : Fin 1024) => x (ix2 b k)) b) k) := fun b k =>
    fin_unitRow _ (fun k => d.fx (ix2 b k)) (d.n1 b) k
  have hz : ∀ (b : Fin 8192) (j : Fin 256), Fin' (zRow ((fun (b : Fin 8192) (k : Fin 1024) => x (ix2 b k)) b) (fun (j : Fin 256) (k : Fin 1024) => H1 (ix2 j k)) j) := fun b j =>
    fin_unitRow _ (fun j => fin_projRow _ _ (hu b) hH j) (d.p1 b) j
  exact scoreK_eq_scoreR _ _ wN1 2097152 (by norm_num) wN1_eq hH hu hz

/-- Layer 2: the two forms of the score agree. -/
theorem score2 (x : FVec Ideal Cert.Pre_finite_inputs.S8192x1024 .f32) (m0 : FVec Ideal Cert.Pre_finite_inputs.S256 .f32) (m1 : FVec Ideal Cert.Pre_finite_inputs.S128 .f32) (m2 : FVec Ideal Cert.Pre_finite_inputs.S64 .f32) (W1 : FVec Ideal Cert.Pre_finite_inputs.S256x1024 .f32) (b1 : FVec Ideal Cert.Pre_finite_inputs.S256 .f32) (W2 : FVec Ideal Cert.Pre_finite_inputs.S128x256 .f32) (b2 : FVec Ideal Cert.Pre_finite_inputs.S128 .f32) (W3 : FVec Ideal Cert.Pre_finite_inputs.S64x128 .f32) (b3 : FVec Ideal Cert.Pre_finite_inputs.S64 .f32) (W4 : FVec Ideal Cert.Pre_finite_inputs.S1000x64 .f32) (b4 : FVec Ideal Cert.Pre_finite_inputs.S1000 .f32) (H1 : FVec Ideal Cert.Pre_finite_inputs.S256x1024 .f32) (H2 : FVec Ideal Cert.Pre_finite_inputs.S128x256 .f32) (H3 : FVec Ideal Cert.Pre_finite_inputs.S64x128 .f32) (d : Dom x m0 m1 m2 W1 b1 W2 b2 W3 b3 W4 b4 H1 H2 H3) :
    scoreK (sqAll (fun b : Fin 8192 => layerRow (fun k : Fin 1024 => x (ix2 b k)) (fun (j : Fin 256) (k : Fin 1024) => W1 (ix2 j k)) (fun j : Fin 256 => b1 (ix1 j)) (fun j : Fin 256 => m0 (ix1 j))) (fun (j : Fin 128) (k : Fin 256) => H2 (ix2 j k))) (sdAll (fun b : Fin 8192 => layerRow (fun k : Fin 1024 => x (ix2 b k)) (fun (j : Fin 256) (k : Fin 1024) => W1 (ix2 j k)) (fun j : Fin 256 => b1 (ix1 j)) (fun j : Fin 256 => m0 (ix1 j))) (fun (j : Fin 128) (k : Fin 256) => H2 (ix2 j k))) (fun (j : Fin 128) (k : Fin 256) => H2 (ix2 j k)) wN2 = scoreR (fun b : Fin 8192 => layerRow (fun k : Fin 1024 => x (ix2 b k)) (fun (j : Fin 256) (k : Fin 1024) => W1 (ix2 j k)) (fun j : Fin 256 => b1 (ix1 j)) (fun j : Fin 256 => m0 (ix1 j))) (fun (j : Fin 128) (k : Fin 256) => H2 (ix2 j k)) wN2 := by
  have hH : ∀ (j : Fin 128) (k : Fin 256), Fin' ((fun (j : Fin 128) (k : Fin 256) => H2 (ix2 j k)) j k) := fun j k => d.fH2 (ix2 j k)
  have hu : ∀ (b : Fin 8192) (k : Fin 256), Fin' (unitRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) k) := fun b k =>
    fin_unitRow _ (fun k => fin_rows1 x m0 m1 m2 W1 b1 W2 b2 W3 b3 W4 b4 H1 H2 H3 d b k) (d.n2 b) k
  have hz : ∀ (b : Fin 8192) (j : Fin 128), Fin' (zRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => H2 (ix2 j k)) j) := fun b j =>
    fin_unitRow _ (fun j => fin_projRow _ _ (hu b) hH j) (d.p2 b) j
  exact scoreK_eq_scoreR _ _ wN2 1048576 (by norm_num) wN2_eq hH hu hz

/-- Layer 3: the two forms of the score agree. -/
theorem score3 (x : FVec Ideal Cert.Pre_finite_inputs.S8192x1024 .f32) (m0 : FVec Ideal Cert.Pre_finite_inputs.S256 .f32) (m1 : FVec Ideal Cert.Pre_finite_inputs.S128 .f32) (m2 : FVec Ideal Cert.Pre_finite_inputs.S64 .f32) (W1 : FVec Ideal Cert.Pre_finite_inputs.S256x1024 .f32) (b1 : FVec Ideal Cert.Pre_finite_inputs.S256 .f32) (W2 : FVec Ideal Cert.Pre_finite_inputs.S128x256 .f32) (b2 : FVec Ideal Cert.Pre_finite_inputs.S128 .f32) (W3 : FVec Ideal Cert.Pre_finite_inputs.S64x128 .f32) (b3 : FVec Ideal Cert.Pre_finite_inputs.S64 .f32) (W4 : FVec Ideal Cert.Pre_finite_inputs.S1000x64 .f32) (b4 : FVec Ideal Cert.Pre_finite_inputs.S1000 .f32) (H1 : FVec Ideal Cert.Pre_finite_inputs.S256x1024 .f32) (H2 : FVec Ideal Cert.Pre_finite_inputs.S128x256 .f32) (H3 : FVec Ideal Cert.Pre_finite_inputs.S64x128 .f32) (d : Dom x m0 m1 m2 W1 b1 W2 b2 W3 b3 W4 b4 H1 H2 H3) :
    scoreK (sqAll (fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) (fun (j : Fin 64) (k : Fin 128) => H3 (ix2 j k))) (sdAll (fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) (fun (j : Fin 64) (k : Fin 128) => H3 (ix2 j k))) (fun (j : Fin 64) (k : Fin 128) => H3 (ix2 j k)) wN3 = scoreR (fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) (fun (j : Fin 64) (k : Fin 128) => H3 (ix2 j k)) wN3 := by
  have hH : ∀ (j : Fin 64) (k : Fin 128), Fin' ((fun (j : Fin 64) (k : Fin 128) => H3 (ix2 j k)) j k) := fun j k => d.fH3 (ix2 j k)
  have hu : ∀ (b : Fin 8192) (k : Fin 128), Fin' (unitRow ((fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) b) k) := fun b k =>
    fin_unitRow _ (fun k => fin_rows2 x m0 m1 m2 W1 b1 W2 b2 W3 b3 W4 b4 H1 H2 H3 d b k) (d.n3 b) k
  have hz : ∀ (b : Fin 8192) (j : Fin 64), Fin' (zRow ((fun b : Fin 8192 => layerRow ((fun b : Fin 8192 => layerRow (fun k : Fin 1024 => x (ix2 b k)) (fun (j : Fin 256) (k : Fin 1024) => W1 (ix2 j k)) (fun j : Fin 256 => b1 (ix1 j)) (fun j : Fin 256 => m0 (ix1 j))) b) (fun (j : Fin 128) (k : Fin 256) => W2 (ix2 j k)) (fun j : Fin 128 => b2 (ix1 j)) (fun j : Fin 128 => m1 (ix1 j))) b) (fun (j : Fin 64) (k : Fin 128) => H3 (ix2 j k)) j) := fun b j =>
    fin_unitRow _ (fun j => fin_projRow _ _ (hu b) hH j) (d.p3 b) j
  exact scoreK_eq_scoreR _ _ wN3 524288 (by norm_num) wN3_eq hH hu hz

end Cert.PreDecode

end
-- ==== Proof.lean ====
/-
  The certificate's claim.  Both idealized programs compute, for every row of x, three masked linear layers and a
  last linear layer (the main output), and for each of the three Hebbian layers a 0/1 mask: the thresholded, min-max
  normalised score of the layer's table rows.  The kernel accumulates two statistics tile by tile and finishes the
  score as  (1 - 1 * theta) * (row sum of H) + 1 * (sum_b z_b * (sum_k u_bk));  the reference forms
  H + 1 * (E - theta * H)  and sums its rows.  Where every input is a real number and no row norm is zero (the
  precondition) every intermediate value is a real number, and over the reals the two scores are one.
-/
import proofs.«172171_j13907104104967_2_alg».proof.Defs
import proofs.«172171_j13907104104967_2_alg».proof.Proof.Gen.Kernel
import proofs.«172171_j13907104104967_2_alg».proof.Proof.Gen.KernelIdeal
import proofs.«172171_j13907104104967_2_alg».proof.Proof.Gen.ReferenceIdeal
import proofs.«172171_j13907104104967_2_alg».proof.Proof.Gen.Pre_finite_inputs
import proofs.«172171_j13907104104967_2_alg».proof.Proof.Gen.ReferenceIdeal.Run
import proofs.«172171_j13907104104967_2_alg».proof.Proof.Gen.ReferenceIdeal.Read
import proofs.«172171_j13907104104967_2_alg».proof.Proof.KFrameB
import proofs.«172171_j13907104104967_2_alg».proof.Proof.KIFrameB
import proofs.«172171_j13907104104967_2_alg».proof.Proof.KFinal
import proofs.«172171_j13907104104967_2_alg».proof.Proof.KSums
import proofs.«172171_j13907104104967_2_alg».proof.Proof.RefHm0
import proofs.«172171_j13907104104967_2_alg».proof.Proof.RefHm1
import proofs.«172171_j13907104104967_2_alg».proof.Proof.RefHm2
import proofs.«172171_j13907104104967_2_alg».proof.Proof.RefOut
import proofs.«172171_j13907104104967_2_alg».proof.Proof.PreDecode
import proofs.«172171_j13907104104967_2_alg».proof.Proof.HebbDom
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Hebb

/-- The word-level kernel runs and leaves its arguments as they were: the generated frame. -/
theorem frame_k : Cert.frame_Kernel := fun m ρ _ => Cert.Kernel.GenP.frame m ρ

/-- The idealized kernel likewise. -/
theorem frame_ki : Cert.frame_KernelIdeal := fun m ρ _ => Cert.KernelIdeal.GenP.frame m ρ

/-- The reference is a host program: its run, with the results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- The ideal pass rewrote nothing. -/
theorem preserves : Cert.preserves_Kernel_KernelIdeal := trivial

/-! ## The value claim -/

section Value

open Cert.KernelIdeal.KHost Cert.KernelIdeal.KTile Cert.KernelIdeal.KInv Cert.KernelIdeal.KOut Cert.KernelIdeal.KSums
  Cert.KernelIdeal.KFinal

variable (m : (ℓ : Loc Cert.KernelIdeal.nD Cert.KernelIdeal.τ Cert.KernelIdeal.sig) → Buf (Elt Ideal) ℓ)
  (c : Dev Cert.KernelIdeal.nD)

/-- What the precondition gives on core c's arguments. -/
theorem dom (hpre : Cert.Pre_KernelIdeal m) :
    Cert.PreDecode.Dom (aX m c) (aM0 m c) (aM1 m c) (aM2 m c) (aW1 m c) (aB1 m c) (aW2 m c) (aB2 m c) (aW3 m c)
      (aB3 m c) (aW4 m c) (aB4 m c) (aH1 m c) (aH2 m c) (aH3 m c) :=
  Cert.PreDecode.dom_of_pre _ _ _ _ _ _ _ _ _ _ _ _ _ _ _ (hpre c)

variable (h15 : 15 < Cert.KernelIdeal.cfg0.N)

/-- The kernel's first score, from the finished running sums, is the reference's. -/
theorem score1_eq (hpre : Cert.Pre_KernelIdeal m) :
    (fun j : Fin 256 => (w1 - w1 * Ideal.div (chain (dSq1 m c) 15 h15) wN1) * sumH1 m c j
        + w1 * chain (fun t => dSd1 m c t j) 15 h15)
      = scoreR (fX m c) (fH1 m c) wN1 := by
  rw [← Cert.PreDecode.score1 _ _ _ _ _ _ _ _ _ _ _ _ _ _ _ (dom m c hpre)]
  funext j
  rw [sq1_all m c h15, sd1_all m c h15 j]
  rfl

theorem score2_eq (hpre : Cert.Pre_KernelIdeal m) :
    (fun j : Fin 128 => (w1 - w1 * Ideal.div (chain (dSq2 m c) 15 h15) wN2) * sumH2 m c j
        + w1 * chain (fun t => dSd2 m c t j) 15 h15)
      = scoreR (X1 m c) (fH2 m c) wN2 := by
  rw [show scoreR (X1 m c) (fH2 m c) wN2 = _ from (Cert.PreDecode.score2 _ _ _ _ _ _ _ _ _ _ _ _ _ _ _ (dom m c hpre)).symm]
  funext j
  rw [sq2_all m c h15, sd2_all m c h15 j]
  rfl

theorem score3_eq (hpre : Cert.Pre_KernelIdeal m) :
    (fun j : Fin 64 => (w1 - w1 * Ideal.div (chain (dSq3 m c) 15 h15) wN3) * sumH3 m c j
        + w1 * chain (fun t => dSd3 m c t j) 15 h15)
      = scoreR (X2 m c) (fH3 m c) wN3 := by
  rw [show scoreR (X2 m c) (fH3 m c) wN3 = _ from (Cert.PreDecode.score3 _ _ _ _ _ _ _ _ _ _ _ _ _ _ _ (dom m c hpre)).symm]
  funext j
  rw [sq3_all m c h15, sd3_all m c h15 j]
  rfl

end Value

/-- At the ideal instance, from memories agreeing on the arguments: the kernel's four result arrays (the generated
    frame run read as values) are the reference's (its generated run read stage by stage): the main output entry by
    entry the same four layers of the same row, each mask the same thresholded score once the kernel's form of the
    score is turned into the reference's. -/
theorem algebraic : Cert.algebraic_KernelIdeal_ReferenceIdeal := by
  intro m ρ m' ρ' hpre hagree
  have h15 : 15 < Cert.KernelIdeal.cfg0.N := by
    have hN : Cert.KernelIdeal.cfg0.N = 16 := Cert.KernelIdeal.Gen.N_0
    omega
  refine ⟨fun c => Cert.KernelIdeal.KFinal.R16 m c, fun c => Cert.KernelIdeal.KFinal.R17 m c,
    fun c => Cert.KernelIdeal.KFinal.R18 m c, fun c => Cert.KernelIdeal.KFinal.R19 m c,
    Cert.KernelIdeal.KFinal.run m ρ, ?_⟩
  refine (θ_run Cert.ReferenceIdeal.defs _ _).mono (fun r h c => ?_) (Cert.ReferenceIdeal.Value.run (F := Ideal) m' ρ')
  have hc := h c
  obtain ⟨a0, a1, a2, a3, a4, a5, a6, a7, a8, a9, a10, a11, a12, a13, a14⟩ := hagree c
  refine ⟨?_, ?_, ?_, ?_, hc.2.2.2.2⟩
  · -- the main output
    refine (hc.1.trans (Cert.ReferenceIdeal.Read.val_main_v128_eq _ _ _ _ _ _ _ _ _ _ _ _)).trans ?_
    rw [a0, a1, a2, a3, a4, a5, a6, a7, a8, a9, a10, a11]
    funext i
    obtain ⟨b, o, rfl⟩ : ∃ (b : Fin 8192) (o : Fin 1000), i = ix2 b o := ⟨i 0, i 1, eq_ix2 i⟩
    rw [Cert.ReferenceIdeal.RefOut.out_apply]
    rfl
  · -- the first mask
    refine (hc.2.1.trans (Cert.ReferenceIdeal.Read.val_main_v31_eq m' c)).trans ?_
    rw [a0, a12]
    funext i
    obtain ⟨j, rfl⟩ : ∃ j : Fin 256, i = ix1 j := ⟨i 0, eq_ix1 i⟩
    rw [Cert.ReferenceIdeal.RefHm0.hm0_apply]
    exact (congrArg (fun s => maskOf s j) (score1_eq m c h15 hpre)).symm
  · -- the second mask
    refine (hc.2.2.1.trans (Cert.ReferenceIdeal.Read.val_main_v72_eq m' c)).trans ?_
    rw [a0, a1, a4, a5, a13]
    funext i
    obtain ⟨j, rfl⟩ : ∃ j : Fin 128, i = ix1 j := ⟨i 0, eq_ix1 i⟩
    rw [Cert.ReferenceIdeal.RefHm1.hm1_apply]
    exact (congrArg (fun s => maskOf s j) (score2_eq m c h15 hpre)).symm
  · -- the third mask
    refine (hc.2.2.2.1.trans (Cert.ReferenceIdeal.Read.val_main_v113_eq m' c)).trans ?_
    rw [a0, a1, a2, a4, a5, a6, a7, a14]
    funext i
    obtain ⟨j, rfl⟩ : ∃ j : Fin 64, i = ix1 j := ⟨i 0, eq_ix1 i⟩
    rw [Cert.ReferenceIdeal.RefHm2.hm2_apply]
    exact (congrArg (fun s => maskOf s j) (score3_eq m c h15 hpre)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
